-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S100000x128 : Shape := ⟨2, ![100000, 128]⟩
abbrev S100000 : Shape := ⟨1, ![100000]⟩
abbrev S2048 : Shape := ⟨1, ![2048]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg3 : IVec S2048 32) (main_v13 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v13 main_v16
  let main_c_6 : IVec S_ 32 := constantI S_ 32 100000#32
  let main_v18 : IVec S2048 32 := broadcastInDim S2048 ![] bcast_S_S2048 main_c_6
  let main_v19 : IVec S2048 1 := cmpi .slt main_arg3 main_v18
  let main_c_7 : IVec S_ 1 := constantI S_ 1 1#1
  let main_v20 : IVec S_ 1 := (fun x v => Host.reduce IntOp.andi x v reducesTo_S2048_S_d0 h_S_) main_v19 main_c_7
  let main_v21 : IVec S_ 1 := andi main_v17 main_v20
  main_v21

def fn {F : FTy → Type} [FloatOps F] (main_arg0 : FVec F S2048x128 .f32) (main_arg1 : FVec F S100000x128 .f32) (main_arg2 : FVec F S100000 .f32) (main_arg3 : IVec S2048 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg3 main_v14
  let main_c_5 : IVec S_ 1 := constantI S_ 1 1#1
  fn_part1 (F := F) main_arg3 main_v13 main_v15 main_c_5
-- ==== Kernel.lean ====
abbrev S2048x128 : Shape := ⟨2, ![2048, 128]⟩
abbrev S100000x128 : Shape := ⟨2, ![100000, 128]⟩
abbrev S100000 : Shape := ⟨1, ![100000]⟩
abbrev S2048 : Shape := ⟨1, ![2048]⟩
abbrev S2x2048x1 : Shape := ⟨3, ![2, 2048, 1]⟩
abbrev S1x2048x1 : Shape := ⟨3, ![1, 2048, 1]⟩
abbrev S2048x1 : Shape := ⟨2, ![2048, 1]⟩
abbrev S1024x128 : Shape := ⟨2, ![1024, 128]⟩
abbrev S1024x2048 : Shape := ⟨2, ![1024, 2048]⟩
abbrev S1x2048 : Shape := ⟨2, ![1, 2048]⟩
abbrev S1024x1 : Shape := ⟨2, ![1024, 1]⟩
abbrev S1024 : Shape := ⟨1, ![1024]⟩
abbrev S_ : Shape := ⟨0, ![]⟩

abbrev nBuf : Space → Nat
  | .hbm => 52
  | .vmem => 11
  | .smem => 0
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S100000, .f32⟩
  | .hbm, ⟨3, _⟩ => ⟨S2048, .i32⟩
  | .hbm, ⟨4, _⟩ => ⟨S2x2048x1, .f32⟩
  | .hbm, ⟨5, _⟩ => ⟨S2x2048x1, .f32⟩
  | .hbm, ⟨6, _⟩ => ⟨S1x2048x1, .f32⟩
  | .hbm, ⟨7, _⟩ => ⟨S2048x1, .f32⟩
  | .hbm, ⟨8, _⟩ => ⟨S1x2048x1, .f32⟩
  | .hbm, ⟨9, _⟩ => ⟨S2048x1, .f32⟩
  | .hbm, ⟨10, _⟩ => ⟨S1x2048x1, .f32⟩
  | .hbm, ⟨11, _⟩ => ⟨S2048x1, .f32⟩
  | .hbm, ⟨12, _⟩ => ⟨S1x2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048, .f32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x128, .f32⟩
  | .hbm, ⟨34, _⟩ => ⟨S2048x128, .f32⟩
  | .hbm, ⟨35, _⟩ => ⟨S_, .f32⟩
  | .hbm, ⟨36, _⟩ => ⟨S2048, .f32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048x1, .i32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048, .f32⟩
  | .local _ .vmem, ⟨4, _⟩ => ⟨S2048, .f32⟩
  | .local _ .vmem, ⟨5, _⟩ => ⟨S1x2048x1, .f32⟩
  | .local _ .vmem, ⟨6, _⟩ => ⟨S1x2048x1, .f32⟩
  | .local _ .vmem, ⟨7, _⟩ => ⟨S1x2048x1, .f32⟩
  | .local _ .vmem, ⟨8, _⟩ => ⟨S1x2048x1, .f32⟩
  | .local _ .vmem, ⟨9, _⟩ => ⟨S2048x1, .f32⟩
  | .local _ .vmem, ⟨10, _⟩ => ⟨S2048x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v76 : BitVec 1 := Scalar.cmpi .eq arg1 c24_i32
  let v77 : BitVec 32 := Scalar.extui v76
  let c0_i32_31 : BitVec 32 := 0#32
  let v78 : BitVec 1 := Scalar.cmpi .ne v77 c0_i32_31
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c48_i32 : BitVec 32 := 48#32
  let v2 : BitVec 32 := Scalar.minsi v1 c48_i32
  let c0_i32 : BitVec 32 := 0#32
  let c0_i32_0 : BitVec 32 := 0#32
  ![v2.toNat, c0_i32.toNat]

def cc0_transform_2 (i : grid0.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c48_i32 : BitVec 32 := 48#32
  let v2 : BitVec 32 := Scalar.minsi v1 c48_i32
  let c0_i32 : BitVec 32 := 0#32
  ![v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S2048x128_S1024x128_0_0 : ∀ a, (![0, 0] : Fin 2 → Nat) a + S1024x128.size a ≤ S2048x128.size a
  h_S1024x128 : 0 < S1024x128.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  iota_S1024x2048_d1_w32 : S1024x2048.Iotas .tc 32 [1]
  inb_S2048x1_S1024x1_0_0 : ∀ a, (![0, 0] : Fin 2 → Nat) a + S1024x1.size a ≤ S2048x1.size a
  h_S1024x1 : 0 < S1024x1.numel
  reduces_S1024x2048_S1024 : S1024x2048.Reduces [1] S1024
  shapeCasts_S1024_S1024x1 : S1024.ShapeCasts S1024x1
  broadcasts_S1024x1_S1024x2048 : S1024x1.Broadcasts S1024x2048
  shapeCasts_S1024x1_S1024x1 : S1024x1.ShapeCasts S1024x1
  inb_S2048x128_S1024x128_1024_0 : ∀ a, (![1024, 0] : Fin 2 → Nat) a + S1024x128.size a ≤ S2048x128.size a
  inb_S2048x1_S1024x1_1024_0 : ∀ a, (![1024, 0] : Fin 2 → Nat) a + S1024x1.size a ≤ S2048x1.size a
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  slices_S2x2048x1_S1x2048x1_0_0_0 : S2x2048x1.Slices ![0, 0, 0] S1x2048x1
  slices_S2x2048x1_S1x2048x1_1_0_0 : S2x2048x1.Slices ![1, 0, 0] S1x2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  reducesTo_S2048x128_S2048_d1 : S2048x128.ReducesTo [1] S2048
  h_S_ : 0 < S_.numel
  reducesTo_S2048_S_d0 : S2048.ReducesTo [0] S_
  dot_S1024x128_S2048x128_S1024x2048_1_1_0_0_n_n_wf : DotDims.WF S1024x128 S2048x128 S1024x2048 [1] [1] [0] [0] [] []
  gather_S100000x128_S2048x1_S2048x128_1_0_n_n_0_1_1128_wf : GatherDims.WF S100000x128 S2048x1 S2048x128 [1] [0] [] [0] [] 1 ![1, 128]
  gather_S100000_S2048x1_S2048_n_0_n_n_0_1_1_wf : GatherDims.WF S100000 S2048x1 S2048 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048.size a < S100000.size a
  hwx0_2 : ∀ i : grid0.Coords, EltTy.bits .f32 = 32 ∨ (Rect.unit (s := S100000) (fun a => cc0_transform_2 i a * S2048.size a) (fun a => (Pipeline.Clip.of (cc0_transform_2 i a) (S2048.size a) (S100000.size a)).extent (S2048.size a)) fun a => Pipeline.Clip.inb (Pipeline.Clip.ok_of (hstart0_2 i a))).WholeWords (EltTy.packing .f32)
  hwxs0_2 : ∀ i : grid0.Coords, EltTy.bits .f32 = 32 ∨ (Rect.unit (s := S2048) (fun _ => 0) (fun a => (Pipeline.Clip.of (cc0_transform_2 i a) (S2048.size a) (S100000.size a)).extent (S2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S2x2048x1.size a
  hwx0_3 : ∀ i : grid0.Coords, EltTy.bits .f32 = 32 ∨ (Rect.block (s := S2x2048x1) S1x2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S2x2048x1.size a
  hwx0_4 : ∀ i : grid0.Coords, EltTy.bits .f32 = 32 ∨ (Rect.block (s := S2x2048x1) S1x2048x1.size (cc0_transform_4 i) (hinb0_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def gather_S100000_S2048x1_S2048_n_0_n_n_0_1_1 : GatherDims S100000 S2048x1 S2048 where
  offsetDims := []
  collapsedSliceDims := [0]
  operandBatchingDims := []
  startIndicesBatchingDims := []
  startIndexMap := [0]
  indexVectorDim := 1
  sliceSizes := ![1]
  wf := gather_S100000_S2048x1_S2048_n_0_n_n_0_1_1_wf

abbrev win0_0 : Pipeline.Window sig grid0 :=
  Pipeline.Window.ofSpec (Memref.whole main_arg0) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0_0) S1x2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x128 : Shape := ⟨2, ![2048, 128]⟩
abbrev S100000x128 : Shape := ⟨2, ![100000, 128]⟩
abbrev S100000 : Shape := ⟨1, ![100000]⟩
abbrev S2048 : Shape := ⟨1, ![2048]⟩
abbrev S2048x100000 : Shape := ⟨2, ![2048, 100000]⟩
abbrev S1x100000 : Shape := ⟨2, ![1, 100000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S100000, .f32⟩
  | .hbm, ⟨3, _⟩ => ⟨S2048, .i32⟩
  | .hbm, ⟨4, _⟩ => ⟨S2048x100000, .f32⟩
  | .hbm, ⟨5, _⟩ => ⟨S1x100000, .f32⟩
  | .hbm, ⟨6, _⟩ => ⟨S2048x100000, .f32⟩
  | .hbm, ⟨7, _⟩ => ⟨S2048x100000, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x100000, .f32⟩
  | .hbm, ⟨15, _⟩ => ⟨S2048x100000, .f32⟩
  | .hbm, ⟨16, _⟩ => ⟨S2048x100000, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x1, .f32⟩
  | .hbm, ⟨21, _⟩ => ⟨S2048x100000, .f32⟩
  | .hbm, ⟨22, _⟩ => ⟨S2048x100000, .f32⟩
  | .hbm, ⟨23, _⟩ => ⟨S2048x1, .i32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .i32⟩
  | .hbm, ⟨31, _⟩ => ⟨S2048x1x1, .i32⟩
  | .hbm, ⟨32, _⟩ => ⟨S1, .i32⟩
  | .hbm, ⟨33, _⟩ => ⟨S_, .i32⟩
  | .hbm, ⟨34, _⟩ => ⟨S2048x1x1, .i32⟩
  | .hbm, ⟨35, _⟩ => ⟨S2048x1x1, .i1⟩
  | .hbm, ⟨36, _⟩ => ⟨S1x1x1, .i32⟩
  | .hbm, ⟨37, _⟩ => ⟨S2048x1x1, .i32⟩
  | .hbm, ⟨38, _⟩ => ⟨S2048x1x1, .i1⟩
  | .hbm, ⟨39, _⟩ => ⟨S2048x1x1, .i1⟩
  | .hbm, ⟨40, _⟩ => ⟨S_, .i1⟩
  | .hbm, ⟨41, _⟩ => ⟨S2048x1, .i1⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_v5 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_v9 : Ref sig .tc := ⟨.hbm, 49, rfl⟩
abbrev main_cst_0 : Ref sig .tc := ⟨.hbm, 50, rfl⟩
abbrev main_v10 : Ref sig .tc := ⟨.hbm, 51, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S2048x100000_0_1 : S1x100000.BroadcastsInDim S2048x100000 (![0, 1] : Fin 2 → Fin S2048x100000.rank)
  reducesTo_S2048x100000_S2048_d1 : S2048x100000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x100000_0_1 : S2048x1.BroadcastsInDim S2048x100000 (![0, 1] : Fin 2 → Fin S2048x100000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S2048x128_S100000x128_S2048x100000_1_1_0_0_n_n_wf : DotDims.WF S2048x128 S100000x128 S2048x100000 [1] [1] [0] [0] [] []
  gather_S2048x100000_S2048x1x1_S2048x1_n_1_0_0_1_2_11_wf : GatherDims.WF S2048x100000 S2048x1x1 S2048x1 [] [1] [0] [1] [0] 2 ![1, 1]

variable [Facts₀]

def dot_S2048x128_S100000x128_S2048x100000_1_1_0_0_n_n : DotDims S2048x128 S100000x128 S2048x100000 where
  lhsContracting := [1]
  rhsContracting := [1]
  lhsNonContracting := [0]
  rhsNonContracting := [0]
  lhsBatch := []
  rhsBatch := []
  wf := dot_S2048x128_S100000x128_S2048x100000_1_1_0_0_n_n_wf
def gather_S2048x100000_S2048x1x1_S2048x1_n_1_0_0_1_2_11 : GatherDims S2048x100000 S2048x1x1 S2048x1 where
  offsetDims := []
  collapsedSliceDims := [1]
  operandBatchingDims := [0]
  startIndicesBatchingDims := [0]
  startIndexMap := [1]
  indexVectorDim := 2
  sliceSizes := ![1, 1]
  wf := gather_S2048x100000_S2048x1x1_S2048x1_n_1_0_0_1_2_11_wf

class Facts : Prop extends Facts₀ where

variable [Facts]
-- ==== Proof.WordFrame.lean ====
/-
  The frame of the program as printed (word level): it runs to the end, faults nowhere and leaves its four argument
  arrays as they were.

  Nothing is claimed of what the two output arrays hold: the body's results depend on the staging words past the
  table's end, which nothing names at this level.  So the proof data forgets the two output windows (each is handed to
  the body at anything and taken back at anything) and keeps the scratch columns at anything throughout; the three
  input windows are stated as at the exact level: the query array whole, the table and bias tiles on the part a fetch
  moves.  The body's runs are the same three, by the kind of point.
-/
import proofs.«414775_j1821066134199_3_alg».proof.Proof.WordBodyRunLast
import proofs.«414775_j1821066134199_3_alg».proof.Proof.WordWinBlocks

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class invariant with the two scratch columns as owned memrefs at some contents. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA; rw [scopedRest0_eq]; simp only [scM, scL, owns_whole]; try rfl

/-- The two output windows are forgotten. -/
abbrev fgtOut : Fin cfg0.W → Bool := fun | 0 => false | 1 => false | 2 => false | 3 => true | 4 => true | ⟨_ + 5, h⟩ => absurd h (Nat.not_lt.2 (Nat.le_add_left _ _))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tabBlk m c t
    | ⟨2, _⟩ => biasBlk m c t
    | ⟨3, _⟩ => fun _ => padWord
    | ⟨4, _⟩ => fun _ => padWord
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = tabBlk m c t := by dsimp only [dats]
theorem after2 (c : Dev nD) (t : Fin cfg0.N) : (dats m 0 c).after 2 t = biasBlk m c t := by dsimp only [dats]

theorem before0 (c : Dev nD) (t : Fin cfg0.N) (d) : (dats m 0 c).before 0 t d = iblk m c 0 t :=
  before0_0_of m (dats m 0 c) (A_eq m c 0) (after0 m c) t d
theorem cut1 (c : Dev nD) (t : Fin cfg0.N) (d) : (cfg0.win 1).cut (grid0.coords t) ((dats m 0 c).before 1 t d) = iblk m c 1 t :=
  cut_before1 m (dats m 0 c) (A_eq m c 1) (after1 m c) t d
theorem cut2 (c : Dev nD) (t : Fin cfg0.N) (d) : (cfg0.win 2).cut (grid0.coords t) ((dats m 0 c).before 2 t d) = iblk m c 2 t :=
  cut_before2 m (dats m 0 c) (A_eq m c 2) (after2 m c) t d

theorem fill_back1 (c : Dev nD) (t : Fin cfg0.N) (d) :
    (cfg0.win 1).fill (grid0.coords t) ((dats m 0 c).before 1 t d) ((cfg0.win 1).cut (grid0.coords t) ((dats m 0 c).after 1 t))
      = (dats m 0 c).before 1 t d := by
  rw [after1, tabBlk, Window.cut_fill, ← cut1 m c t d]; exact Window.fill_cut _ _ _
theorem fill_back2 (c : Dev nD) (t : Fin cfg0.N) (d) :
    (cfg0.win 2).fill (grid0.coords t) ((dats m 0 c).before 2 t d) ((cfg0.win 2).cut (grid0.coords t) ((dats m 0 c).after 2 t))
      = (dats m 0 c).before 2 t d := by
  rw [after2, biasBlk, Window.cut_fill, ← cut2 m c t d]; exact Window.fill_cut _ _ _

theorem leaves0 (c : Dev nD) (t : Fin cfg0.N) :
    (dats m 0 c).leaves 0 t = owns (c : Thread nD τ) (ms0 t) fullShare (iblk m c 0 t) := by
  unfold Dat.leaves; rw [live0 t, after0]
theorem leaves1 (c : Dev nD) (t : Fin cfg0.N) :
    (dats m 0 c).leaves 1 t = iprop(∃ d, owns (c : Thread nD τ) (ms1 t) fullShare
      ((cfg0.win 1).fill (grid0.coords t) d ((cfg0.win 1).cut (grid0.coords t) ((dats m 0 c).after 1 t)))) := by
  unfold Dat.leaves; rw [live1 t]; rfl
theorem leaves2 (c : Dev nD) (t : Fin cfg0.N) :
    (dats m 0 c).leaves 2 t = iprop(∃ d, owns (c : Thread nD τ) (ms2 t) fullShare
      ((cfg0.win 2).fill (grid0.coords t) d ((cfg0.win 2).cut (grid0.coords t) ((dats m 0 c).after 2 t)))) := by
  unfold Dat.leaves; rw [live2 t]; rfl

/-- What the body is called with at point `t`: the invariant, the three input windows' buffers as found, the two
    forgotten output windows' buffers at anything, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ X, owns (c : Thread nD τ) (ms3 t) fullShare X)
    ∗ (∃ X, owns (c : Thread nD τ) (ms4 t) fullShare X))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (∃ X, owns (c : Thread nD τ) (ms3 t) fullShare X)
    ∗ (∃ X, owns (c : Thread nD τ) (ms4 t) fullShare X))

set_option maxHeartbeats 4000000 in
/-- The body at any point, by its kind: the run applies at whatever the scratch and the outputs hold, and hands every
    buffer back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [leaves0, leaves1, leaves2]
  rw [show (dats m 0 c).Φ t.castSucc = Pipeline.ΦA spec0 c from rfl, show (dats m 0 c).Φ t.succ = Pipeline.ΦA spec0 c from rfl, PhiA_eq]
  have hN : t.val < 50 := lt_of_lt_of_eq t.isLt (show cfg0.N = 50 from N_0)
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩⟩
  rw [before0 m c t d0]
  by_cases h0 : t.val % 25 = 0
  · have hc0 : condFirst (grid0.coords t) := (condFirst_iff t).mpr h0
    have hc1 : ¬condLast (grid0.coords t) := fun h => by have := (condLast_iff t).mp h; omega
    iapply ((runFirst (F := F) c (grid0.coords t) (ms0 t) (hs0 t) (ms1 t) (hs1 t) (ms2 t) (hs2 t) (ms3 t) (hs3 t) (ms4 t) (hs4 t) scM (Memref.isWhole_whole _) scL (Memref.isWhole_whole _) hc0 hc1 (iblk m c 0 t) ((dats m 0 c).before 1 t d1) ((dats m 0 c).before 2 t d2)).2.2 d3 d4 Set.univ _)
    isplitl [H0]; · iexact H0
    isplitl [H1]; · iexact H1
    isplitl [H2]; · iexact H2
    isplitl [H3]; · iexact H3
    isplitl [H4]; · iexact H4
    isplitl [HS0]; · iexists s0; iexact HS0
    isplitl [HS1]; · iexists s1; iexact HS1
    iintro ⟨H0, H1, H2, H3, H4, ⟨%es0, HS0⟩, ⟨%es1, HS1⟩⟩
    isplitl [HS0 HS1 Hg]
    · isplitl [HS0 HS1]
      · isplitl [HS0]
        · iexists _; unfold owns; iexists _; isplitr
          swap; · iexact HS0
          ipureintro; rfl
        · iexists _; unfold owns; iexists _; isplitr
          swap; · iexact HS1
          ipureintro; rfl
      iexact Hg
    isplitl [Ho]; · iexact Ho
    isplitl [H0]; · iexact H0
    isplitl [H1]
    · iexists ((dats m 0 c).before 1 t d1); rw [fill_back1 m c t d1]; iexact H1
    isplitl [H2]
    · iexists ((dats m 0 c).before 2 t d2); rw [fill_back2 m c t d2]; iexact H2
    isplitl [H3]; · iexists d3; iexact H3
    iexists d4; iexact H4
  · have hc0 : ¬condFirst (grid0.coords t) := fun h => h0 ((condFirst_iff t).mp h)
    by_cases h1 : t.val % 25 = 24
    · have hc1 : condLast (grid0.coords t) := (condLast_iff t).mpr h1
      iapply ((runLast (F := F) c (grid0.coords t) (ms0 t) (hs0 t) (ms1 t) (hs1 t) (ms2 t) (hs2 t) (ms3 t) (hs3 t) (ms4 t) (hs4 t) scM (Memref.isWhole_whole _) scL (Memref.isWhole_whole _) hc0 hc1 (iblk m c 0 t) ((dats m 0 c).before 1 t d1) ((dats m 0 c).before 2 t d2) s0 s1).2.2.2.2 Set.univ _)
      isplitl [H0]; · iexact H0
      isplitl [H1]; · iexact H1
      isplitl [H2]; · iexact H2
      isplitl [H3]; · iexists d3; iexact H3
      isplitl [H4]; · iexists d4; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        iexact Hg
      isplitl [Ho]; · iexact Ho
      isplitl [H0]; · iexact H0
      isplitl [H1]
      · iexists ((dats m 0 c).before 1 t d1); rw [fill_back1 m c t d1]; iexact H1
      isplitl [H2]
      · iexists ((dats m 0 c).before 2 t d2); rw [fill_back2 m c t d2]; iexact H2
      isplitl [H3]
      · iexists _; unfold owns; iexists _; isplitr
        swap; · iexact H3
        ipureintro; rfl
      · iexists _; unfold owns; iexists _; isplitr
        swap; · iexact H4
        ipureintro; rfl
    · have hc1 : ¬condLast (grid0.coords t) := fun h => h1 ((condLast_iff t).mp h)
      iapply ((runMid (F := F) c (grid0.coords t) (ms0 t) (hs0 t) (ms1 t) (hs1 t) (ms2 t) (hs2 t) (ms3 t) (hs3 t) (ms4 t) (hs4 t) scM (Memref.isWhole_whole _) scL (Memref.isWhole_whole _) hc0 hc1 (iblk m c 0 t) ((dats m 0 c).before 1 t d1) ((dats m 0 c).before 2 t d2) s0 s1).2.2 d3 d4 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        iexact Hg
      isplitl [Ho]; · iexact Ho
      isplitl [H0]; · iexact H0
      isplitl [H1]
      · iexists ((dats m 0 c).before 1 t d1); rw [fill_back1 m c t d1]; iexact H1
      isplitl [H2]
      · iexists ((dats m 0 c).before 2 t d2); rw [fill_back2 m c t d2]; iexact H2
      isplitl [H3]; · iexists d3; iexact H3
      iexists d4; iexact H4

/-- The library's body obligation with the two output windows forgotten. -/
theorem body_obligation (c : Dev nD) : BodyObligationLoose (dats m 0 c) (defs₀ (F := F)) Variants.none () Set.univ fgtOut := fun t => by
  rw [bigSep_W0, bigSep_W0]
  exact sound_body m c t

/-- No host operation after the region writes the label array. -/
theorem tail_keeps_labels : ∀ op ∈ (hostOps1 : List (HloOp τ sig (Elt F))), Proc.devRef .tc main_arg3 ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- The buffers the host operations after the region may write: every one but the label array. -/
abbrev tailWritten : Finset (Ref sig .tc) := Finset.univ.erase main_arg3

set_option backward.isDefEq.respectTransparency.types false in
/-- The run, to the relational frame post: each input array at its entry contents, the label array as launched. -/
theorem run_main : θ_run defs (onTc (τ := τ) (main (F := F))) (s₀ m ρ)
    (Pipeline.RDat.FramePostR cfg0 (fun c => (dats m 0 c).toRForget fgtOut) tailWritten (fun c b => V0 m c (Proc.devRef .tc b))) :=
  Pipeline.RDat.θ_run_frame_around_T cfgs (0 : Fin 1) launch0 defs₀ Variants.none (fun c => (dats m 0 c).toRForget fgtOut) tailWritten m ρ main
    (hbody := fun c => (body_obligation m c).toRForget) (hshare := fun c => (dats m 0 c).share_full fun _ => rfl)
    (howed := fun _ _ => rfl) (V₀ := V0 m) (opss := [hostOps1]) (hsub := sfx_sub) (hfresh := sfx_fresh) (hkeep := sfx_keeps)
    (hT := fun ops hops op hop b hb => by
      simp only [List.mem_cons, List.mem_nil_iff, or_false] at hops
      subst hops
      exact Finset.mem_erase.mpr ⟨fun e => tail_keeps_labels op hop (e ▸ hb), Finset.mem_univ _⟩)
    (hmain := hmain m Variants.none) (hA := fun c w => A_eq m c w) (hΦ := fun _ _ => rfl)

/-- THE FRAME of the program as printed, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.arr_in c 0 rfl).trans ((A_eq m c 0).trans (V_main_arg0 m c)),
     (h.arr_in c 1 rfl).trans ((A_eq m c 1).trans (V_main_arg1 m c)),
     (h.arr_in c 2 rfl).trans ((A_eq m c 2).trans (V_main_arg2 m c)),
     ((h c).2 main_arg3 (Finset.mem_sdiff.mpr ⟨Pipeline.mem_restRefs_of main_arg3 (by decide) (by decide), by simp⟩)).trans (V_main_arg3 m c)⟩)
    (run_main m ρ)

end Cert.Kernel.Body

end
-- ==== Proof.LibSoftmaxReal.lean ====
/-
  Real-number and extended-real facts both sides of the comparison use: coercions pushed through finite sums,
  quotients and the exponential; positivity of a sum of exponentials; the shift invariance of a softmax-weighted
  average; a sum over 32768 keys regrouped as 32 tiles of 1024; the maximum of finitely many reals is a real.
-/
import Idealize.ShloMosaic.PureOps.Ideal
import Mathlib.Analysis.SpecialFunctions.Exp
import Mathlib.Algebra.BigOperators.Fin
import Mathlib.Data.EReal.Basic

noncomputable section

namespace Cert.RealLemmas

open Idealize.ShloMosaic

/-- Over any finite set, the coercion of a real sum is the sum of the coercions: the empty sum is zero on both
    sides, and inserting one more key adds one more term, the coercion being additive. -/
theorem coe_sum_finset {K : Type} (S : Finset K) (f : K → ℝ) :
    (((∑ k ∈ S, f k) : ℝ) : EReal) = ∑ k ∈ S, ((f k : ℝ) : EReal) := by
  classical
  refine Finset.induction_on S ?_ ?_
  · rw [Finset.sum_empty, Finset.sum_empty, EReal.coe_zero]
  · intro a s ha ih
    rw [Finset.sum_insert ha, Finset.sum_insert ha, EReal.coe_add, ih]

/-- The coercion of a finite real sum is the sum of the coercions. -/
theorem coe_sum {K : Type} [Fintype K] (f : K → ℝ) : (((∑ k, f k) : ℝ) : EReal) = ∑ k, ((f k : ℝ) : EReal) :=
  coe_sum_finset Finset.univ f

/-- The ideal quotient of two reals with a nonzero divisor is the real quotient. -/
theorem div_coe (x y : ℝ) (hy : y ≠ 0) : Ideal.div (x : EReal) (y : EReal) = (((x / y) : ℝ) : EReal) := by
  rw [Ideal.div_coe hy, ← EReal.coe_mul, mul_one_div]

/-- The ideal exponential of a real is the real exponential. -/
theorem exp_coe (x : ℝ) : Ideal.exp (x : EReal) = ((Real.exp x : ℝ) : EReal) := rfl

/-- A nonempty finite sum of exponentials is positive. -/
theorem sum_exp_pos {K : Type} [Fintype K] [Nonempty K] (f : K → ℝ) : 0 < ∑ k, Real.exp (f k) :=
  Finset.sum_pos (fun k _ => Real.exp_pos (f k)) Finset.univ_nonempty

/-- Shift invariance: weights `exp (s k - M)` normalised by their sum average `v` exactly as the unshifted
    weights `exp (s k)` do, the common factor `exp (-M)` cancelling. -/
theorem softmax_shift {K : Type} [Fintype K] [Nonempty K] (s v : K → ℝ) (M : ℝ) :
    ∑ k, (Real.exp (s k - M) / ∑ j, Real.exp (s j - M)) * v k
      = (∑ k, Real.exp (s k) * v k) / ∑ k, Real.exp (s k) := by
  -- every shifted weight is the unshifted one times the common positive factor `exp (-M)`
  have hc : Real.exp (-M) ≠ 0 := (Real.exp_pos (-M)).ne'
  have hshift : ∀ k, Real.exp (s k - M) = Real.exp (s k) * Real.exp (-M) := fun k => by
    rw [sub_eq_add_neg, Real.exp_add]
  -- so the shifted normaliser is the unshifted one times the same factor
  have hden : ∑ j, Real.exp (s j - M) = (∑ j, Real.exp (s j)) * Real.exp (-M) := by
    rw [Finset.sum_mul]
    exact Finset.sum_congr rfl (fun j _ => hshift j)
  -- the factor cancels in each term, and the common denominator comes out of the sum
  rw [hden, Finset.sum_div]
  refine Finset.sum_congr rfl (fun k _ => ?_)
  rw [hshift k, mul_div_mul_right _ _ hc, div_mul_eq_mul_div]

/-- A sum over 32768 keys, taken tile by tile: 32 tiles of 1024 consecutive keys. -/
theorem sum_tiles (f : Fin 32768 → ℝ) :
    ∑ t : Fin 32, ∑ r : Fin 1024, f ⟨t.val * 1024 + r.val, by omega⟩ = ∑ k : Fin 32768, f k := by
  -- the double sum is a single sum over pairs (tile, offset) ...
  refine (Fintype.sum_prod_type'
    (fun (t : Fin 32) (r : Fin 1024) => f ⟨t.val * 1024 + r.val, by omega⟩)).symm.trans ?_
  -- ... and pairs correspond one to one to keys, the pair (t, r) to the key r + 1024 * t
  refine Fintype.sum_equiv (finProdFinEquiv : Fin 32 × Fin 1024 ≃ Fin (32 * 1024)) _ _ ?_
  rintro ⟨t, r⟩
  refine congrArg f (Fin.ext ?_)
  show t.val * 1024 + r.val = r.val + 1024 * t.val
  omega

/-- The running maximum from `⊥` over any finite family of reals is `⊥` or a real: it is `⊥` over the empty
    family, and one more real `x` turns `⊥` into `x` and a real `M` into the larger of `x` and `M`. -/
theorem fold_max_bot_or_coe {K : Type} (S : Finset K) (g : K → ℝ) :
    S.fold max (⊥ : EReal) (fun k => ((g k : ℝ) : EReal)) = ⊥
      ∨ ∃ M : ℝ, S.fold max (⊥ : EReal) (fun k => ((g k : ℝ) : EReal)) = (M : EReal) := by
  classical
  refine Finset.induction_on S ?_ ?_
  · exact Or.inl Finset.fold_empty
  · intro a s ha ih
    refine Or.inr ?_
    rw [Finset.fold_insert ha]
    rcases ih with h | ⟨M, h⟩
    · exact ⟨g a, by rw [h]; exact max_eq_left bot_le⟩
    · rcases le_total ((g a : ℝ) : EReal) (M : EReal) with hle | hle
      · exact ⟨M, by rw [h]; exact max_eq_right hle⟩
      · exact ⟨g a, by rw [h]; exact max_eq_left hle⟩

/-- Over a family with at least one member the running maximum is a real: split off one member `a`; the
    maximum over the rest is `⊥` or a real, and the larger of the real `g a` and either is a real. -/
theorem fold_max_insert_coe {K : Type} [DecidableEq K] (a : K) (s : Finset K) (ha : a ∉ s) (g : K → ℝ) :
    ∃ M : ℝ, (insert a s).fold max (⊥ : EReal) (fun k => ((g k : ℝ) : EReal)) = (M : EReal) := by
  rw [Finset.fold_insert ha]
  rcases fold_max_bot_or_coe s g with h | ⟨M, h⟩
  · exact ⟨g a, by rw [h]; exact max_eq_left bot_le⟩
  · rcases le_total ((g a : ℝ) : EReal) (M : EReal) with hle | hle
    · exact ⟨M, by rw [h]; exact max_eq_right hle⟩
    · exact ⟨g a, by rw [h]; exact max_eq_left hle⟩

/-- The running maximum from `⊥` over a nonempty finite family of reals is a real. -/
theorem fold_max_coe {n : ℕ} (f : Fin (n + 1) → ℝ) :
    ∃ M : ℝ, (Finset.univ : Finset (Fin (n + 1))).fold max (⊥ : EReal) (fun k => ((f k : ℝ) : EReal)) = (M : EReal) := by
  -- the whole index set is the index 0 together with the rest
  have huniv : (Finset.univ : Finset (Fin (n + 1))) = insert 0 (Finset.univ.erase 0) :=
    (Finset.insert_erase (Finset.mem_univ 0)).symm
  rw [huniv]
  exact fold_max_insert_coe 0 (Finset.univ.erase 0) (Finset.notMem_erase 0 Finset.univ) f

end Cert.RealLemmas

end
-- ==== Proof.LibLogSumExp.lean ====
/-
  The log-sum-exp of one row of logits, taken tile by tile.

  A row has 100000 logits z 0, …, z 99999.  They are visited in tiles of 2048 lanes; lane c of tile τ holds
  z (2048 τ + c) when that column exists and −∞ otherwise.  A pass over the tiles lo, lo+1, …, t−1 keeps a pair
  (m, l): m is some real shift μ (the running maximum, but only its being a real number matters) and l is the sum,
  over the columns visited so far, of exp (z − μ).  One more tile replaces μ by the larger of μ and the tile's
  maximum and rescales l by exp (μ − μ'); two passes over disjoint halves merge the same way; and
  μ + log (sum of exp (z − μ)) does not depend on μ: it is the log-sum-exp of the row.
-/
import proofs.«414775_j1821066134199_3_alg».proof.Proof.LibSoftmaxReal
import Idealize.ShloMosaic.PureOps.Ideal
import Mathlib.Analysis.SpecialFunctions.Log.Basic
import Mathlib.Analysis.SpecialFunctions.Exp
import Mathlib.Algebra.BigOperators.Fin
import Mathlib.Algebra.BigOperators.Intervals
import Mathlib.Data.EReal.Basic
import Mathlib.Data.EReal.Operations

noncomputable section

namespace Cert.LogSumExp

open Idealize.ShloMosaic

/-- Lane `c` of tile `τ`: the logit of column `2048 τ + c` if the row has that column, else −∞. -/
def tileVal (z : ℕ → ℝ) (τ : ℕ) (c : Fin 2048) : EReal :=
  if 2048 * τ + c.val < 100000 then ((z (2048 * τ + c.val) : ℝ) : EReal) else ⊥

/-- What tile `τ` adds to the sum of exponentials shifted by `μ`: a missing column adds nothing. -/
def tileSum (z : ℕ → ℝ) (μ : ℝ) (τ : ℕ) : ℝ :=
  ∑ c : Fin 2048, if 2048 * τ + c.val < 100000 then Real.exp (z (2048 * τ + c.val) - μ) else 0

/-- The shifted sum over the tiles `lo ≤ τ < hi`. -/
def partSum (z : ℕ → ℝ) (μ : ℝ) (lo hi : ℕ) : ℝ := ∑ τ ∈ Finset.Ico lo hi, tileSum z μ τ

/-- The pair (m, l) after the tiles `lo ≤ τ < t`: before any tile (−∞, 0); afterwards a real shift and the sum shifted by it. -/
def Inv (z : ℕ → ℝ) (lo t : ℕ) (m l : EReal) : Prop :=
  (t = lo ∧ m = ⊥ ∧ l = 0) ∨ (lo < t ∧ ∃ μ : ℝ, m = (μ : EReal) ∧ l = ((partSum z μ lo t : ℝ) : EReal))

/-- The new shift: the larger of the old one and the tile's maximum (taken from −∞). -/
def mStep (m : EReal) (s : Fin 2048 → EReal) : EReal :=
  max m ((Finset.univ : Finset (Fin 2048)).fold max ⊥ s)

/-- The new sum: the old one rescaled to the new shift, plus the tile's exponentials at the new shift. -/
def lStep (m l : EReal) (s : Fin 2048 → EReal) : EReal :=
  Ideal.exp (m - mStep m s) * l + ∑ c : Fin 2048, Ideal.exp (s c - mStep m s)

theorem Inv_zero (z : ℕ → ℝ) (lo : ℕ) : Inv z lo lo ⊥ 0 := Or.inl ⟨rfl, rfl, rfl⟩

/-- The larger of two reals, taken in the extended reals, is the coercion of the larger real. -/
private theorem max_coe (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Every lane of a tile is −∞ or a real. -/
private theorem tileVal_bot_or_coe (z : ℕ → ℝ) (τ : ℕ) (c : Fin 2048) :
    tileVal z τ c = ⊥ ∨ ∃ r : ℝ, tileVal z τ c = (r : EReal) := by
  unfold tileVal
  split_ifs
  · exact Or.inr ⟨_, rfl⟩
  · exact Or.inl rfl

/-- The running maximum from −∞ over finitely many values, each −∞ or a real, is −∞ or a real: over no values it
    is −∞; one more value joins −∞ or a real to −∞ or a real, and in each of the four cases the larger is of that kind. -/
private theorem fold_max_bot_or_real {K : Type} (S : Finset K) (s : K → EReal)
    (hs : ∀ k, s k = ⊥ ∨ ∃ r : ℝ, s k = (r : EReal)) :
    S.fold max (⊥ : EReal) s = ⊥ ∨ ∃ M : ℝ, S.fold max (⊥ : EReal) s = (M : EReal) := by
  classical
  refine Finset.induction_on S ?_ ?_
  · exact Or.inl Finset.fold_empty
  · intro a S' ha ih
    rw [Finset.fold_insert ha]
    rcases hs a with h | ⟨r, h⟩ <;> rcases ih with h' | ⟨M, h'⟩
    · exact Or.inl (by rw [h, h']; exact max_self _)
    · exact Or.inr ⟨M, by rw [h, h']; exact max_eq_right bot_le⟩
    · exact Or.inr ⟨r, by rw [h, h']; exact max_eq_left bot_le⟩
    · exact Or.inr ⟨max r M, by rw [h, h', max_coe]⟩

/-- A tile that starts inside the row has a real maximum: its lane 0 is a real, so the maximum is not −∞. -/
private theorem fold_tile_coe (z : ℕ → ℝ) (t : ℕ) (ht : 2048 * t < 100000) :
    ∃ M : ℝ, (Finset.univ : Finset (Fin 2048)).fold max (⊥ : EReal) (tileVal z t) = (M : EReal) := by
  rcases fold_max_bot_or_real Finset.univ (tileVal z t) (tileVal_bot_or_coe z t) with h | h
  · exfalso
    have h0 : tileVal z t (0 : Fin 2048) = ((z (2048 * t + 0) : ℝ) : EReal) := by
      unfold tileVal
      exact if_pos (by simpa using ht)
    have hle : ((z (2048 * t + 0) : ℝ) : EReal) ≤ (Finset.univ : Finset (Fin 2048)).fold max (⊥ : EReal) (tileVal z t) :=
      (Finset.le_fold_max _).mpr (Or.inr ⟨0, Finset.mem_univ _, h0.ge⟩)
    rw [h] at hle
    exact EReal.coe_ne_bot _ (le_bot_iff.mp hle)
  · exact h

/-- The new shift is a real once the pass has seen a real column: an old real shift joined to −∞ or a real, or −∞
    joined to the real maximum of a tile that starts inside the row. -/
private theorem mStep_coe (z : ℕ → ℝ) (lo t : ℕ) (hreal : lo < t ∨ 2048 * t < 100000) (m l : EReal)
    (h : Inv z lo t m l) : ∃ μ' : ℝ, mStep m (tileVal z t) = (μ' : EReal) := by
  unfold mStep
  rcases h with ⟨ht, hm, -⟩ | ⟨-, μ, hm, -⟩
  · have ht' : 2048 * t < 100000 := by
      rcases hreal with h | h
      · exact absurd ht h.ne'
      · exact h
    obtain ⟨M, hM⟩ := fold_tile_coe z t ht'
    exact ⟨M, by rw [hm, hM]; exact max_eq_right bot_le⟩
  · rcases fold_max_bot_or_real Finset.univ (tileVal z t) (tileVal_bot_or_coe z t) with hf | ⟨M, hf⟩
    · exact ⟨μ, by rw [hm, hf]; exact max_eq_left bot_le⟩
    · exact ⟨max μ M, by rw [hm, hf, max_coe]⟩

/-- A tile's exponentials at a real shift: a real lane gives exp (z − μ), a missing lane exp (−∞) = 0. -/
private theorem tile_exp_sum (z : ℕ → ℝ) (μ : ℝ) (t : ℕ) :
    ∑ c : Fin 2048, Ideal.exp (tileVal z t c - (μ : EReal)) = ((tileSum z μ t : ℝ) : EReal) := by
  unfold tileSum
  rw [Cert.RealLemmas.coe_sum]
  refine Finset.sum_congr rfl (fun c _ => ?_)
  unfold tileVal
  split_ifs
  · rw [← EReal.coe_sub, Ideal.exp_coe]
  · rw [EReal.bot_sub, Ideal.exp_bot, EReal.coe_zero]

/-- Changing the shift from μ to μ' multiplies every term exp (z − μ) by exp (μ − μ'). -/
private theorem rescale (z : ℕ → ℝ) (μ μ' : ℝ) (lo hi : ℕ) :
    Real.exp (μ - μ') * partSum z μ lo hi = partSum z μ' lo hi := by
  unfold partSum tileSum
  rw [Finset.mul_sum]
  refine Finset.sum_congr rfl (fun τ _ => ?_)
  rw [Finset.mul_sum]
  refine Finset.sum_congr rfl (fun c _ => ?_)
  split_ifs
  · rw [← Real.exp_add]
    congr 1
    ring
  · exact mul_zero _

/-- One more tile keeps the invariant, provided the pass has seen a real column by then: it had before
    (`lo < t`), or tile `t` starts inside the row. -/
theorem Inv_step (z : ℕ → ℝ) (lo t : ℕ) (hlt : lo ≤ t) (hreal : lo < t ∨ 2048 * t < 100000) (m l : EReal)
    (h : Inv z lo t m l) : Inv z lo (t + 1) (mStep m (tileVal z t)) (lStep m l (tileVal z t)) := by
  -- the new shift is a real μ'
  obtain ⟨μ', hμ'⟩ := mStep_coe z lo t hreal m l h
  refine Or.inr ⟨Nat.lt_succ_of_le hlt, μ', hμ', ?_⟩
  -- the tile's own contribution at the new shift
  unfold lStep
  rw [hμ', tile_exp_sum]
  -- the sum over one more tile is the sum so far plus the tile's contribution
  have hsucc : partSum z μ' lo (t + 1) = partSum z μ' lo t + tileSum z μ' t := by
    unfold partSum
    exact Finset.sum_Ico_succ_top hlt _
  rcases h with ⟨ht, hm, hl⟩ | ⟨-, μ, hm, hl⟩
  · -- nothing so far: 0 · 0 = 0, and the sum over no tiles is 0
    have hempty : partSum z μ' lo t = 0 := by
      unfold partSum
      rw [ht, Finset.Ico_self, Finset.sum_empty]
    rw [hl, mul_zero, zero_add, hsucc, hempty, zero_add]
  · -- a real shift μ so far: rescale the sum from μ to μ'
    rw [hm, hl, ← EReal.coe_sub, Ideal.exp_coe, ← EReal.coe_mul, ← EReal.coe_add, rescale, hsucc]

/-- The row's log-sum-exp. -/
def lse (z : ℕ → ℝ) : ℝ := Real.log (∑ n : Fin 100000, Real.exp (z n.val))

/-- Tiles of width b laid end to end: the sum over a tiles of the sum over each tile's b lanes is the sum over the
    first b·a indices.  One more tile appends the b indices b·a, …, b·a + b − 1. -/
private theorem sum_tiles (g : ℕ → ℝ) (b : ℕ) : ∀ a : ℕ,
    ∑ τ ∈ Finset.range a, ∑ c ∈ Finset.range b, g (b * τ + c) = ∑ n ∈ Finset.range (b * a), g n
  | 0 => by rw [Finset.sum_range_zero, Nat.mul_zero, Finset.sum_range_zero]
  | a + 1 => by rw [Finset.sum_range_succ, sum_tiles g b a, Nat.mul_succ, Finset.sum_range_add]

/-- The fifty tiles cover the row exactly once: their 102400 lanes are the 100000 columns followed by 2400 lanes
    past the row's end, and those add nothing. -/
private theorem partSum_all (z : ℕ → ℝ) (μ : ℝ) :
    partSum z μ 0 50 = ∑ n : Fin 100000, Real.exp (z n.val - μ) := by
  -- a lane's term as a function of its column number alone
  set g : ℕ → ℝ := fun n => if n < 100000 then Real.exp (z n - μ) else 0 with hg
  have htile : ∀ τ : ℕ, tileSum z μ τ = ∑ c ∈ Finset.range 2048, g (2048 * τ + c) := fun τ => by
    unfold tileSum
    rw [Finset.sum_range]
  unfold partSum
  rw [Nat.Ico_zero_eq_range, Finset.sum_congr rfl (fun τ _ => htile τ), sum_tiles g 2048 50]
  -- 2048 · 50 = 100000 + 2400
  rw [show 2048 * 50 = 100000 + 2400 from by norm_num, Finset.sum_range_add]
  -- the tail: every column number 100000 + x is past the end
  have htail : ∑ x ∈ Finset.range 2400, g (100000 + x) = 0 :=
    Finset.sum_eq_zero (fun x _ => if_neg (by omega))
  rw [htail, add_zero, Finset.sum_range]
  exact Finset.sum_congr rfl (fun n _ => if_pos n.isLt)

/-- A sum of exponentials over the row's columns is positive. -/
private theorem sum_exp_pos (f : Fin 100000 → ℝ) : 0 < ∑ n : Fin 100000, Real.exp (f n) :=
  Finset.sum_pos (fun n _ => Real.exp_pos (f n)) ⟨⟨0, by norm_num⟩, Finset.mem_univ _⟩

/-- The shift drops out: exp (z − μ) = exp z / exp μ, so the shifted sum is the plain sum over exp μ, and its
    logarithm is the plain logarithm less μ. -/
private theorem shift (z : ℕ → ℝ) (μ : ℝ) :
    μ + Real.log (∑ n : Fin 100000, Real.exp (z n.val - μ)) = lse z := by
  unfold lse
  have hsum : ∑ n : Fin 100000, Real.exp (z n.val - μ) = (∑ n : Fin 100000, Real.exp (z n.val)) / Real.exp μ := by
    rw [Finset.sum_div]
    exact Finset.sum_congr rfl (fun n _ => Real.exp_sub _ _)
  rw [hsum, Real.log_div (sum_exp_pos _).ne' (Real.exp_pos μ).ne', Real.log_exp]
  ring

/-- Merging the pass over tiles 0‥24 with the pass over tiles 25‥49 gives the row's log-sum-exp. -/
theorem merge (z : ℕ → ℝ) (m0 l0 m1 l1 : EReal) (h0 : Inv z 0 25 m0 l0) (h1 : Inv z 25 50 m1 l1) :
    max m0 m1 + Ideal.log (Ideal.exp (m0 - max m0 m1) * l0 + Ideal.exp (m1 - max m0 m1) * l1)
      = ((lse z : ℝ) : EReal) := by
  -- each half has seen a tile, so each holds a real shift and the sum shifted by it
  rcases h0 with ⟨h, -, -⟩ | ⟨-, μ0, hm0, hl0⟩
  · exact absurd h (by norm_num)
  rcases h1 with ⟨h, -, -⟩ | ⟨-, μ1, hm1, hl1⟩
  · exact absurd h (by norm_num)
  -- the merged shift is the larger real; both sums are rescaled to it and added
  rw [hm0, hm1, hl0, hl1, max_coe, ← EReal.coe_sub, ← EReal.coe_sub, Ideal.exp_coe, Ideal.exp_coe,
    ← EReal.coe_mul, ← EReal.coe_mul, ← EReal.coe_add, rescale, rescale]
  -- the two halves together are all fifty tiles, that is, the whole row
  have hall : partSum z (max μ0 μ1) 0 25 + partSum z (max μ0 μ1) 25 50
      = ∑ n : Fin 100000, Real.exp (z n.val - max μ0 μ1) := by
    rw [← partSum_all]
    unfold partSum
    exact Finset.sum_Ico_consecutive _ (by norm_num) (by norm_num)
  -- the sum is positive, so its logarithm is the real logarithm, and the shift drops out
  rw [hall, Ideal.log_coe, if_neg (not_le.mpr (sum_exp_pos _)), ← EReal.coe_add, shift]

/-- A log-softmax entry computed with any real shift `M`, negated, is the log-sum-exp less the logit. -/
theorem neg_logSoftmax (z : ℕ → ℝ) (y : Fin 100000) (M : ℝ) :
    -((((z y.val : ℝ) : EReal) - (M : EReal))
        - Ideal.log (0 + ∑ n : Fin 100000, Ideal.exp (((z n.val : ℝ) : EReal) - (M : EReal))))
      = ((lse z - z y.val : ℝ) : EReal) := by
  -- every term is the exponential of a real, so the sum is a real sum
  have hsum : ∑ n : Fin 100000, Ideal.exp (((z n.val : ℝ) : EReal) - (M : EReal))
      = ((∑ n : Fin 100000, Real.exp (z n.val - M) : ℝ) : EReal) := by
    rw [Cert.RealLemmas.coe_sum]
    exact Finset.sum_congr rfl (fun n _ => by rw [← EReal.coe_sub, Ideal.exp_coe])
  -- it is positive, so its logarithm is the real logarithm; what is left is an identity between reals
  rw [zero_add, hsum, Ideal.log_coe, if_neg (not_le.mpr (sum_exp_pos _)), ← EReal.coe_sub, ← EReal.coe_sub,
    ← EReal.coe_neg]
  refine EReal.coe_eq_coe_iff.mpr ?_
  -- −((z y − M) − log Σ exp (z − M)) = (M + log Σ exp (z − M)) − z y
  rw [← shift z M]
  ring

/-- The difference of two reals, taken in the extended reals. -/
theorem sub_coe (a b : ℝ) : ((a : ℝ) : EReal) - ((b : ℝ) : EReal) = ((a - b : ℝ) : EReal) := (EReal.coe_sub a b).symm

end Cert.LogSumExp

end
-- ==== Proof.Spec.lean ====
/-
  What both programs compute, as one function of the four argument arrays.

  x0 : [2048, 128] are the query rows, x1 : [100000, 128] the table rows, x2 : [100000] the bias, x3 : [2048] the labels.
  Row b's logit for column n is  z b n = Σ_k x0[b,k] · x1[n,k] + x2[n]  (a real number when the arrays hold reals), and
  row b's loss is the row's log-sum-exp less the logit of its label's column.  Both programs end with the mean of the
  2048 losses; the loss VECTOR is what is compared.
-/
import proofs.«414775_j1821066134199_3_alg».proof.Proof.LibLogSumExp
import proofs.«414775_j1821066134199_3_alg».proof.Proof.LibSoftmaxReal
import Idealize.ShloMosaic.PureOps
import Idealize.ShloMosaic.Lib.ValueIdx

noncomputable section

namespace Cert.Spec

open Idealize.ShloMosaic Idealize.ShloMosaic.ValueIdx

abbrev SQ : Shape := ⟨2, ![2048, 128]⟩
abbrev ST : Shape := ⟨2, ![100000, 128]⟩
abbrev SB : Shape := ⟨1, ![100000]⟩
abbrev SL : Shape := ⟨1, ![2048]⟩

/-- Every float entry is a real number and every label names a column of the table. -/
structure Good (x0 : FVec Ideal SQ .f32) (x1 : FVec Ideal ST .f32) (x2 : FVec Ideal SB .f32) (x3 : IVec SL 32) : Prop where
  real0 : ∀ i, x0 i ≠ ⊤ ∧ x0 i ≠ ⊥
  real1 : ∀ i, x1 i ≠ ⊤ ∧ x1 i ≠ ⊥
  real2 : ∀ i, x2 i ≠ ⊤ ∧ x2 i ≠ ⊥
  label : ∀ i, (x3 i).toNat < 100000

/-- Row `b`'s logit for column `n` (zero past the table's end, where nothing reads it). -/
def zrow (x0 : FVec Ideal SQ .f32) (x1 : FVec Ideal ST .f32) (x2 : FVec Ideal SB .f32) (b : Fin 2048) (n : ℕ) : ℝ :=
  if h : n < 100000 then
    (∑ k : Fin 128, (x0 (ix2 b k)).toReal * (x1 (ix2 (⟨n, h⟩ : Fin 100000) k)).toReal) + (x2 (ix1 (⟨n, h⟩ : Fin 100000))).toReal
  else 0

/-- Row `b`'s label as a natural number. -/
def lab (x3 : IVec SL 32) (b : Fin 2048) : ℕ := (x3 (ix1 b)).toNat

/-- The loss vector: per row, the log-sum-exp of its logits less the logit of its label's column. -/
def nllVec (x0 : FVec Ideal SQ .f32) (x1 : FVec Ideal ST .f32) (x2 : FVec Ideal SB .f32) (x3 : IVec SL 32) : FVec Ideal SL .f32 :=
  fun i => ((LogSumExp.lse (zrow x0 x1 x2 (i 0)) - zrow x0 x1 x2 (i 0) (lab x3 (i 0)) : ℝ) : EReal)

/-- A logit inside the table, as the extended-real expression the programs evaluate: the reals' sum and product are the
    extended reals' on real entries. -/
theorem zrow_coe (x0 : FVec Ideal SQ .f32) (x1 : FVec Ideal ST .f32) (x2 : FVec Ideal SB .f32) (x3 : IVec SL 32)
    (hg : Good x0 x1 x2 x3) (b : Fin 2048) (n : Fin 100000) :
    (∑ k : Fin 128, x0 (ix2 b k) * x1 (ix2 n k)) + x2 (ix1 n) = ((zrow x0 x1 x2 b n.val : ℝ) : EReal) := by
  -- inside the table the logit is the real sum of products plus the real bias
  unfold zrow
  rw [dif_pos n.isLt, Fin.eta, EReal.coe_add, Cert.RealLemmas.coe_sum]
  -- an entry that is neither +∞ nor −∞ is the coercion of its real part
  rw [EReal.coe_toReal (hg.real2 _).1 (hg.real2 _).2]
  refine congrArg (· + x2 (ix1 n)) (Finset.sum_congr rfl (fun k _ => ?_))
  rw [EReal.coe_mul, EReal.coe_toReal (hg.real0 _).1 (hg.real0 _).2, EReal.coe_toReal (hg.real1 _).1 (hg.real1 _).2]

end Cert.Spec

end
-- ==== Proof.StateIdeal.lean ====
/-
  The two scratch columns after each grid point, as functions of the argument arrays.

  Row b's logits are z b n = Σ_k x0[b,k] · x1[n,k] + x2[n].  A pass over the tiles lo, lo+1, … keeps a pair (shift, sum)
  per row, starting from (−∞, 0) and updated tile by tile (mStep, lStep).  Grid point t belongs to the half h = t / 25,
  whose pass starts at tile 25 h; after point t the pass has taken t mod 25 + 1 tiles.  Before the first point of a
  half the update reads the reset values; before any other point, what the point before left.
-/
import proofs.«414775_j1821066134199_3_alg».proof.Proof.Gen.KernelIdeal.Frame
import proofs.«414775_j1821066134199_3_alg».proof.Proof.Gen.KernelIdeal.Skeleton
import proofs.«414775_j1821066134199_3_alg».proof.Proof.Spec
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.LogSumExp

/-- The pair after `k` tiles of the pass that starts at tile `lo`. -/
def st (z : ℕ → ℝ) (lo : ℕ) : ℕ → EReal × EReal
  | 0 => (⊥, 0)
  | k + 1 => (mStep (st z lo k).1 (tileVal z (lo + k)), lStep (st z lo k).1 (st z lo k).2 (tileVal z (lo + k)))

theorem st_zero (z : ℕ → ℝ) (lo : ℕ) : st z lo 0 = (⊥, 0) := rfl
theorem st_succ (z : ℕ → ℝ) (lo k : ℕ) :
    st z lo (k + 1) = (mStep (st z lo k).1 (tileVal z (lo + k)), lStep (st z lo k).1 (st z lo k).2 (tileVal z (lo + k))) := rfl

/-- The pass keeps the invariant, when its first tile starts inside the row. -/
theorem st_inv (z : ℕ → ℝ) (lo : ℕ) (hlo : 2048 * lo < 100000) (k : ℕ) : Inv z lo (lo + k) (st z lo k).1 (st z lo k).2 := by
  induction k with
  | zero => exact Inv_zero z lo
  | succ k ih =>
    have hreal : lo < lo + k ∨ 2048 * (lo + k) < 100000 := by
      rcases Nat.eq_zero_or_pos k with rfl | hk
      · exact Or.inr (by simpa using hlo)
      · exact Or.inl (by omega)
    have h := Inv_step z lo (lo + k) (Nat.le_add_right _ _) hreal _ _ ih
    rw [st_succ]
    exact h

variable (m : (ℓ : Loc nD τ sig) → Buf (Elt Ideal) ℓ)

/-- Row `b`'s logits on core `c`, from the argument arrays as the region finds them. -/
def zr (c : Dev nD) (b : Fin 2048) : ℕ → ℝ :=
  Cert.Spec.zrow (V m c main_arg0) (V m c main_arg1) (V m c main_arg2) b

/-- Row `b`'s pair after grid point `t`. -/
def stAfter (c : Dev nD) (t : ℕ) (b : Fin 2048) : EReal × EReal := st (zr m c b) (25 * (t / 25)) (t % 25 + 1)

/-- The shift column after point `t`, -/
def mAfter (c : Dev nD) (t : ℕ) : Vec Ideal S2048x1 .f32 := fun y => (stAfter m c t (⟨(y 0).val, idx2_lt0 y⟩ : Fin 2048)).1
/-- and the sum column. -/
def lAfter (c : Dev nD) (t : ℕ) : Vec Ideal S2048x1 .f32 := fun y => (stAfter m c t (⟨(y 0).val, idx2_lt0 y⟩ : Fin 2048)).2

/-- What the update at point `t` reads in the shift column: the reset value at the first point of a half, else what
    the point before left; -/
def mBefore (c : Dev nD) (t : ℕ) : Vec Ideal S2048x1 .f32 := if t % 25 = 0 then k0_pay3 (F := Ideal) else mAfter m c (t - 1)
/-- and in the sum column. -/
def lBefore (c : Dev nD) (t : ℕ) : Vec Ideal S2048x1 .f32 := if t % 25 = 0 then k0_pay4 (F := Ideal) else lAfter m c (t - 1)

/-- After the last point of half `h` each row's pair satisfies the invariant of the whole half. -/
theorem stAfter_inv (c : Dev nD) (h : ℕ) (hh : h < 2) (b : Fin 2048) :
    Inv (zr m c b) (25 * h) (25 * h + 25) (stAfter m c (25 * h + 24) b).1 (stAfter m c (25 * h + 24) b).2 := by
  unfold stAfter
  have e1 : (25 * h + 24) / 25 = h := by omega
  have e2 : (25 * h + 24) % 25 + 1 = 25 := by omega
  rw [e1, e2]
  exact st_inv (zr m c b) (25 * h) (by omega) 25

end Cert.KernelIdeal.Body

end
-- ==== Proof.BodyBase.lean ====
/-
  The kernel body's two branches, over the grid.

  The grid is 2 × 25: point t = 25 h + j.  The body resets its two scratch columns (running shift −∞, running sum 0)
  exactly when j = 0, and copies them to the two output blocks exactly when j = 24; so every point is of one of three
  kinds: first of its half, middle, last of its half.  The output windows are idle except at the last points, where
  they are written back.
-/
import proofs.«414775_j1821066134199_3_alg».proof.Proof.Gen.KernelIdeal.Frame
import proofs.«414775_j1821066134199_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The body resets its scratch: the condition of its first `scf.if`, from the grid coordinates. -/
abbrev condFirst (i : grid0.Coords) : Prop :=
  (Scalar.cmpi .ne (Scalar.extui (Scalar.cmpi .eq (BitVec.ofNat 32 (i 1).val) 0#32)) 0#32) = 1#1
/-- It holds at the points 0 and 25. -/
theorem condFirst_iff : ∀ t : Fin cfg0.N, condFirst (grid0.coords t) ↔ t.val % 25 = 0 :=
  (by decide +kernel : ∀ t : Fin grid0.N, condFirst (grid0.coords t) ↔ t.val % 25 = 0)

/-- The body copies its scratch to the outputs: the condition of its second `scf.if`. -/
abbrev condLast (i : grid0.Coords) : Prop := k0_cond2 i = 1#1
/-- It holds at the points 24 and 49. -/
theorem condLast_iff : ∀ t : Fin cfg0.N, condLast (grid0.coords t) ↔ t.val % 25 = 24 :=
  (by decide +kernel : ∀ t : Fin grid0.N, condLast (grid0.coords t) ↔ t.val % 25 = 24)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output windows are idle, and not written back, away from the last points; -/
theorem idle3 : ∀ t : Fin cfg0.N, ¬condLast (grid0.coords t) → cfg0.idle 3 (grid0.coords t) = true := by decide +kernel
theorem idle4 : ∀ t : Fin cfg0.N, ¬condLast (grid0.coords t) → cfg0.idle 4 (grid0.coords t) = true := by decide +kernel
theorem noFlush3 : ∀ t : Fin cfg0.N, ¬condLast (grid0.coords t) → (cfg0.win 3).flush t = false := by decide +kernel
theorem noFlush4 : ∀ t : Fin cfg0.N, ¬condLast (grid0.coords t) → (cfg0.win 4).flush t = false := by decide +kernel
/-- and live at the last points. -/
theorem live3 : ∀ t : Fin cfg0.N, condLast (grid0.coords t) → cfg0.idle 3 (grid0.coords t) = false := by decide +kernel
theorem live4 : ∀ t : Fin cfg0.N, condLast (grid0.coords t) → cfg0.idle 4 (grid0.coords t) = false := by decide +kernel

/-- Each window's current staging buffer at point `t`, as the pipeline passes it to the body, and its wholeness. -/
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x1 .f32 := win0_4.stage (cfg0.slots t 4)
abbrev hs4 (t : Fin cfg0.N) : (ms4 t).IsWhole := hstage0_4 ((cfg0.slots t 4).cast nbuf0_4)
/-- The two scratch columns: the running shift and the running sum, one entry per query row. -/
abbrev scM : Memref sig .tc .vmem S2048x1 .f32 := Memref.whole cc0_scratch0
abbrev scL : Memref sig .tc .vmem S2048x1 .f32 := Memref.whole cc0_scratch1

end Cert.KernelIdeal.Body

end
-- ==== Proof.BodyRunMid.lean ====
/-
  The kernel body at a middle point of a half (neither the first nor the last tile): on whole staging buffers holding
  the query block, the table tile and the bias tile, with the two scratch columns holding what the tile before left,
  the body runs to the end, leaves the three inputs and the two (idle) output buffers as they were, and leaves in
  each scratch column two stored pieces: rows 0‥1023 and rows 1024‥2047.
-/
import proofs.«414775_j1821066134199_3_alg».proof.Proof.BodyBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The middle case's run: the pieces the two scratch columns end with are found by running the body. -/
noncomputable def runMid (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : ¬condLast i)
    (x0 : Vec F S2048x128 .f32) (x1 : Vec F S2048x128 .f32) (x2 : Vec F S2048 .f32) (xs0 xs1 : Vec F S2048x1 .f32) :
    Σ' (LS0 : List (View.Piece (Elt F) S2048x1 .f32)), { LS1 : List (View.Piece (Elt F) S2048x1 .f32) //
      ∀ (xi3 xi4 : Vec F S1x2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨?_, ?_, fun xi3 xi4 E K => ?run⟩
  case run =>
    simp only [cc0__lse_kernel_eq_skeleton]; unfold cc0__lse_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Body

end
-- ==== Proof.BodyRunFirst.lean ====
/-
  The kernel body at the first point of a half: the two scratch columns arrive holding anything, are reset whole
  (shift −∞, sum 0) and then updated with the first tile, rows 0‥1023 and rows 1024‥2047; the inputs and the two idle
  output buffers are left as they were.
-/
import proofs.«414775_j1821066134199_3_alg».proof.Proof.BodyRunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The first case's run: the pieces the two scratch columns end with (the reset, then the two updates). -/
noncomputable def runFirst (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : condFirst i) (hc1 : ¬condLast i)
    (x0 : Vec F S2048x128 .f32) (x1 : Vec F S2048x128 .f32) (x2 : Vec F S2048 .f32) :
    Σ' (LS0 : List (View.Piece (Elt F) S2048x1 .f32)), { LS1 : List (View.Piece (Elt F) S2048x1 .f32) //
      ∀ (xi3 xi4 : Vec F S1x2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨?_, ?_, fun xi3 xi4 E K => ?run⟩
  case run =>
    simp only [cc0__lse_kernel_eq_skeleton]; unfold cc0__lse_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Body

end
-- ==== Proof.BodyRunLast.lean ====
/-
  The kernel body at the last point of a half: the two scratch columns, holding what the tile before left, are updated
  with the last tile and then copied whole into the two output buffers (which arrive holding anything); the inputs are
  left as they were.
-/
import proofs.«414775_j1821066134199_3_alg».proof.Proof.BodyRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The last case's run: the pieces the two output buffers and the two scratch columns end with. -/
noncomputable def runLast (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 : Vec F S2048x128 .f32) (x1 : Vec F S2048x128 .f32) (x2 : Vec F S2048 .f32) (xs0 xs1 : Vec F S2048x1 .f32) :
    Σ' (L3 : List (View.Piece (Elt F) S1x2048x1 .f32)) (L4 : List (View.Piece (Elt F) S1x2048x1 .f32))
       (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7 arg8 harg8) K } := by
  refine ⟨?_, ?_, ?_, ?_, fun E K => ?run⟩
  case run =>
    simp only [cc0__lse_kernel_eq_skeleton]; unfold cc0__lse_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Body

end
-- ==== Proof.PieceVal.lean ====
/-
  What the body leaves in its scratch columns and output blocks, as functions.

  The body treats the 2048 query rows in two halves.  After one tile, entry (r, 0) of the shift column is the
  first-half update at row r when r < 1024 and the second-half update at row r − 1024 otherwise; likewise the sum column.
  At the first tile of a half the same updates start from the reset values (shift −∞, sum 0), and at the last tile the
  two output blocks receive the two columns, reshaped.  The stored pieces a run of the body finds read back as
  exactly these functions, and they cover the buffers they are stored into.
-/
import proofs.«414775_j1821066134199_3_alg».proof.Proof.BodyRunLast
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

open Idealize.ShloMosaic.ValueIdx

/-- Rows 0‥1023 of a [2048, n] vector, -/
def rowsLo {n : ℕ} {α : Type} (x : (⟨2, ![2048, n]⟩ : Shape).Idx → α) : (⟨2, ![1024, n]⟩ : Shape).Idx → α :=
  fun j => x (ix2 (⟨(j 0).val, by have := idx2_lt0 j; omega⟩ : Fin 2048) (⟨(j 1).val, idx2_lt1 j⟩ : Fin n))
/-- and rows 1024‥2047. -/
def rowsHi {n : ℕ} {α : Type} (x : (⟨2, ![2048, n]⟩ : Shape).Idx → α) : (⟨2, ![1024, n]⟩ : Shape).Idx → α :=
  fun j => x (ix2 (⟨(j 0).val + 1024, by have := idx2_lt0 j; omega⟩ : Fin 2048) (⟨(j 1).val, idx2_lt1 j⟩ : Fin n))

/-- The tile's first column as the body computes it from the grid point (an i32 chain). -/
abbrev colWord (i : grid0.Coords) : BitVec 32 :=
  Scalar.muli (Scalar.addi (Scalar.muli (BitVec.ofNat 32 (i 0).val) 25#32) (BitVec.ofNat 32 (i 1).val)) 2048#32

/-- The shift column after one tile: query block `x0`, table tile `x1`, bias tile `x2`, old shift column `xs0`. -/
def newM (i : grid0.Coords) (x0 x1 : Vec F S2048x128 .f32) (x2 : Vec F S2048 .f32) (xs0 : Vec F S2048x1 .f32) : Vec F S2048x1 .f32 :=
  fun y =>
    if h : (y 0).val < 1024 then
      k0_pay9 (k0_pay7 i x1 (rowsLo x0) x2 (rowsLo xs0)) (ix2 (⟨(y 0).val, h⟩ : Fin 1024) (0 : Fin 1))
    else
      k0_pay13 (k0_pay5 x1) (colWord i) (rowsHi x0) x2 (rowsHi xs0)
        (ix2 (⟨(y 0).val - 1024, by have := idx2_lt0 y; omega⟩ : Fin 1024) (0 : Fin 1))

/-- The sum column after one tile, from the old shift and sum columns `xs0`, `xs1`. -/
def newL (i : grid0.Coords) (x0 x1 : Vec F S2048x128 .f32) (x2 : Vec F S2048 .f32) (xs0 xs1 : Vec F S2048x1 .f32) : Vec F S2048x1 .f32 :=
  fun y =>
    if h : (y 0).val < 1024 then
      k0_pay10 (k0_pay8 i x1 (rowsLo x0) x2 (rowsLo xs0) (rowsLo xs1)) (ix2 (⟨(y 0).val, h⟩ : Fin 1024) (0 : Fin 1))
    else
      k0_pay14 (k0_pay5 x1) (colWord i) (rowsHi x0) x2 (rowsHi xs0) (rowsHi xs1)
        (ix2 (⟨(y 0).val - 1024, by have := idx2_lt0 y; omega⟩ : Fin 1024) (0 : Fin 1))

/-! ### Blocks of a buffer's contents, and the two halves of a column -/

theorem hz1 : (![0] : Fin 1 → ℕ) = fun _ => 0 := funext fun a => by fin_cases a; rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- Through the rectangle of rows 0‥1023, a [2048, n] vector reads as its first half: local row r is row r. -/
theorem ld_lo {n : ℕ} {α : EltTy → Type} {e : EltTy} (X : (⟨2, ![2048, n]⟩ : Shape).Idx → α e)
    (inb : ∀ a, (![0, 0] : Fin 2 → ℕ) a + (![1024, n] : Fin 2 → ℕ) a ≤ (⟨2, ![2048, n]⟩ : Shape).size a) :
    View.ld X (Rect.unit ![0, 0] ![1024, n] inb) = rowsLo X := by
  funext j
  show X _ = X _
  refine congrArg X (funext fun a => Fin.ext ?_)
  match a with
  | ⟨0, _⟩ => show 0 + 1 * (j 0).val = (j 0).val; omega
  | ⟨1, _⟩ => show 0 + 1 * (j 1).val = (j 1).val; omega

/-- Through the rectangle of rows 1024‥2047 it reads as its second half: local row r is row 1024 + r. -/
theorem ld_hi {n : ℕ} {α : EltTy → Type} {e : EltTy} (X : (⟨2, ![2048, n]⟩ : Shape).Idx → α e)
    (inb : ∀ a, (![1024, 0] : Fin 2 → ℕ) a + (![1024, n] : Fin 2 → ℕ) a ≤ (⟨2, ![2048, n]⟩ : Shape).size a) :
    View.ld X (Rect.unit ![1024, 0] ![1024, n] inb) = rowsHi X := by
  funext j
  show X _ = X _
  refine congrArg X (funext fun a => Fin.ext ?_)
  match a with
  | ⟨0, _⟩ => show 1024 + 1 * (j 0).val = (j 0).val + 1024; omega
  | ⟨1, _⟩ => show 0 + 1 * (j 1).val = (j 1).val; omega

/-- A load of the whole of a whole buffer holding `X` reads `X`; -/
theorem load_whole {S : Shape} (arg : Memref sig .tc .vmem S .f32) (harg : arg.IsWhole) (X : Vec F S .f32)
    {off : Fin S.rank → ℕ} (h : off = fun _ => 0) (inb : ∀ a, off a + S.size a ≤ S.size a) :
    View.readAt (Elt F) arg.view (Rect.unit off S.size inb).toLoadRect (harg.unread X) = X := by
  rw [View.readAt_eq_ld, harg.read_unread, View.ld_unit_zero h]

/-- a load of its rows 0‥1023 reads the first half of `X`, -/
theorem load_lo {n : ℕ} (arg : Memref sig .tc .vmem (⟨2, ![2048, n]⟩ : Shape) .f32) (harg : arg.IsWhole)
    (X : Vec F (⟨2, ![2048, n]⟩ : Shape) .f32)
    (inb : ∀ a, (![0, 0] : Fin 2 → ℕ) a + (![1024, n] : Fin 2 → ℕ) a ≤ (⟨2, ![2048, n]⟩ : Shape).size a) :
    View.readAt (Elt F) arg.view (Rect.unit ![0, 0] ![1024, n] inb).toLoadRect (harg.unread X) = rowsLo X := by
  rw [View.readAt_eq_ld, harg.read_unread]
  exact ld_lo X inb

/-- and a load of its rows 1024‥2047 the second half. -/
theorem load_hi {n : ℕ} (arg : Memref sig .tc .vmem (⟨2, ![2048, n]⟩ : Shape) .f32) (harg : arg.IsWhole)
    (X : Vec F (⟨2, ![2048, n]⟩ : Shape) .f32)
    (inb : ∀ a, (![1024, 0] : Fin 2 → ℕ) a + (![1024, n] : Fin 2 → ℕ) a ≤ (⟨2, ![2048, n]⟩ : Shape).size a) :
    View.readAt (Elt F) arg.view (Rect.unit ![1024, 0] ![1024, n] inb).toLoadRect (harg.unread X) = rowsHi X := by
  rw [View.readAt_eq_ld, harg.read_unread]
  exact ld_hi X inb

/-- Every row of the column lies in rows 1024‥2047 or in rows 0‥1023. -/
theorem halves_cover (y : S2048x1.Idx)
    (inbH : ∀ a, (![1024, 0] : Fin 2 → ℕ) a + (![1024, 1] : Fin 2 → ℕ) a ≤ S2048x1.size a)
    (inbL : ∀ a, (![0, 0] : Fin 2 → ℕ) a + (![1024, 1] : Fin 2 → ℕ) a ≤ S2048x1.size a) :
    y ∈ (Rect.unit (s := S2048x1) ![1024, 0] ![1024, 1] inbH).set ∨ y ∈ (Rect.unit (s := S2048x1) ![0, 0] ![1024, 1] inbL).set := by
  have h0 : (y 0).val < 2048 := idx2_lt0 y
  have h1 : (y 1).val < 1 := idx2_lt1 y
  by_cases h : (y 0).val < 1024
  · refine Or.inr (Rect.mem_set_unit.mpr fun a => ?_)
    match a with
    | ⟨0, _⟩ => show 0 ≤ (y 0).val ∧ (y 0).val < 0 + 1024; omega
    | ⟨1, _⟩ => show 0 ≤ (y 1).val ∧ (y 1).val < 0 + 1; omega
  · refine Or.inl (Rect.mem_set_unit.mpr fun a => ?_)
    match a with
    | ⟨0, _⟩ => show 1024 ≤ (y 0).val ∧ (y 0).val < 1024 + 1024; omega
    | ⟨1, _⟩ => show 0 ≤ (y 1).val ∧ (y 1).val < 0 + 1; omega

/-- Two last stores whose payloads are the restrictions of one function `G` to their rectangles leave `G` wherever
    one of them reaches, whatever was stored before: the later store wins on its rectangle, the earlier one elsewhere. -/
theorem canon_two {S : Shape} {e : EltTy} (G : S.Idx → Elt F e) (p q : View.Piece (Elt F) S e) (L : List (View.Piece (Elt F) S e))
    (hp : ∀ x, p.2 x = G (p.1.emb x)) (hq : ∀ x, q.2 x = G (q.1.emb x)) (y : S.Idx)
    (hy : y ∈ p.1.set ∨ y ∈ q.1.set) : View.canon (p :: q :: L) y = G y := by
  obtain ⟨rp, wp⟩ := p
  obtain ⟨rq, wq⟩ := q
  by_cases hm : y ∈ rp.set
  · obtain ⟨x, rfl⟩ := rp.exists_idx_of_mem hm
    rw [show rp.idx x = rp.emb x from rfl, View.canon_cons_emb]
    exact hp x
  · rw [View.canon_cons_of_not_mem _ _ hm]
    have hq' : y ∈ rq.set := hy.resolve_left hm
    obtain ⟨x, rfl⟩ := rq.exists_idx_of_mem hq'
    rw [show rq.idx x = rq.emb x from rfl, View.canon_cons_emb]
    exact hq x

/-- Two stores that between them reach an index cover it, whatever was stored before. -/
theorem cover_two {S : Shape} {e : EltTy} (p q : View.Piece (Elt F) S e) (L : List (View.Piece (Elt F) S e)) (y : S.Idx)
    (hy : y ∈ p.1.set ∨ y ∈ q.1.set) : ∃ r ∈ p :: q :: L, y ∈ r.1.set := by
  rcases hy with h | h
  · exact ⟨p, List.mem_cons_self, h⟩
  · exact ⟨q, List.mem_cons_of_mem _ List.mem_cons_self, h⟩

/-- The new shift column on rows 1024‥2047 is the second-half update, -/
theorem newM_hi (i : grid0.Coords) (x0 x1 : Vec F S2048x128 .f32) (x2 : Vec F S2048 .f32) (xs0 : Vec F S2048x1 .f32)
    (inb : ∀ a, (![1024, 0] : Fin 2 → ℕ) a + (![1024, 1] : Fin 2 → ℕ) a ≤ S2048x1.size a)
    (x : (Rect.unit (s := S2048x1) ![1024, 0] ![1024, 1] inb).shape.Idx) :
    k0_pay13 (k0_pay5 x1) (colWord i) (rowsHi x0) x2 (rowsHi xs0) x
      = newM i x0 x1 x2 xs0 ((Rect.unit (s := S2048x1) ![1024, 0] ![1024, 1] inb).emb x) := by
  have hx0 : (x 0).val < 1024 := idx2_lt0 x
  have hx1 : (x 1).val < 1 := idx2_lt1 x
  have hrow : ((Rect.unit (s := S2048x1) ![1024, 0] ![1024, 1] inb).emb x 0).val = 1024 + 1 * (x 0).val := rfl
  unfold newM
  rw [dif_neg (by rw [hrow]; omega)]
  refine congrArg _ (funext fun a => Fin.ext ?_)
  match a with
  | ⟨0, _⟩ => show (x 0).val = (1024 + 1 * (x 0).val) - 1024; omega
  | ⟨1, _⟩ => show (x 1).val = 0; omega

/-- and on rows 0‥1023 the first-half update. -/
theorem newM_lo (i : grid0.Coords) (x0 x1 : Vec F S2048x128 .f32) (x2 : Vec F S2048 .f32) (xs0 : Vec F S2048x1 .f32)
    (inb : ∀ a, (![0, 0] : Fin 2 → ℕ) a + (![1024, 1] : Fin 2 → ℕ) a ≤ S2048x1.size a)
    (x : (Rect.unit (s := S2048x1) ![0, 0] ![1024, 1] inb).shape.Idx) :
    k0_pay9 (k0_pay7 i x1 (rowsLo x0) x2 (rowsLo xs0)) x
      = newM i x0 x1 x2 xs0 ((Rect.unit (s := S2048x1) ![0, 0] ![1024, 1] inb).emb x) := by
  have hx0 : (x 0).val < 1024 := idx2_lt0 x
  have hx1 : (x 1).val < 1 := idx2_lt1 x
  have hrow : ((Rect.unit (s := S2048x1) ![0, 0] ![1024, 1] inb).emb x 0).val = 0 + 1 * (x 0).val := rfl
  unfold newM
  rw [dif_pos (by rw [hrow]; omega)]
  refine congrArg _ (funext fun a => Fin.ext ?_)
  match a with
  | ⟨0, _⟩ => show (x 0).val = 0 + 1 * (x 0).val; omega
  | ⟨1, _⟩ => show (x 1).val = 0; omega

/-- So the two stores of a tile — rows 1024‥2047 last, rows 0‥1023 before it — leave the new shift column, whatever the
    column held before. -/
theorem canon_newM (i : grid0.Coords) (x0 x1 : Vec F S2048x128 .f32) (x2 : Vec F S2048 .f32) (xs0 : Vec F S2048x1 .f32)
    (inbH : ∀ a, (![1024, 0] : Fin 2 → ℕ) a + (![1024, 1] : Fin 2 → ℕ) a ≤ S2048x1.size a)
    (inbL : ∀ a, (![0, 0] : Fin 2 → ℕ) a + (![1024, 1] : Fin 2 → ℕ) a ≤ S2048x1.size a)
    (L : List (View.Piece (Elt F) S2048x1 .f32)) :
    View.canon ((⟨Rect.unit (s := S2048x1) ![1024, 0] ![1024, 1] inbH, k0_pay13 (k0_pay5 x1) (colWord i) (rowsHi x0) x2 (rowsHi xs0)⟩ : View.Piece (Elt F) S2048x1 .f32)
        :: ⟨Rect.unit (s := S2048x1) ![0, 0] ![1024, 1] inbL, k0_pay9 (k0_pay7 i x1 (rowsLo x0) x2 (rowsLo xs0))⟩ :: L)
      = newM i x0 x1 x2 xs0 :=
  funext fun y => canon_two (newM i x0 x1 x2 xs0) _ _ L (newM_hi i x0 x1 x2 xs0 inbH) (newM_lo i x0 x1 x2 xs0 inbL) y (halves_cover y inbH inbL)

/-- The new sum column on rows 1024‥2047 is the second-half update, -/
theorem newL_hi (i : grid0.Coords) (x0 x1 : Vec F S2048x128 .f32) (x2 : Vec F S2048 .f32) (xs0 xs1 : Vec F S2048x1 .f32)
    (inb : ∀ a, (![1024, 0] : Fin 2 → ℕ) a + (![1024, 1] : Fin 2 → ℕ) a ≤ S2048x1.size a)
    (x : (Rect.unit (s := S2048x1) ![1024, 0] ![1024, 1] inb).shape.Idx) :
    k0_pay14 (k0_pay5 x1) (colWord i) (rowsHi x0) x2 (rowsHi xs0) (rowsHi xs1) x
      = newL i x0 x1 x2 xs0 xs1 ((Rect.unit (s := S2048x1) ![1024, 0] ![1024, 1] inb).emb x) := by
  have hx0 : (x 0).val < 1024 := idx2_lt0 x
  have hx1 : (x 1).val < 1 := idx2_lt1 x
  have hrow : ((Rect.unit (s := S2048x1) ![1024, 0] ![1024, 1] inb).emb x 0).val = 1024 + 1 * (x 0).val := rfl
  unfold newL
  rw [dif_neg (by rw [hrow]; omega)]
  refine congrArg _ (funext fun a => Fin.ext ?_)
  match a with
  | ⟨0, _⟩ => show (x 0).val = (1024 + 1 * (x 0).val) - 1024; omega
  | ⟨1, _⟩ => show (x 1).val = 0; omega

/-- and on rows 0‥1023 the first-half update. -/
theorem newL_lo (i : grid0.Coords) (x0 x1 : Vec F S2048x128 .f32) (x2 : Vec F S2048 .f32) (xs0 xs1 : Vec F S2048x1 .f32)
    (inb : ∀ a, (![0, 0] : Fin 2 → ℕ) a + (![1024, 1] : Fin 2 → ℕ) a ≤ S2048x1.size a)
    (x : (Rect.unit (s := S2048x1) ![0, 0] ![1024, 1] inb).shape.Idx) :
    k0_pay10 (k0_pay8 i x1 (rowsLo x0) x2 (rowsLo xs0) (rowsLo xs1)) x
      = newL i x0 x1 x2 xs0 xs1 ((Rect.unit (s := S2048x1) ![0, 0] ![1024, 1] inb).emb x) := by
  have hx0 : (x 0).val < 1024 := idx2_lt0 x
  have hx1 : (x 1).val < 1 := idx2_lt1 x
  have hrow : ((Rect.unit (s := S2048x1) ![0, 0] ![1024, 1] inb).emb x 0).val = 0 + 1 * (x 0).val := rfl
  unfold newL
  rw [dif_pos (by rw [hrow]; omega)]
  refine congrArg _ (funext fun a => Fin.ext ?_)
  match a with
  | ⟨0, _⟩ => show (x 0).val = 0 + 1 * (x 0).val; omega
  | ⟨1, _⟩ => show (x 1).val = 0; omega

/-- So the two stores of a tile leave the new sum column, whatever the column held before. -/
theorem canon_newL (i : grid0.Coords) (x0 x1 : Vec F S2048x128 .f32) (x2 : Vec F S2048 .f32) (xs0 xs1 : Vec F S2048x1 .f32)
    (inbH : ∀ a, (![1024, 0] : Fin 2 → ℕ) a + (![1024, 1] : Fin 2 → ℕ) a ≤ S2048x1.size a)
    (inbL : ∀ a, (![0, 0] : Fin 2 → ℕ) a + (![1024, 1] : Fin 2 → ℕ) a ≤ S2048x1.size a)
    (L : List (View.Piece (Elt F) S2048x1 .f32)) :
    View.canon ((⟨Rect.unit (s := S2048x1) ![1024, 0] ![1024, 1] inbH, k0_pay14 (k0_pay5 x1) (colWord i) (rowsHi x0) x2 (rowsHi xs0) (rowsHi xs1)⟩ : View.Piece (Elt F) S2048x1 .f32)
        :: ⟨Rect.unit (s := S2048x1) ![0, 0] ![1024, 1] inbL, k0_pay10 (k0_pay8 i x1 (rowsLo x0) x2 (rowsLo xs0) (rowsLo xs1))⟩ :: L)
      = newL i x0 x1 x2 xs0 xs1 :=
  funext fun y => canon_two (newL i x0 x1 x2 xs0 xs1) _ _ L (newL_hi i x0 x1 x2 xs0 xs1 inbH) (newL_lo i x0 x1 x2 xs0 xs1 inbL) y (halves_cover y inbH inbL)

/-! ### Loads of a column after stores into it -/

/-- A load of the whole column after the stores `L` reads what they leave. -/
theorem readCov_whole {sig' : RefSig} {κ : Kind} {sp : Space} {S : Shape} {e : EltTy} (v : View sig' κ sp S e)
    (L : List (View.Piece (Elt F) S e)) {off : Fin S.rank → ℕ} (h : off = fun _ => 0)
    (inb : ∀ a, off a + S.size a ≤ S.size a) :
    v.readCov L (Rect.unit off S.size inb).toLoadRect = View.canon L := by
  rw [View.readCov_eq_canon']
  exact View.ld_unit_zero h inb (View.canon L)

/-- After one store of `X` through the whole column, a load of rows 0‥1023 reads the first half of `X`. -/
theorem readCov_reset_lo {sig' : RefSig} {κ : Kind} {sp : Space} {e : EltTy} (v : View sig' κ sp S2048x1 e)
    (X : S2048x1.Idx → Elt F e) {off : Fin S2048x1.rank → ℕ} (h : off = fun _ => 0)
    (inb0 : ∀ a, off a + S2048x1.size a ≤ S2048x1.size a)
    (inbL : ∀ a, (![0, 0] : Fin 2 → ℕ) a + (![1024, 1] : Fin 2 → ℕ) a ≤ S2048x1.size a) :
    v.readCov [(⟨Rect.unit off S2048x1.size inb0, X⟩ : View.Piece (Elt F) S2048x1 e)]
        (Rect.unit (s := S2048x1) ![0, 0] ![1024, 1] inbL).toLoadRect = rowsLo X := by
  rw [View.readCov_eq_canon', View.canon_unit_zero h]
  exact ld_lo X inbL

/-- After that store and then a store into rows 0‥1023 only, a load of rows 1024‥2047 still reads the second half of
    `X`: the later store does not reach those rows. -/
theorem readCov_hi_after_lo {sig' : RefSig} {κ : Kind} {sp : Space} {e : EltTy} (v : View sig' κ sp S2048x1 e)
    (X : S2048x1.Idx → Elt F e) {off : Fin S2048x1.rank → ℕ} (h : off = fun _ => 0)
    (inb0 : ∀ a, off a + S2048x1.size a ≤ S2048x1.size a)
    (inbL : ∀ a, (![0, 0] : Fin 2 → ℕ) a + (![1024, 1] : Fin 2 → ℕ) a ≤ S2048x1.size a)
    (inbH : ∀ a, (![1024, 0] : Fin 2 → ℕ) a + (![1024, 1] : Fin 2 → ℕ) a ≤ S2048x1.size a)
    (w : (Rect.unit (s := S2048x1) ![0, 0] ![1024, 1] inbL).shape.Idx → Elt F e) :
    v.readCov [(⟨Rect.unit (s := S2048x1) ![0, 0] ![1024, 1] inbL, w⟩ : View.Piece (Elt F) S2048x1 e),
          ⟨Rect.unit off S2048x1.size inb0, X⟩]
        (Rect.unit (s := S2048x1) ![1024, 0] ![1024, 1] inbH).toLoadRect = rowsHi X := by
  rw [View.readCov_eq_canon']
  funext j
  have hj0 : (j 0).val < 1024 := idx2_lt0 j
  -- row 1024 + r is not among rows 0‥1023
  have hnot : (Rect.unit (s := S2048x1) ![1024, 0] ![1024, 1] inbH).toLoadRect.idx j
      ∉ (Rect.unit (s := S2048x1) ![0, 0] ![1024, 1] inbL).set := by
    intro hmem
    have h2 := (Rect.mem_set_unit.mp hmem 0).2
    have h3 : 1024 + 1 * (j 0).val < 0 + 1024 := h2
    omega
  rw [View.canon_cons_of_not_mem (⟨Rect.unit (s := S2048x1) ![0, 0] ![1024, 1] inbL, w⟩ : View.Piece (Elt F) S2048x1 e) _ hnot,
    View.canon_unit_zero h]
  exact congrFun (ld_hi X inbH) j

/-! ### A middle tile -/

theorem cover_mid_M (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : ¬condLast i)
    (x0 x1 : Vec F S2048x128 .f32) (x2 : Vec F S2048 .f32) (xs0 xs1 : Vec F S2048x1 .f32) :
    ∀ y, ∃ p ∈ (runMid c i arg2 harg2 arg3 harg3 arg4 harg4 arg5 harg5 arg6 harg6 arg7 harg7 arg8 harg8 hc0 hc1 x0 x1 x2 xs0 xs1).1, y ∈ p.1.set := by
  intro y
  unfold runMid
  dsimp only
  exact cover_two _ _ _ y (halves_cover y inb_S2048x1_S1024x1_1024_0 inb_S2048x1_S1024x1_0_0)

theorem cover_mid_L (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : ¬condLast i)
    (x0 x1 : Vec F S2048x128 .f32) (x2 : Vec F S2048 .f32) (xs0 xs1 : Vec F S2048x1 .f32) :
    ∀ y, ∃ p ∈ (runMid c i arg2 harg2 arg3 harg3 arg4 harg4 arg5 harg5 arg6 harg6 arg7 harg7 arg8 harg8 hc0 hc1 x0 x1 x2 xs0 xs1).2.1, y ∈ p.1.set := by
  intro y
  unfold runMid
  dsimp only
  exact cover_two _ _ _ y (halves_cover y inb_S2048x1_S1024x1_1024_0 inb_S2048x1_S1024x1_0_0)

theorem read_mid_M (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : ¬condLast i)
    (x0 x1 : Vec F S2048x128 .f32) (x2 : Vec F S2048 .f32) (xs0 xs1 : Vec F S2048x1 .f32) :
    arg7.view.read (Elt F) (arg7.view.writes (Elt F) arg7.view.junk (runMid c i arg2 harg2 arg3 harg3 arg4 harg4 arg5 harg5 arg6 harg6 arg7 harg7 arg8 harg8 hc0 hc1 x0 x1 x2 xs0 xs1).1) = newM i x0 x1 x2 xs0 := by
  rw [View.read_writes_junk_eq_canon]
  unfold runMid
  dsimp only
  sl_unfold_words
  rw [load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    load_lo arg7 harg7 xs0 inb_S2048x1_S1024x1_0_0, load_hi arg7 harg7 xs0 inb_S2048x1_S1024x1_1024_0]
  exact canon_newM i x0 x1 x2 xs0 inb_S2048x1_S1024x1_1024_0 inb_S2048x1_S1024x1_0_0 []

theorem read_mid_L (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : ¬condLast i)
    (x0 x1 : Vec F S2048x128 .f32) (x2 : Vec F S2048 .f32) (xs0 xs1 : Vec F S2048x1 .f32) :
    arg8.view.read (Elt F) (arg8.view.writes (Elt F) arg8.view.junk (runMid c i arg2 harg2 arg3 harg3 arg4 harg4 arg5 harg5 arg6 harg6 arg7 harg7 arg8 harg8 hc0 hc1 x0 x1 x2 xs0 xs1).2.1) = newL i x0 x1 x2 xs0 xs1 := by
  rw [View.read_writes_junk_eq_canon]
  unfold runMid
  dsimp only
  sl_unfold_words
  rw [load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    load_lo arg7 harg7 xs0 inb_S2048x1_S1024x1_0_0, load_hi arg7 harg7 xs0 inb_S2048x1_S1024x1_1024_0,
    load_lo arg8 harg8 xs1 inb_S2048x1_S1024x1_0_0, load_hi arg8 harg8 xs1 inb_S2048x1_S1024x1_1024_0]
  exact canon_newL i x0 x1 x2 xs0 xs1 inb_S2048x1_S1024x1_1024_0 inb_S2048x1_S1024x1_0_0 []

/-! ### The first tile of a half: the same updates, from the reset values -/

theorem cover_first_M (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : condFirst i) (hc1 : ¬condLast i)
    (x0 x1 : Vec F S2048x128 .f32) (x2 : Vec F S2048 .f32) :
    ∀ y, ∃ p ∈ (runFirst c i arg2 harg2 arg3 harg3 arg4 harg4 arg5 harg5 arg6 harg6 arg7 harg7 arg8 harg8 hc0 hc1 x0 x1 x2).1, y ∈ p.1.set := by
  intro y
  unfold runFirst
  dsimp only
  exact cover_two _ _ _ y (halves_cover y inb_S2048x1_S1024x1_1024_0 inb_S2048x1_S1024x1_0_0)

theorem cover_first_L (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : condFirst i) (hc1 : ¬condLast i)
    (x0 x1 : Vec F S2048x128 .f32) (x2 : Vec F S2048 .f32) :
    ∀ y, ∃ p ∈ (runFirst c i arg2 harg2 arg3 harg3 arg4 harg4 arg5 harg5 arg6 harg6 arg7 harg7 arg8 harg8 hc0 hc1 x0 x1 x2).2.1, y ∈ p.1.set := by
  intro y
  unfold runFirst
  dsimp only
  exact cover_two _ _ _ y (halves_cover y inb_S2048x1_S1024x1_1024_0 inb_S2048x1_S1024x1_0_0)

theorem read_first_M (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : condFirst i) (hc1 : ¬condLast i)
    (x0 x1 : Vec F S2048x128 .f32) (x2 : Vec F S2048 .f32) :
    arg7.view.read (Elt F) (arg7.view.writes (Elt F) arg7.view.junk (runFirst c i arg2 harg2 arg3 harg3 arg4 harg4 arg5 harg5 arg6 harg6 arg7 harg7 arg8 harg8 hc0 hc1 x0 x1 x2).1) = newM i x0 x1 x2 (k0_pay3 (F := F)) := by
  rw [View.read_writes_junk_eq_canon]
  unfold runFirst
  dsimp only
  sl_unfold_words
  rw [load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    readCov_reset_lo arg7.view (k0_pay3 (F := F)) hz2 inb_S2048x1_S2048x1_0_0 inb_S2048x1_S1024x1_0_0,
    readCov_hi_after_lo arg7.view (k0_pay3 (F := F)) hz2 inb_S2048x1_S2048x1_0_0 inb_S2048x1_S1024x1_0_0 inb_S2048x1_S1024x1_1024_0]
  exact canon_newM i x0 x1 x2 k0_pay3 inb_S2048x1_S1024x1_1024_0 inb_S2048x1_S1024x1_0_0 _

theorem read_first_L (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : condFirst i) (hc1 : ¬condLast i)
    (x0 x1 : Vec F S2048x128 .f32) (x2 : Vec F S2048 .f32) :
    arg8.view.read (Elt F) (arg8.view.writes (Elt F) arg8.view.junk (runFirst c i arg2 harg2 arg3 harg3 arg4 harg4 arg5 harg5 arg6 harg6 arg7 harg7 arg8 harg8 hc0 hc1 x0 x1 x2).2.1) = newL i x0 x1 x2 (k0_pay3 (F := F)) (k0_pay4 (F := F)) := by
  rw [View.read_writes_junk_eq_canon]
  unfold runFirst
  dsimp only
  sl_unfold_words
  rw [load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    readCov_reset_lo arg7.view (k0_pay3 (F := F)) hz2 inb_S2048x1_S2048x1_0_0 inb_S2048x1_S1024x1_0_0,
    readCov_hi_after_lo arg7.view (k0_pay3 (F := F)) hz2 inb_S2048x1_S2048x1_0_0 inb_S2048x1_S1024x1_0_0 inb_S2048x1_S1024x1_1024_0,
    readCov_reset_lo arg8.view (k0_pay4 (F := F)) hz2 inb_S2048x1_S2048x1_0_0 inb_S2048x1_S1024x1_0_0,
    readCov_hi_after_lo arg8.view (k0_pay4 (F := F)) hz2 inb_S2048x1_S2048x1_0_0 inb_S2048x1_S1024x1_0_0 inb_S2048x1_S1024x1_1024_0]
  exact canon_newL i x0 x1 x2 k0_pay3 k0_pay4 inb_S2048x1_S1024x1_1024_0 inb_S2048x1_S1024x1_0_0 _

/-! ### The last tile of a half: the updates, then the two columns copied to the output blocks -/

theorem cover_last_O3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    ∀ y, ∃ p ∈ (runLast c i arg2 harg2 arg3 harg3 arg4 harg4 arg5 harg5 arg6 harg6 arg7 harg7 arg8 harg8 hc0 hc1 x0 x1 x2 xs0 xs1).1, y ∈ p.1.set := by
  intro y
  unfold runLast
  dsimp only
  exact ⟨_, List.mem_cons_self, View.mem_set_unit_zero hz3 inb_S1x2048x1_S1x2048x1_0_0_0 y⟩

theorem cover_last_O4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    ∀ y, ∃ p ∈ (runLast c i arg2 harg2 arg3 harg3 arg4 harg4 arg5 harg5 arg6 harg6 arg7 harg7 arg8 harg8 hc0 hc1 x0 x1 x2 xs0 xs1).2.1, y ∈ p.1.set := by
  intro y
  unfold runLast
  dsimp only
  exact ⟨_, List.mem_cons_self, View.mem_set_unit_zero hz3 inb_S1x2048x1_S1x2048x1_0_0_0 y⟩

theorem cover_last_M (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    ∀ y, ∃ p ∈ (runLast c i arg2 harg2 arg3 harg3 arg4 harg4 arg5 harg5 arg6 harg6 arg7 harg7 arg8 harg8 hc0 hc1 x0 x1 x2 xs0 xs1).2.2.1, y ∈ p.1.set := by
  intro y
  unfold runLast
  dsimp only
  exact cover_two _ _ _ y (halves_cover y inb_S2048x1_S1024x1_1024_0 inb_S2048x1_S1024x1_0_0)

theorem cover_last_L (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    ∀ y, ∃ p ∈ (runLast c i arg2 harg2 arg3 harg3 arg4 harg4 arg5 harg5 arg6 harg6 arg7 harg7 arg8 harg8 hc0 hc1 x0 x1 x2 xs0 xs1).2.2.2.1, y ∈ p.1.set := by
  intro y
  unfold runLast
  dsimp only
  exact cover_two _ _ _ y (halves_cover y inb_S2048x1_S1024x1_1024_0 inb_S2048x1_S1024x1_0_0)

theorem read_last_M (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    arg7.view.read (Elt F) (arg7.view.writes (Elt F) arg7.view.junk (runLast c i arg2 harg2 arg3 harg3 arg4 harg4 arg5 harg5 arg6 harg6 arg7 harg7 arg8 harg8 hc0 hc1 x0 x1 x2 xs0 xs1).2.2.1) = newM i x0 x1 x2 xs0 := by
  rw [View.read_writes_junk_eq_canon]
  unfold runLast
  dsimp only
  sl_unfold_words
  rw [load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    load_lo arg7 harg7 xs0 inb_S2048x1_S1024x1_0_0, load_hi arg7 harg7 xs0 inb_S2048x1_S1024x1_1024_0]
  exact canon_newM i x0 x1 x2 xs0 inb_S2048x1_S1024x1_1024_0 inb_S2048x1_S1024x1_0_0 []

theorem read_last_L (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    arg8.view.read (Elt F) (arg8.view.writes (Elt F) arg8.view.junk (runLast c i arg2 harg2 arg3 harg3 arg4 harg4 arg5 harg5 arg6 harg6 arg7 harg7 arg8 harg8 hc0 hc1 x0 x1 x2 xs0 xs1).2.2.2.1) = newL i x0 x1 x2 xs0 xs1 := by
  rw [View.read_writes_junk_eq_canon]
  unfold runLast
  dsimp only
  sl_unfold_words
  rw [load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    load_lo arg7 harg7 xs0 inb_S2048x1_S1024x1_0_0, load_hi arg7 harg7 xs0 inb_S2048x1_S1024x1_1024_0,
    load_lo arg8 harg8 xs1 inb_S2048x1_S1024x1_0_0, load_hi arg8 harg8 xs1 inb_S2048x1_S1024x1_1024_0]
  exact canon_newL i x0 x1 x2 xs0 xs1 inb_S2048x1_S1024x1_1024_0 inb_S2048x1_S1024x1_0_0 []

theorem read_last_O3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    arg5.view.read (Elt F) (arg5.view.writes (Elt F) arg5.view.junk (runLast c i arg2 harg2 arg3 harg3 arg4 harg4 arg5 harg5 arg6 harg6 arg7 harg7 arg8 harg8 hc0 hc1 x0 x1 x2 xs0 xs1).1) = k0_pay1 (newM i x0 x1 x2 xs0) := by
  rw [View.read_writes_junk_eq_canon]
  unfold runLast
  dsimp only
  sl_unfold_words
  rw [View.canon_unit_zero hz3, load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    load_lo arg7 harg7 xs0 inb_S2048x1_S1024x1_0_0, load_hi arg7 harg7 xs0 inb_S2048x1_S1024x1_1024_0,
    readCov_whole arg7.view _ hz2 inb_S2048x1_S2048x1_0_0, canon_newM i x0 x1 x2 xs0 inb_S2048x1_S1024x1_1024_0 inb_S2048x1_S1024x1_0_0 []]

theorem read_last_O4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048 .f32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (hc0 : ¬condFirst i) (hc1 : condLast i)
    (x0 x1 : Vec F S2048x128 .f32) (x2 : Vec F S2048 .f32) (xs0 xs1 : Vec F S2048x1 .f32) :
    arg6.view.read (Elt F) (arg6.view.writes (Elt F) arg6.view.junk (runLast c i arg2 harg2 arg3 harg3 arg4 harg4 arg5 harg5 arg6 harg6 arg7 harg7 arg8 harg8 hc0 hc1 x0 x1 x2 xs0 xs1).2.1) = k0_pay2 (newL i x0 x1 x2 xs0 xs1) := by
  rw [View.read_writes_junk_eq_canon]
  unfold runLast
  dsimp only
  sl_unfold_words
  rw [View.canon_unit_zero hz3, load_whole arg3 harg3 x1 hz2 inb_S2048x128_S2048x128_0_0, load_whole arg4 harg4 x2 hz1 inb_S2048_S2048_0,
    load_lo arg2 harg2 x0 inb_S2048x128_S1024x128_0_0, load_hi arg2 harg2 x0 inb_S2048x128_S1024x128_1024_0,
    load_lo arg7 harg7 xs0 inb_S2048x1_S1024x1_0_0, load_hi arg7 harg7 xs0 inb_S2048x1_S1024x1_1024_0,
    load_lo arg8 harg8 xs1 inb_S2048x1_S1024x1_0_0, load_hi arg8 harg8 xs1 inb_S2048x1_S1024x1_1024_0,
    readCov_whole arg8.view _ hz2 inb_S2048x1_S2048x1_0_0, canon_newL i x0 x1 x2 xs0 xs1 inb_S2048x1_S1024x1_1024_0 inb_S2048x1_S1024x1_0_0 []]

end Cert.KernelIdeal.Body

end
-- ==== Proof.LibExtrema.lean ====
/-
  Extrema of a whole array on the host, at the exact instance.

  A host maximum-reduce over ALL axes of an array (jnp.max(x): the result has one index) from the initial value −∞ is
  the greatest entry; a minimum-reduce from +∞ is the least.  So when every entry is a real number the result is a
  real number too (the array has at least one entry), every entry lies between the least and the greatest, and if
  max(|least|, |greatest|) is 0 then every entry is 0.  Also: what the test  |x| < +∞  says of an extended real.
-/
import Idealize.ShloMosaic.PureOps.Ideal
import Idealize.ShloMosaic.PureOps.Ideal.Laws
import Idealize.ShloMosaic.PureOps.Reduce

noncomputable section

namespace Cert.LibExtrema

open Idealize.ShloMosaic

variable {s t u : Shape} {axes : List (Fin s.rank)}

/-- The scalar shape has one index. -/
instance scalarIdx_subsingleton : Subsingleton (⟨0, ![]⟩ : Shape).Idx := ⟨fun _ _ => funext fun d => d.elim0⟩

/-- The f32 pattern of −∞ denotes the bottom of the extended reals. -/
theorem ofBits_neg_inf : Ideal.ofBits .f32 0xFF800000#32 = ⊥ := by simp [Ideal.ofBits, Ideal.ieee]

/-- The f32 pattern of +∞ denotes the top of the extended reals. -/
theorem ofBits_pos_inf : Ideal.ofBits .f32 0x7F800000#32 = ⊤ := by simp [Ideal.ofBits, Ideal.ieee]

/-- A maximum-reduce into a result of one index is the maximum, from the initial value, over every entry. -/
theorem reduce_max_eq_fold [Subsingleton t.Idx] (x : s.Idx → Ideal .f32) (init : u.Idx → Ideal .f32)
    (h : s.ReducesTo axes t) (hu : 0 < u.numel) (j : t.Idx) :
    Host.reduce (FloatOps.maximumf (F := Ideal) (φ := .f32)) x init h hu j
      = (Finset.univ : Finset s.Idx).fold (max : EReal → EReal → EReal) (init (Shape.Idx.first hu)) x := by
  rw [Host.reduce_eq_fold, Finset.filter_true_of_mem (fun i _ => Subsingleton.elim _ _)]
  rfl

/-- A minimum-reduce into a result of one index is the minimum, from the initial value, over every entry. -/
theorem reduce_min_eq_fold [Subsingleton t.Idx] (x : s.Idx → Ideal .f32) (init : u.Idx → Ideal .f32)
    (h : s.ReducesTo axes t) (hu : 0 < u.numel) (j : t.Idx) :
    Host.reduce (FloatOps.minimumf (F := Ideal) (φ := .f32)) x init h hu j
      = (Finset.univ : Finset s.Idx).fold (min : EReal → EReal → EReal) (init (Shape.Idx.first hu)) x := by
  rw [Host.reduce_eq_fold, Finset.filter_true_of_mem (fun i _ => Subsingleton.elim _ _)]
  rfl

/-- Every entry is at most the array's maximum. -/
theorem le_reduce_max [Subsingleton t.Idx] (x : s.Idx → Ideal .f32) (init : u.Idx → Ideal .f32)
    (h : s.ReducesTo axes t) (hu : 0 < u.numel) (j : t.Idx) (i : s.Idx) :
    x i ≤ Host.reduce (FloatOps.maximumf (F := Ideal) (φ := .f32)) x init h hu j := by
  rw [reduce_max_eq_fold]
  exact (Finset.le_fold_max _).2 (Or.inr ⟨i, Finset.mem_univ i, le_rfl⟩)

/-- The array's minimum is at most every entry. -/
theorem reduce_min_le [Subsingleton t.Idx] (x : s.Idx → Ideal .f32) (init : u.Idx → Ideal .f32)
    (h : s.ReducesTo axes t) (hu : 0 < u.numel) (j : t.Idx) (i : s.Idx) :
    Host.reduce (FloatOps.minimumf (F := Ideal) (φ := .f32)) x init h hu j ≤ x i := by
  rw [reduce_min_eq_fold]
  exact (Finset.fold_min_le _).2 (Or.inr ⟨i, Finset.mem_univ i, le_rfl⟩)

/-- The maximum, from −∞, of an array with an entry and with every entry real is real. -/
theorem reduce_max_real [Subsingleton t.Idx] (x : s.Idx → Ideal .f32) (init : u.Idx → Ideal .f32)
    (h : s.ReducesTo axes t) (hu : 0 < u.numel) (j : t.Idx) (hinit : init (Shape.Idx.first hu) = ⊥)
    (hx : ∀ i, x i ≠ ⊤ ∧ x i ≠ ⊥) (i0 : s.Idx) :
    Host.reduce (FloatOps.maximumf (F := Ideal) (φ := .f32)) x init h hu j ≠ ⊤
      ∧ Host.reduce (FloatOps.maximumf (F := Ideal) (φ := .f32)) x init h hu j ≠ ⊥ := by
  refine ⟨?_, fun e => (hx i0).2 (le_bot_iff.1 (e ▸ le_reduce_max x init h hu j i0))⟩
  rw [reduce_max_eq_fold, hinit]
  exact ((Finset.fold_max_lt _).2 ⟨bot_lt_top, fun i _ => lt_top_iff_ne_top.2 (hx i).1⟩).ne

/-- The minimum, from +∞, of an array with an entry and with every entry real is real. -/
theorem reduce_min_real [Subsingleton t.Idx] (x : s.Idx → Ideal .f32) (init : u.Idx → Ideal .f32)
    (h : s.ReducesTo axes t) (hu : 0 < u.numel) (j : t.Idx) (hinit : init (Shape.Idx.first hu) = ⊤)
    (hx : ∀ i, x i ≠ ⊤ ∧ x i ≠ ⊥) (i0 : s.Idx) :
    Host.reduce (FloatOps.minimumf (F := Ideal) (φ := .f32)) x init h hu j ≠ ⊤
      ∧ Host.reduce (FloatOps.minimumf (F := Ideal) (φ := .f32)) x init h hu j ≠ ⊥ := by
  refine ⟨fun e => (hx i0).1 (top_le_iff.1 (e ▸ reduce_min_le x init h hu j i0)), ?_⟩
  rw [reduce_min_eq_fold, hinit]
  exact ((Finset.lt_fold_min _).2 ⟨bot_lt_top, fun i _ => bot_lt_iff_ne_bot.2 (hx i).2⟩).ne'

/-- The magnitude max(y, −y) of a real is real. -/
theorem abs_real (y : EReal) (hy : y ≠ ⊤ ∧ y ≠ ⊥) : max y (-y) ≠ ⊤ ∧ max y (-y) ≠ ⊥ := by
  obtain ⟨r, rfl⟩ : ∃ r : ℝ, y = r := ⟨y.toReal, (EReal.coe_toReal hy.1 hy.2).symm⟩
  rcases max_choice (r : EReal) (-(r : EReal)) with e | e <;> rw [e]
  · exact ⟨EReal.coe_ne_top r, EReal.coe_ne_bot r⟩
  · rw [← EReal.coe_neg]; exact ⟨EReal.coe_ne_top _, EReal.coe_ne_bot _⟩

/-- The larger of two reals is real. -/
theorem max_real (a b : EReal) (ha : a ≠ ⊤ ∧ a ≠ ⊥) (hb : b ≠ ⊤ ∧ b ≠ ⊥) : max a b ≠ ⊤ ∧ max a b ≠ ⊥ := by
  rcases max_choice a b with e | e <;> rw [e]
  exacts [ha, hb]

/-- If the larger of |lo| and |hi| is 0, everything between lo and hi is 0. -/
theorem eq_zero_of_maxAbs_eq_zero {ι : Type} (lo hi : EReal) (x : ι → EReal) (hlo : ∀ i, lo ≤ x i) (hhi : ∀ i, x i ≤ hi)
    (h : max (max lo (-lo)) (max hi (-hi)) = 0) (i : ι) : x i = 0 := by
  have h1 : -lo ≤ 0 := ((le_max_right lo (-lo)).trans (le_max_left _ _)).trans h.le
  have h2 : hi ≤ 0 := ((le_max_left hi (-hi)).trans (le_max_right _ _)).trans h.le
  have h3 : 0 ≤ lo := by have := EReal.neg_le.1 h1; rwa [neg_zero] at this
  exact le_antisymm ((hhi i).trans h2) (h3.trans (hlo i))

/-- The test |x| < +∞ answers 1 exactly for the reals. -/
theorem real_of_abs_lt_inf (x : EReal)
    (h : Ideal.cmp .olt (max x (-x)) (Ideal.ofBits .f32 0x7F800000#32) = 1#1) : x ≠ ⊤ ∧ x ≠ ⊥ := by
  rw [ofBits_pos_inf] at h
  have hlt : max x (-x) < ⊤ := by
    by_contra hn
    simp [Ideal.cmp, hn] at h
  constructor
  · rintro rfl; exact absurd hlt (by simp)
  · rintro rfl; exact absurd hlt (by simp)

end Cert.LibExtrema

end
-- ==== Proof.PayVal.lean ====
/-
  The kernel body's arithmetic read at an index, at the extended reals.

  For a grid point i = (h, j) the body multiplies 1024 query rows (a block Eh : [1024, 128]) against the table tile
  T : [2048, 128], adds the bias tile Bv : [2048] and overrides with −∞ every lane whose column
  (25 h + j) · 2048 + c  lies past the table's 100000 rows: row r, lane c of that tile is  sTile i Eh T Bv r c.  The new
  running shift of row r is the larger of the old one and the tile row's maximum; the new running sum is the old one
  rescaled to the new shift plus the tile row's exponentials at the new shift: LibLogSumExp's mStep and lStep.
-/
import proofs.«414775_j1821066134199_3_alg».proof.Proof.Gen.KernelIdeal.Skeleton
import proofs.«414775_j1821066134199_3_alg».proof.Proof.LibLogSumExp
import proofs.«414775_j1821066134199_3_alg».proof.Proof.LibExtrema
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayVal

open Cert.KernelIdeal Cert.KernelIdeal.Gen Idealize.ShloMosaic Idealize.ShloMosaic.ValueIdx Cert.LogSumExp

/-- Row `r`, lane `c` of the masked score tile at grid point `i`. -/
def sTile (i : grid0.Coords) (Eh : Vec Ideal S1024x128 .f32) (T : Vec Ideal S2048x128 .f32) (Bv : Vec Ideal S2048 .f32)
    (r : Fin 1024) (c : Fin 2048) : EReal :=
  if (25 * (i 0).val + (i 1).val) * 2048 + c.val < 100000 then (∑ k : Fin 128, Eh (ix2 r k) * T (ix2 c k)) + Bv (ix1 c) else ⊥

/-- The column base of the tile as the body computes it (an i32 chain over the grid coordinates). -/
abbrev colBase (i : grid0.Coords) : BitVec 32 :=
  Scalar.muli (Scalar.addi (Scalar.muli (BitVec.ofNat 32 (i 0).val) 25#32) (BitVec.ofNat 32 (i 1).val)) 2048#32

/-! ### The column test: no 32-bit wrap, so the signed comparison is the comparison of naturals -/

/-- The column base is (25 h + j) · 2048 as a natural: h < 2 and j < 25 keep every step far below 2^31. -/
theorem colBase_toNat (i : grid0.Coords) : (colBase i).toNat = (25 * (i 0).val + (i 1).val) * 2048 := by
  have h0 : (i 0).val < 2 := (i 0).isLt
  have h1 : (i 1).val < 25 := (i 1).isLt
  simp only [colBase, Scalar.muli, Scalar.addi, IntOp.muli, IntOp.addi, BitVec.toNat_mul, BitVec.toNat_add, BitVec.toNat_ofNat]
  omega

/-- Lane c's column, lane + base, is below 100000 as a signed word exactly when it is as a natural. -/
theorem lane_slt (i : grid0.Coords) (c : Fin 2048) :
    (IntOp.addi (BitVec.ofNat 32 c.val) (colBase i)).slt 100000#32 = decide ((25 * (i 0).val + (i 1).val) * 2048 + c.val < 100000) := by
  have h0 : (i 0).val < 2 := (i 0).isLt
  have h1 : (i 1).val < 25 := (i 1).isLt
  have hc : c.val < 2048 := c.isLt
  have hb := colBase_toNat i
  have hx : (IntOp.addi (BitVec.ofNat 32 c.val) (colBase i)).toNat = (25 * (i 0).val + (i 1).val) * 2048 + c.val := by
    simp only [IntOp.addi, BitVec.toNat_add, BitVec.toNat_ofNat, hb]
    omega
  have e := BitVec.toInt_eq_toNat_cond (IntOp.addi (BitVec.ofNat 32 c.val) (colBase i))
  rw [BitVec.slt]
  have e2 : (100000#32 : BitVec 32).toInt = 100000 := by decide
  rw [e2, e, hx]
  by_cases h : (25 * (i 0).val + (i 1).val) * 2048 + c.val < 100000
  · simp only [h, decide_true]
    split <;> simp <;> omega
  · simp only [h, decide_false]
    split <;> simp <;> omega

/-! ### The block product at an index: row r of the queries against row c of the table tile -/

theorem lhs_axis0 (j : S1024x2048.Idx) (q : dot_S1024x128_S2048x128_S1024x2048_1_1_0_0_n_n.contr.Idx) :
    (dot_S1024x128_S2048x128_S1024x2048_1_1_0_0_n_n.lhsIdx j q 0).val = (j 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
theorem lhs_axis1 (j : S1024x2048.Idx) (q : dot_S1024x128_S2048x128_S1024x2048_1_1_0_0_n_n.contr.Idx) :
    (dot_S1024x128_S2048x128_S1024x2048_1_1_0_0_n_n.lhsIdx j q 1).val = (q ⟨0, by decide⟩).val :=
  dot_S1024x128_S2048x128_S1024x2048_1_1_0_0_n_n.lhsIdx_val_of_single rfl j q
theorem rhs_axis0 (j : S1024x2048.Idx) (q : dot_S1024x128_S2048x128_S1024x2048_1_1_0_0_n_n.contr.Idx) :
    (dot_S1024x128_S2048x128_S1024x2048_1_1_0_0_n_n.rhsIdx j q 0).val = (j 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
theorem rhs_axis1 (j : S1024x2048.Idx) (q : dot_S1024x128_S2048x128_S1024x2048_1_1_0_0_n_n.contr.Idx) :
    (dot_S1024x128_S2048x128_S1024x2048_1_1_0_0_n_n.rhsIdx j q 1).val = (q ⟨0, by decide⟩).val :=
  dot_S1024x128_S2048x128_S1024x2048_1_1_0_0_n_n.rhsIdx_val_of_single rfl j q

/-- Entry (r, c) of the product into the zero accumulator: the sum over k of A (r, k) · B (c, k) (both operands are
    contracted along their second axis). -/
theorem matmul_rc (A : FVec Ideal S1024x128 .bf16) (B : FVec Ideal S2048x128 .bf16) (r : Fin 1024) (c : Fin 2048) :
    FloatOps.matmul dot_S1024x128_S2048x128_S1024x2048_1_1_0_0_n_n none A B (constant S1024x2048 .f32 0x00000000#32) (ix2 r c)
      = ∑ k : Fin 128, A (ix2 r k) * B (ix2 c k) := by
  rw [Ideal.matmul_constant_zero_apply,
    ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 r c)
      ((ValueIdx.contrEquiv1 dot_S1024x128_S2048x128_S1024x2048_1_1_0_0_n_n 128 rfl rfl).symm k) = ix2 r k :=
    funext fun a => Fin.ext (by
      match a with
      | ⟨0, _⟩ => exact lhs_axis0 _ _
      | ⟨1, _⟩ => exact (lhs_axis1 _ _).trans hk)
  have er : dot_S1024x128_S2048x128_S1024x2048_1_1_0_0_n_n.rhsIdx (ix2 r c)
      ((ValueIdx.contrEquiv1 dot_S1024x128_S2048x128_S1024x2048_1_1_0_0_n_n 128 rfl rfl).symm k) = ix2 c k :=
    funext fun a => Fin.ext (by
      match a with
      | ⟨0, _⟩ => exact rhs_axis0 _ _
      | ⟨1, _⟩ => exact (rhs_axis1 _ _).trans hk)
  rw [el, er]

/-! ### The masked score tile over any column base

Both halves of the body compute the same tile from the same table rows and the same column base; the second half takes
them as values the first half hands on.  The tile is read once, over any table operand `B` and any base word `w`. -/

/-- A select on a signed comparison is the `if` on it. -/
theorem select_slt {α : Type} (x y : BitVec 32) (A B : α) :
    Scalar.select (IntOp.cmpi .slt x y) A B = if x.slt y = true then A else B := by
  show (if BitVec.ofBool (x.slt y) = 1 then A else B) = _
  cases x.slt y <;> simp

/-- Row r, lane c of the masked scores: the product's entry plus the lane's bias where lane + base is a column of the
    table, −∞ (the value the mask constant names) elsewhere. -/
theorem score_apply (B : FVec Ideal S2048x128 .bf16) (w : BitVec 32) (Eh : Vec Ideal S1024x128 .f32) (Bv : Vec Ideal S2048 .f32)
    (r : Fin 1024) (c : Fin 2048) :
    k0_pay11 (F := Ideal) B w Eh Bv (ix2 r c)
      = if (IntOp.addi (BitVec.ofNat 32 c.val) w).slt 100000#32 = true
          then (∑ k : Fin 128, Eh (ix2 r k) * B (ix2 c k)) + Bv (ix1 c) else ⊥ := by
  have h1 : k0_pay11 (F := Ideal) B w Eh Bv (ix2 r c)
      = Scalar.select (IntOp.cmpi .slt (IntOp.addi (iota .tc S1024x2048 32 [1] Gen.iota_S1024x2048_d1_w32 (ix2 r c)) w) 100000#32)
          (FloatOps.matmul dot_S1024x128_S2048x128_S1024x2048_1_1_0_0_n_n none (truncf .bf16 Eh Gen.bitsLt_bf16_f32) B
              (constant S1024x2048 .f32 0x00000000#32) (ix2 r c)
            + broadcastTo S1024x2048 (shapeCast S1x2048 Bv Gen.shapeCasts_S2048_S1x2048) Gen.broadcasts_S1x2048_S1024x2048 (ix2 r c))
          (Named.named κ "neg_big" 0xF149F2CA#32) := rfl
  have hi : iota .tc S1024x2048 32 [1] Gen.iota_S1024x2048_d1_w32 (ix2 r c) = BitVec.ofNat 32 c.val :=
    iota_single_apply .tc S1024x2048 32 1 Gen.iota_S1024x2048_d1_w32 (ix2 r c)
  have hm : FloatOps.matmul dot_S1024x128_S2048x128_S1024x2048_1_1_0_0_n_n none (truncf .bf16 Eh Gen.bitsLt_bf16_f32) B
      (constant S1024x2048 .f32 0x00000000#32) (ix2 r c) = ∑ k : Fin 128, Eh (ix2 r k) * B (ix2 c k) :=
    matmul_rc (truncf .bf16 Eh Gen.bitsLt_bf16_f32) B r c
  have hb : broadcastTo S1024x2048 (shapeCast S1x2048 Bv Gen.shapeCasts_S2048_S1x2048) Gen.broadcasts_S1x2048_S1024x2048 (ix2 r c)
      = Bv (ix1 c) :=
    (broadcastTo_1b_ab_apply _ Gen.broadcasts_S1x2048_S1024x2048 r c).trans
      (shapeCast_a_1a_apply Bv Gen.shapeCasts_S2048_S1x2048 0 c)
  have hn : (Named.named κ "neg_big" 0xF149F2CA#32 : Ideal .f32) = ⊥ :=
    IdealRules.named_const.ideal_named_scalar κ "neg_big" _ ⊥ rfl
  rw [h1, hi, hm, hb, hn, select_slt]

/-- At the table tile itself and the body's own column base the tile is `sTile`. -/
theorem tile_apply (i : grid0.Coords) (T : Vec Ideal S2048x128 .f32) (Eh : Vec Ideal S1024x128 .f32) (Bv : Vec Ideal S2048 .f32)
    (r : Fin 1024) (c : Fin 2048) :
    k0_pay11 (F := Ideal) (k0_pay5 T) (colBase i) Eh Bv (ix2 r c) = sTile i Eh T Bv r c := by
  rw [score_apply, lane_slt]
  unfold sTile
  simp only [decide_eq_true_eq]
  rfl

/-- … row by row. -/
theorem tile_row (i : grid0.Coords) (T : Vec Ideal S2048x128 .f32) (Eh : Vec Ideal S1024x128 .f32) (Bv : Vec Ideal S2048 .f32)
    (r : Fin 1024) :
    (fun c : Fin 2048 => k0_pay11 (F := Ideal) (k0_pay5 T) (colBase i) Eh Bv (ix2 r c)) = sTile i Eh T Bv r :=
  funext fun c => tile_apply i T Eh Bv r c

/-! ### Layout steps of the running shift and sum: a column vector kept as [a, 1], and its broadcast along the lanes -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Lane c inserted into the reduced index r of the lane reduction is the index (r, c). -/
theorem lift_rc (r : Fin 1024) (c : Fin 2048) :
    Gen.reduces_S1024x2048_S1024.lift (ix1 r) c = ix2 r c :=
  funext fun a => Fin.ext (by
    match a with
    | ⟨0, _⟩ => rfl
    | ⟨1, _⟩ => rfl)

/-- The lane maximum of a tile's row r, taken from −∞: the fold of max over the 2048 lanes. -/
theorem rowMax_apply (X : FVec Ideal S1024x2048 .f32) (r : Fin 1024) :
    multiReduction (F := Ideal) .maximumf [1] S1024 X 0xFF800000#32 Gen.reduces_S1024x2048_S1024 (.inl rfl) rfl (ix1 r)
      = (Finset.univ : Finset (Fin 2048)).fold max ⊥ fun c => X (ix2 r c) := by
  refine (Ideal.multiReduction_maximumf_single X (0xFF800000#32 : BitVec 32) Gen.reduces_S1024x2048_S1024 (.inl rfl) rfl (ix1 r)).trans ?_
  rw [Ideal.ofBits_def, Cert.LibExtrema.ofBits_neg_inf]
  have e : X ∘ Gen.reduces_S1024x2048_S1024.lift (ix1 r) = fun c : Fin 2048 => X (ix2 r c) :=
    funext fun c => congrArg X (lift_rc r c)
  rw [e]
  rfl

/-- The lane sum of a tile's row r. -/
theorem rowSum_apply (X : FVec Ideal S1024x2048 .f32) (r : Fin 1024) :
    multiReduction (F := Ideal) .add [1] S1024 X 0x00000000#32 Gen.reduces_S1024x2048_S1024 (.inl rfl) rfl (ix1 r)
      = ∑ c : Fin 2048, X (ix2 r c) := by
  refine (Ideal.multiReduction_add_single X (0x00000000#32 : BitVec 32) Gen.reduces_S1024x2048_S1024 (.inl rfl) rfl (ix1 r)).trans ?_
  exact Finset.sum_congr rfl fun c _ => congrArg X (lift_rc r c)

/-! ### The new shift and the new sum over any column base -/

/-- An exponential at an index is the exponential of the element. -/
theorem exp_apply {s : Shape} {φ : FTy} (a : FVec Ideal s φ) (i : s.Idx) : exp a i = Ideal.exp (a i) := rfl

/-- The new shift as one term of the body's values: the old shift against the lane maximum of the scores kept as a column. -/
theorem shift_eq (B : FVec Ideal S2048x128 .bf16) (w : BitVec 32) (Eh : Vec Ideal S1024x128 .f32) (Bv : Vec Ideal S2048 .f32)
    (M : Vec Ideal S1024x1 .f32) :
    k0_pay12 (F := Ideal) B w Eh Bv M
      = maximumf M
          (shapeCast S1024x1 (multiReduction (F := Ideal) .maximumf [1] S1024 (k0_pay11 (F := Ideal) B w Eh Bv) 0xFF800000#32
            Gen.reduces_S1024x2048_S1024 (.inl rfl) rfl) Gen.shapeCasts_S1024_S1024x1) := rfl

/-- The new shift of row r: the old one against the row's maximum over the 2048 lanes. -/
theorem shift_apply (B : FVec Ideal S2048x128 .bf16) (w : BitVec 32) (Eh : Vec Ideal S1024x128 .f32) (Bv : Vec Ideal S2048 .f32)
    (M : Vec Ideal S1024x1 .f32) (r : Fin 1024) :
    k0_pay12 (F := Ideal) B w Eh Bv M (ix2 r (0 : Fin 1))
      = mStep (M (ix2 r (0 : Fin 1))) (fun c => k0_pay11 (F := Ideal) B w Eh Bv (ix2 r c)) := by
  rw [shift_eq]
  refine (maximumf_apply _ _ _).trans ?_
  rw [shapeCast_a_a1_apply, rowMax_apply]
  rfl

/-- The new sum as one term of the body's values (the closing cast between equal shapes is the identity). -/
theorem sum_eq (B : FVec Ideal S2048x128 .bf16) (w : BitVec 32) (Eh : Vec Ideal S1024x128 .f32) (Bv : Vec Ideal S2048 .f32)
    (M L : Vec Ideal S1024x1 .f32) :
    k0_pay14 (F := Ideal) B w Eh Bv M L
      = addf (mulf (exp (subf M (k0_pay12 (F := Ideal) B w Eh Bv M))) L)
          (shapeCast S1024x1 (multiReduction (F := Ideal) .add [1] S1024
              (exp (subf (k0_pay11 (F := Ideal) B w Eh Bv)
                (broadcastTo S1024x2048 (k0_pay12 (F := Ideal) B w Eh Bv M) Gen.broadcasts_S1024x1_S1024x2048)))
              0x00000000#32 Gen.reduces_S1024x2048_S1024 (.inl rfl) rfl) Gen.shapeCasts_S1024_S1024x1) :=
  shapeCast_self _ _

/-- The new sum of row r: the old one rescaled from the old shift to the new, plus the row's exponentials at the new shift. -/
theorem sum_apply (B : FVec Ideal S2048x128 .bf16) (w : BitVec 32) (Eh : Vec Ideal S1024x128 .f32) (Bv : Vec Ideal S2048 .f32)
    (M L : Vec Ideal S1024x1 .f32) (r : Fin 1024) :
    k0_pay14 (F := Ideal) B w Eh Bv M L (ix2 r (0 : Fin 1))
      = lStep (M (ix2 r (0 : Fin 1))) (L (ix2 r (0 : Fin 1))) (fun c => k0_pay11 (F := Ideal) B w Eh Bv (ix2 r c)) := by
  rw [sum_eq]
  refine (addf_apply _ _ _).trans ?_
  rw [mulf_apply, exp_apply, subf_apply, shapeCast_a_a1_apply, rowSum_apply]
  have hs : ∀ c : Fin 2048,
      exp (subf (k0_pay11 (F := Ideal) B w Eh Bv)
          (broadcastTo S1024x2048 (k0_pay12 (F := Ideal) B w Eh Bv M) Gen.broadcasts_S1024x1_S1024x2048)) (ix2 r c)
        = Ideal.exp (k0_pay11 (F := Ideal) B w Eh Bv (ix2 r c) - k0_pay12 (F := Ideal) B w Eh Bv M (ix2 r (0 : Fin 1))) :=
    fun c => by rw [exp_apply, subf_apply, broadcastTo_a1_ab_apply]
  rw [Finset.sum_congr rfl fun c _ => hs c, shift_apply]
  rfl

/-! ### Rows 0‥1023 (the first part of the body) -/

theorem pay6_apply (i : grid0.Coords) (T : Vec Ideal S2048x128 .f32) (Eh : Vec Ideal S1024x128 .f32) (Bv : Vec Ideal S2048 .f32)
    (r : Fin 1024) (c : Fin 2048) : k0_pay6 (F := Ideal) i T Eh Bv (ix2 r c) = sTile i Eh T Bv r c := by
  have h : k0_pay6 (F := Ideal) i T Eh Bv = k0_pay11 (F := Ideal) (k0_pay5 T) (colBase i) Eh Bv := rfl
  rw [h]
  exact tile_apply i T Eh Bv r c

theorem pay7_apply (i : grid0.Coords) (T : Vec Ideal S2048x128 .f32) (Eh : Vec Ideal S1024x128 .f32) (Bv : Vec Ideal S2048 .f32)
    (M : Vec Ideal S1024x1 .f32) (r : Fin 1024) :
    k0_pay7 (F := Ideal) i T Eh Bv M (ix2 r (0 : Fin 1)) = mStep (M (ix2 r (0 : Fin 1))) (sTile i Eh T Bv r) := by
  have h : k0_pay7 (F := Ideal) i T Eh Bv M = k0_pay12 (F := Ideal) (k0_pay5 T) (colBase i) Eh Bv M := rfl
  rw [h, shift_apply, tile_row]

theorem pay8_apply (i : grid0.Coords) (T : Vec Ideal S2048x128 .f32) (Eh : Vec Ideal S1024x128 .f32) (Bv : Vec Ideal S2048 .f32)
    (M L : Vec Ideal S1024x1 .f32) (r : Fin 1024) :
    k0_pay8 (F := Ideal) i T Eh Bv M L (ix2 r (0 : Fin 1)) = lStep (M (ix2 r (0 : Fin 1))) (L (ix2 r (0 : Fin 1))) (sTile i Eh T Bv r) := by
  have h : k0_pay8 (F := Ideal) i T Eh Bv M L = k0_pay14 (F := Ideal) (k0_pay5 T) (colBase i) Eh Bv M L :=
    (shapeCast_self (k0_pay8 (F := Ideal) i T Eh Bv M L) Gen.shapeCasts_S1024x1_S1024x1).symm
  rw [h, sum_apply, tile_row]

theorem pay9_apply (v : FVec Ideal S1024x1 .f32) (y : S1024x1.Idx) : k0_pay9 (F := Ideal) v y = v y :=
  congrFun (shapeCast_self v Gen.shapeCasts_S1024x1_S1024x1) y

theorem pay10_apply (v : FVec Ideal S1024x1 .f32) (y : S1024x1.Idx) : k0_pay10 (F := Ideal) v y = v y :=
  congrFun (shapeCast_self v Gen.shapeCasts_S1024x1_S1024x1) y

/-! ### Rows 1024‥2047 (the second part): the same arithmetic over the values the first part hands on -/

theorem pay11_apply (i : grid0.Coords) (T : Vec Ideal S2048x128 .f32) (Eh : Vec Ideal S1024x128 .f32) (Bv : Vec Ideal S2048 .f32)
    (r : Fin 1024) (c : Fin 2048) :
    k0_pay11 (F := Ideal) (k0_pay5 T) (colBase i) Eh Bv (ix2 r c) = sTile i Eh T Bv r c :=
  tile_apply i T Eh Bv r c

theorem pay12_apply (i : grid0.Coords) (T : Vec Ideal S2048x128 .f32) (Eh : Vec Ideal S1024x128 .f32) (Bv : Vec Ideal S2048 .f32)
    (M : Vec Ideal S1024x1 .f32) (r : Fin 1024) :
    k0_pay12 (F := Ideal) (k0_pay5 T) (colBase i) Eh Bv M (ix2 r (0 : Fin 1)) = mStep (M (ix2 r (0 : Fin 1))) (sTile i Eh T Bv r) := by
  rw [shift_apply, tile_row]

theorem pay13_apply (i : grid0.Coords) (T : Vec Ideal S2048x128 .f32) (Eh : Vec Ideal S1024x128 .f32) (Bv : Vec Ideal S2048 .f32)
    (M : Vec Ideal S1024x1 .f32) (r : Fin 1024) :
    k0_pay13 (F := Ideal) (k0_pay5 T) (colBase i) Eh Bv M (ix2 r (0 : Fin 1)) = mStep (M (ix2 r (0 : Fin 1))) (sTile i Eh T Bv r) := by
  have h : k0_pay13 (F := Ideal) (k0_pay5 T) (colBase i) Eh Bv M = k0_pay12 (F := Ideal) (k0_pay5 T) (colBase i) Eh Bv M :=
    shapeCast_self _ Gen.shapeCasts_S1024x1_S1024x1
  rw [h]
  exact pay12_apply i T Eh Bv M r

theorem pay14_apply (i : grid0.Coords) (T : Vec Ideal S2048x128 .f32) (Eh : Vec Ideal S1024x128 .f32) (Bv : Vec Ideal S2048 .f32)
    (M L : Vec Ideal S1024x1 .f32) (r : Fin 1024) :
    k0_pay14 (F := Ideal) (k0_pay5 T) (colBase i) Eh Bv M L (ix2 r (0 : Fin 1)) = lStep (M (ix2 r (0 : Fin 1))) (L (ix2 r (0 : Fin 1))) (sTile i Eh T Bv r) := by
  rw [sum_apply, tile_row]

/-! ### The reset values and the copies to the outputs -/

theorem pay3_apply (y : S2048x1.Idx) : k0_pay3 (F := Ideal) y = ⊥ := by
  have h : k0_pay3 (F := Ideal) = broadcast S2048x1 (Scalar.ofBits (F := Ideal) .f32 0xFF800000#32) :=
    shapeCast_self _ Gen.shapeCasts_S2048x1_S2048x1
  rw [h]
  exact Cert.LibExtrema.ofBits_neg_inf

theorem pay4_apply (y : S2048x1.Idx) : k0_pay4 (F := Ideal) y = 0 := by
  have h : k0_pay4 (F := Ideal) = broadcast S2048x1 (Scalar.ofBits (F := Ideal) .f32 0x00000000#32) :=
    shapeCast_self _ Gen.shapeCasts_S2048x1_S2048x1
  rw [h]
  exact Ideal.ofBits_zero_f32

theorem pay1_apply (v : Vec Ideal S2048x1 .f32) (h : Fin 1) (r : Fin 2048) (z : Fin 1) :
    k0_pay1 (F := Ideal) v (ix3 h r z) = v (ix2 r z) :=
  shapeCast_ab_1ab_apply v Gen.shapeCasts_S2048x1_S1x2048x1 h r z

theorem pay2_apply (v : Vec Ideal S2048x1 .f32) (h : Fin 1) (r : Fin 2048) (z : Fin 1) :
    k0_pay2 (F := Ideal) v (ix3 h r z) = v (ix2 r z) :=
  shapeCast_ab_1ab_apply v Gen.shapeCasts_S2048x1_S1x2048x1 h r z

end Cert.KernelIdeal.PayVal

end
-- ==== Proof.WinBlocks.lean ====
/-
  The three input windows' blocks at a grid point.

  Window 0 is the whole query array at every point.  Windows 1 and 2 are the table tile and the bias tile of
  2048 rows starting at row 2048 · min (t, 48); the last real tile overhangs the table's 100000 rows, and the fetch
  fills only the rows inside the table (the staging buffer's tail keeps words nothing names).  Point 49 refetches
  nothing (its block index is point 48's), so its buffers hold what point 48's held.  Either way the part of the
  buffer a fetch moves holds the array's block, and lane l of that part is table row 2048 t + l.
-/
import proofs.«414775_j1821066134199_3_alg».proof.Proof.BodyBase
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-- A word for the staging rows no fetch fills: the zero pattern. -/
abbrev padWord : Elt F .f32 := Scalar.ofBits .f32 0#32

/-- The table tile at point `t`, filled out past the table's end with the zero word; -/
def tabBlk (c : Dev nD) (t : Fin cfg0.N) : (cfg0.win 1).block.Idx → Elt F (cfg0.win 1).elt :=
  (cfg0.win 1).fill (grid0.coords t) (fun _ => padWord) (iblk m c 1 t)
/-- the bias tile likewise. -/
def biasBlk (c : Dev nD) (t : Fin cfg0.N) : (cfg0.win 2).block.Idx → Elt F (cfg0.win 2).elt :=
  (cfg0.win 2).fill (grid0.coords t) (fun _ => padWord) (iblk m c 2 t)

/-! ### Three general facts about a window's blocks -/

/-- Two points with one block index read the same array entries: the blocks' rectangles start at the same offsets, so
    multi-indices with the same coordinates land on one entry of the array. -/
theorem read_blk_congr {G : Pipeline.Grid} (w : Window sig G) {Val : EltTy → Type} (f : w.arr.view.ty.Contents Val)
    (t t' : Fin G.N) (hidx : w.index t = w.index t')
    (j : (w.xblock (G.coords t)).Idx) (j' : (w.xblock (G.coords t')).Idx) (hj : ∀ a, (j a).val = (j' a).val) :
    (w.blk t).view.read Val f j = (w.blk t').view.read Val f j' := by
  have e : (w.blk t).view.emb j = (w.blk t').view.emb j' := by
    show w.arr.view.emb ((w.rect t).emb j) = w.arr.view.emb ((w.rect t').emb j')
    congr 1
    funext a
    apply Fin.ext
    rw [Rect.emb_apply, Rect.emb_apply]
    show w.index t a * w.size a + 1 * (j a).val = w.index t' a * w.size a + 1 * (j' a).val
    rw [hidx, hj a]
  rw [View.read_apply, View.read_apply, e]

/-- The part the transfer at `i` moves, of contents whose part moved at `i'` was filled with `g`: when the two
    transfers move parts of the same sizes it is `g`, multi-index for multi-index. -/
theorem cut_fill_of_xsize_eq {G : Pipeline.Grid} (w : Window sig G) {α : Type} (i i' : G.Coords)
    (hx : ∀ a, w.xsize i a = w.xsize i' a) (d : w.block.Idx → α) (g : (w.xblock i').Idx → α) (j : (w.xblock i).Idx) :
    w.cut i (w.fill i' d g) j = g fun a => ⟨(j a).val, Nat.lt_of_lt_of_eq (j a).isLt (hx a)⟩ := by
  have hmv : w.moved i' (w.xinj i j) = true := (w.moved_iff i' _).mpr fun a => Nat.lt_of_lt_of_eq (j a).isLt (hx a)
  show w.fill i' d g (w.xinj i j) = _
  unfold Window.fill
  rw [dif_pos hmv]

/-- An entry of contents whose moved part at `i` is `g`, at a multi-index inside the moved part: `g`'s entry there. -/
theorem apply_of_cut_eq {G : Pipeline.Grid} (w : Window sig G) {α : Type} (i : G.Coords) (X : w.block.Idx → α)
    (g : (w.xblock i).Idx → α) (hX : w.cut i X = g) (x : w.block.Idx) (hx : ∀ a, (x a).val < w.xsize i a) :
    X x = g fun a => ⟨(x a).val, hx a⟩ := by
  rw [← hX]

/-! ### The table window's schedule -/

/-- The table window is fetched at the points 0‥48 (its block index is the point), -/
theorem fetch1_le : ∀ t : Fin cfg0.N, t.val ≤ 48 → (cfg0.win 1).fetch t = true :=
  (by decide +kernel : ∀ t : Fin grid0.N, t.val ≤ 48 → win0_1.fetch t = true)
/-- and not at the last point, whose block index is again 48. -/
theorem fetch1_last : ∀ t : Fin cfg0.N, t.val = 49 → (cfg0.win 1).fetch t = false :=
  (by decide +kernel : ∀ t : Fin grid0.N, t.val = 49 → win0_1.fetch t = false)
/-- The last two points have one block: one block index, and moved parts of the same sizes. -/
theorem same1_last : ∀ t : Fin cfg0.N, t.val = 49 → ∀ h : t.val - 1 < cfg0.N,
    (∀ a, (cfg0.win 1).index t a = (cfg0.win 1).index ⟨t.val - 1, h⟩ a)
      ∧ ∀ a, (cfg0.win 1).xsize (grid0.coords t) a = (cfg0.win 1).xsize (grid0.coords ⟨t.val - 1, h⟩) a :=
  (by decide +kernel : ∀ t : Fin grid0.N, t.val = 49 → ∀ h : t.val - 1 < grid0.N,
    (∀ a, win0_1.index t a = win0_1.index ⟨t.val - 1, h⟩ a)
      ∧ ∀ a, win0_1.xsize (grid0.coords t) a = win0_1.xsize (grid0.coords ⟨t.val - 1, h⟩) a)

/-- Whatever the staging buffer of the table window held before, the part a fetch moves holds the table's block when
    the body runs at `t`: just fetched at the points 0‥48, kept from point 48 at point 49. -/
theorem cut_before1 {c : Dev nD} (dat : Dat τ (Elt F) Unit ℕ (UR sig nD τ) ℕ cfg0 c)
    (hA : dat.A 1 = V m c (Pipeline.arrRef spec0 1)) (hafter : ∀ t, dat.after 1 t = tabBlk m c t)
    (t : Fin cfg0.N) (d : (cfg0.win 1).block.Idx → Elt F (cfg0.win 1).elt) :
    (cfg0.win 1).cut (grid0.coords t) (dat.before 1 t d) = iblk m c 1 t := by
  by_cases ht : t.val ≤ 48
  · -- just fetched: the buffer's moved part is the block the fetch read
    unfold Dat.before
    rw [if_pos (fetch1_le t ht)]
    unfold Dat.fetched
    rw [Window.cut_fill]
    unfold Dat.blockOf iblk
    rw [hA]
  · -- the last point: nothing is fetched, the previous point wrote nothing back and was not idle, so the buffer holds
    -- what the body left there, the block of the previous point on its moved part; the two points have one block
    have ht49 : t.val = 49 := by have := t.isLt; have : cfg0.N = 50 := rfl; omega
    have h' : t.val - 1 < cfg0.N := Nat.lt_of_le_of_lt (Nat.sub_le _ _) t.isLt
    obtain ⟨hidx, hxs⟩ := same1_last t ht49 h'
    rw [dat.before_of_pos 1 t (by omega) (fetch1_last t ht49) d]
    rw [if_neg (by exact Bool.false_ne_true)]
    unfold Dat.left
    show (cfg0.win 1).cut (grid0.coords t) (dat.kept 1 ⟨t.val - 1, h'⟩ d) = _
    unfold Dat.kept
    rw [hafter]
    unfold tabBlk
    rw [Window.cut_fill]
    funext j
    rw [cut_fill_of_xsize_eq (cfg0.win 1) (grid0.coords t) (grid0.coords ⟨t.val - 1, h'⟩) hxs]
    unfold iblk
    exact (read_blk_congr (cfg0.win 1) _ t ⟨t.val - 1, h'⟩ (funext hidx) j _ (fun _ => rfl)).symm

/-! ### The bias window's schedule: the table window's -/

/-- The bias window is fetched at the points 0‥48, -/
theorem fetch2_le : ∀ t : Fin cfg0.N, t.val ≤ 48 → (cfg0.win 2).fetch t = true :=
  (by decide +kernel : ∀ t : Fin grid0.N, t.val ≤ 48 → win0_2.fetch t = true)
/-- and not at the last point. -/
theorem fetch2_last : ∀ t : Fin cfg0.N, t.val = 49 → (cfg0.win 2).fetch t = false :=
  (by decide +kernel : ∀ t : Fin grid0.N, t.val = 49 → win0_2.fetch t = false)
/-- The last two points have one block. -/
theorem same2_last : ∀ t : Fin cfg0.N, t.val = 49 → ∀ h : t.val - 1 < cfg0.N,
    (∀ a, (cfg0.win 2).index t a = (cfg0.win 2).index ⟨t.val - 1, h⟩ a)
      ∧ ∀ a, (cfg0.win 2).xsize (grid0.coords t) a = (cfg0.win 2).xsize (grid0.coords ⟨t.val - 1, h⟩) a :=
  (by decide +kernel : ∀ t : Fin grid0.N, t.val = 49 → ∀ h : t.val - 1 < grid0.N,
    (∀ a, win0_2.index t a = win0_2.index ⟨t.val - 1, h⟩ a)
      ∧ ∀ a, win0_2.xsize (grid0.coords t) a = win0_2.xsize (grid0.coords ⟨t.val - 1, h⟩) a)

/-- The same for the bias window. -/
theorem cut_before2 {c : Dev nD} (dat : Dat τ (Elt F) Unit ℕ (UR sig nD τ) ℕ cfg0 c)
    (hA : dat.A 2 = V m c (Pipeline.arrRef spec0 2)) (hafter : ∀ t, dat.after 2 t = biasBlk m c t)
    (t : Fin cfg0.N) (d : (cfg0.win 2).block.Idx → Elt F (cfg0.win 2).elt) :
    (cfg0.win 2).cut (grid0.coords t) (dat.before 2 t d) = iblk m c 2 t := by
  by_cases ht : t.val ≤ 48
  · -- just fetched: the buffer's moved part is the block the fetch read
    unfold Dat.before
    rw [if_pos (fetch2_le t ht)]
    unfold Dat.fetched
    rw [Window.cut_fill]
    unfold Dat.blockOf iblk
    rw [hA]
  · -- the last point: nothing is fetched, the previous point wrote nothing back and was not idle, so the buffer holds
    -- what the body left there, the block of the previous point on its moved part; the two points have one block
    have ht49 : t.val = 49 := by have := t.isLt; have : cfg0.N = 50 := rfl; omega
    have h' : t.val - 1 < cfg0.N := Nat.lt_of_le_of_lt (Nat.sub_le _ _) t.isLt
    obtain ⟨hidx, hxs⟩ := same2_last t ht49 h'
    rw [dat.before_of_pos 2 t (by omega) (fetch2_last t ht49) d]
    rw [if_neg (by exact Bool.false_ne_true)]
    unfold Dat.left
    show (cfg0.win 2).cut (grid0.coords t) (dat.kept 2 ⟨t.val - 1, h'⟩ d) = _
    unfold Dat.kept
    rw [hafter]
    unfold biasBlk
    rw [Window.cut_fill]
    funext j
    rw [cut_fill_of_xsize_eq (cfg0.win 2) (grid0.coords t) (grid0.coords ⟨t.val - 1, h'⟩) hxs]
    unfold iblk
    exact (read_blk_congr (cfg0.win 2) _ t ⟨t.val - 1, h'⟩ (funext hidx) j _ (fun _ => rfl)).symm

/-! ### Reading a block at a lane -/

/-- At the points 0‥48 the table window's block index is (the point, 0), and the transfer moves the rows of the tile that
    the table has, all 128 lanes of each. -/
theorem geom1 : ∀ t : Fin cfg0.N, t.val ≤ 48 →
    (cfg0.win 1).index t 0 = t.val ∧ (cfg0.win 1).index t 1 = 0
      ∧ (cfg0.win 1).xsize (grid0.coords t) 0 = min 2048 (100000 - 2048 * t.val) ∧ (cfg0.win 1).xsize (grid0.coords t) 1 = 128 :=
  (by decide +kernel : ∀ t : Fin grid0.N, t.val ≤ 48 →
    win0_1.index t 0 = t.val ∧ win0_1.index t 1 = 0
      ∧ win0_1.xsize (grid0.coords t) 0 = min 2048 (100000 - 2048 * t.val) ∧ win0_1.xsize (grid0.coords t) 1 = 128)

/-- Lane `l` of a buffer whose moved part is the table's block at `t` is table row `2048 t + l`, when the table has that row. -/
theorem tab_read (c : Dev nD) (t : Fin cfg0.N) (X : Vec F S2048x128 .f32)
    (hX : (cfg0.win 1).cut (grid0.coords t) X = iblk m c 1 t) (l : Fin 2048) (k : Fin 128) (h : 2048 * t.val + l.val < 100000) :
    X (ix2 l k) = V m c main_arg1 (ix2 (⟨2048 * t.val + l.val, h⟩ : Fin 100000) k) := by
  have ht : t.val ≤ 48 := by have := l.isLt; omega
  obtain ⟨hi0, hi1, hx0, hx1⟩ := geom1 t ht
  have hx : ∀ a : Fin 2, ((ix2 l k : S2048x128.Idx) a).val < (cfg0.win 1).xsize (grid0.coords t) a := by
    intro a
    match a with
    | ⟨0, _⟩ => show l.val < (cfg0.win 1).xsize (grid0.coords t) 0; rw [hx0]; have := l.isLt; omega
    | ⟨1, _⟩ => show k.val < (cfg0.win 1).xsize (grid0.coords t) 1; rw [hx1]; exact k.isLt
  -- (l, k) lies in the moved part: row l is below min (2048, 100000 − 2048 t) because the table has row 2048 t + l
  rw [apply_of_cut_eq (cfg0.win 1) (grid0.coords t) X _ hX (ix2 l k) hx]
  -- the block's entry (l, k) is the table's entry (t · 2048 + 1 · l, 0 · 128 + 1 · k)
  unfold iblk
  rw [View.read_apply]
  show V m c main_arg1 (((cfg0.win 1).rect t).emb _) = _
  congr 1
  funext a
  apply Fin.ext
  rw [Rect.emb_apply]
  match a with
  | ⟨0, _⟩ => show (cfg0.win 1).index t 0 * 2048 + 1 * l.val = 2048 * t.val + l.val; rw [hi0]; omega
  | ⟨1, _⟩ => show (cfg0.win 1).index t 1 * 128 + 1 * k.val = k.val; rw [hi1]; omega

/-- At the points 0‥48 the bias window's block index is the point, and the transfer moves the entries of the tile that the
    bias vector has. -/
theorem geom2 : ∀ t : Fin cfg0.N, t.val ≤ 48 →
    (cfg0.win 2).index t 0 = t.val ∧ (cfg0.win 2).xsize (grid0.coords t) 0 = min 2048 (100000 - 2048 * t.val) :=
  (by decide +kernel : ∀ t : Fin grid0.N, t.val ≤ 48 →
    win0_2.index t 0 = t.val ∧ win0_2.xsize (grid0.coords t) 0 = min 2048 (100000 - 2048 * t.val))

/-- Lane `l` of a buffer whose moved part is the bias block at `t` is bias entry `2048 t + l`. -/
theorem bias_read (c : Dev nD) (t : Fin cfg0.N) (X : Vec F S2048 .f32)
    (hX : (cfg0.win 2).cut (grid0.coords t) X = iblk m c 2 t) (l : Fin 2048) (h : 2048 * t.val + l.val < 100000) :
    X (ix1 l) = V m c main_arg2 (ix1 (⟨2048 * t.val + l.val, h⟩ : Fin 100000)) := by
  have ht : t.val ≤ 48 := by have := l.isLt; omega
  obtain ⟨hi0, hx0⟩ := geom2 t ht
  have hx : ∀ a : Fin 1, ((ix1 l : S2048.Idx) a).val < (cfg0.win 2).xsize (grid0.coords t) a := by
    intro a
    match a with
    | ⟨0, _⟩ => show l.val < (cfg0.win 2).xsize (grid0.coords t) 0; rw [hx0]; have := l.isLt; omega
  -- l lies in the moved part, and the block's entry l is the bias vector's entry t · 2048 + 1 · l
  rw [apply_of_cut_eq (cfg0.win 2) (grid0.coords t) X _ hX (ix1 l) hx]
  unfold iblk
  rw [View.read_apply]
  show V m c main_arg2 (((cfg0.win 2).rect t).emb _) = _
  congr 1
  funext a
  apply Fin.ext
  rw [Rect.emb_apply]
  match a with
  | ⟨0, _⟩ => show (cfg0.win 2).index t 0 * 2048 + 1 * l.val = 2048 * t.val + l.val; rw [hi0]; omega

/-- The query window's block index is (0, 0) at every point. -/
theorem geom0 : ∀ t : Fin cfg0.N, (cfg0.win 0).index t 0 = 0 ∧ (cfg0.win 0).index t 1 = 0 :=
  (by decide +kernel : ∀ t : Fin grid0.N, win0_0.index t 0 = 0 ∧ win0_0.index t 1 = 0)

/-- The query window's block is the whole query array, at every point. -/
theorem query_read (c : Dev nD) (t : Fin cfg0.N) (r : Fin 2048) (k : Fin 128) :
    (iblk m c 0 t : Vec F S2048x128 .f32) (ix2 r k) = V m c main_arg0 (ix2 r k) := by
  obtain ⟨hi0, hi1⟩ := geom0 t
  -- the block's entry (r, k) is the array's entry (0 · 2048 + 1 · r, 0 · 128 + 1 · k)
  unfold iblk
  rw [View.read_apply]
  show V m c main_arg0 (((cfg0.win 0).rect t).emb _) = _
  congr 1
  funext a
  apply Fin.ext
  rw [Rect.emb_apply]
  match a with
  | ⟨0, _⟩ => show (cfg0.win 0).index t 0 * 2048 + 1 * r.val = r.val; rw [hi0]; omega
  | ⟨1, _⟩ => show (cfg0.win 0).index t 1 * 128 + 1 * k.val = k.val; rw [hi1]; omega

end Cert.KernelIdeal.Body

end
-- ==== Proof.StepVal.lean ====
/-
  One tile's update of the scratch columns is the pass's next step.

  At grid point t the body multiplies every query row against the table tile the window holds, adds the bias tile and
  masks the lanes past the table's end; on the lanes that are not masked the tile's rows are table rows
  2048 t + l, so row b's tile is exactly lane by lane the logits z b (2048 t + l), −∞ where the column does not exist.
  Hence the new shift and sum columns are the pass's pair after one more tile.
-/
import proofs.«414775_j1821066134199_3_alg».proof.Proof.StateIdeal
import proofs.«414775_j1821066134199_3_alg».proof.Proof.PieceVal
import proofs.«414775_j1821066134199_3_alg».proof.Proof.PayVal
import proofs.«414775_j1821066134199_3_alg».proof.Proof.WinBlocks

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.LogSumExp

variable (m : (ℓ : Loc nD τ sig) → Buf (Elt Ideal) ℓ)

/-! ### The grid point as a tile number, and the pass's step at it -/

/-- Point t = 25 h + j of the 2 × 25 grid has coordinates (h, j). -/
theorem coords_lin : ∀ t : Fin cfg0.N, 25 * (grid0.coords t 0).val + (grid0.coords t 1).val = t.val :=
  (by decide +kernel : ∀ t : Fin grid0.N, 25 * (grid0.coords t 0).val + (grid0.coords t 1).val = t.val)

/-- After point t the half's pass has taken the tile t itself: its shift is the step of the shift before, -/
theorem step_fst (z : ℕ → ℝ) (t : ℕ) :
    (st z (25 * (t / 25)) (t % 25 + 1)).1 = mStep (st z (25 * (t / 25)) (t % 25)).1 (tileVal z t) := by
  rw [st_succ, Nat.div_add_mod]

/-- and its sum the step of the pair before. -/
theorem step_snd (z : ℕ → ℝ) (t : ℕ) :
    (st z (25 * (t / 25)) (t % 25 + 1)).2
      = lStep (st z (25 * (t / 25)) (t % 25)).1 (st z (25 * (t / 25)) (t % 25)).2 (tileVal z t) := by
  rw [st_succ, Nat.div_add_mod]

/-- What the update at point t reads in the shift column is the pass's shift before tile t: −∞ at the first point of a half,
    else what the point before left, which had taken one tile fewer of the same half. -/
theorem mBefore_apply (c : Dev nD) (t : ℕ) (y : S2048x1.Idx) :
    mBefore m c t y = (st (zr m c (⟨(y 0).val, idx2_lt0 y⟩ : Fin 2048)) (25 * (t / 25)) (t % 25)).1 := by
  unfold mBefore
  split
  · rename_i h
    rw [h, st_zero]
    exact PayVal.pay3_apply y
  · rename_i h
    show (stAfter m c (t - 1) (⟨(y 0).val, idx2_lt0 y⟩ : Fin 2048)).1 = _
    unfold stAfter
    have e1 : (t - 1) / 25 = t / 25 := by omega
    have e2 : (t - 1) % 25 + 1 = t % 25 := by omega
    rw [e1, e2]

/-- Likewise the sum column: 0 at the first point of a half. -/
theorem lBefore_apply (c : Dev nD) (t : ℕ) (y : S2048x1.Idx) :
    lBefore m c t y = (st (zr m c (⟨(y 0).val, idx2_lt0 y⟩ : Fin 2048)) (25 * (t / 25)) (t % 25)).2 := by
  unfold lBefore
  split
  · rename_i h
    rw [h, st_zero]
    exact PayVal.pay4_apply y
  · rename_i h
    show (stAfter m c (t - 1) (⟨(y 0).val, idx2_lt0 y⟩ : Fin 2048)).2 = _
    unfold stAfter
    have e1 : (t - 1) / 25 = t / 25 := by omega
    have e2 : (t - 1) % 25 + 1 = t % 25 := by omega
    rw [e1, e2]

/-! ### The masked score tile's row is the logits' tile -/

/-- Row r of the tile, when the query operand's row r is row b of the query array: lane l holds the logit of column
    2048 t + l where the table has that column (the window's lane l is that table row, the bias lane that bias entry),
    and −∞ elsewhere. -/
theorem sTile_eq (c : Dev nD) (t : Fin cfg0.N)
    (hg : Cert.Spec.Good (V m c main_arg0) (V m c main_arg1) (V m c main_arg2) (V m c main_arg3))
    (x1 : Vec Ideal S2048x128 .f32) (x2 : Vec Ideal S2048 .f32)
    (h1 : (cfg0.win 1).cut (grid0.coords t) x1 = iblk m c 1 t) (h2 : (cfg0.win 2).cut (grid0.coords t) x2 = iblk m c 2 t)
    (Eh : Vec Ideal S1024x128 .f32) (r : Fin 1024) (b : Fin 2048)
    (hE : ∀ k : Fin 128, Eh (ix2 r k) = V m c main_arg0 (ix2 b k)) :
    PayVal.sTile (grid0.coords t) Eh x1 x2 r = tileVal (zr m c b) t.val := by
  funext l
  have hc := coords_lin t
  unfold PayVal.sTile tileVal
  by_cases h : 2048 * t.val + l.val < 100000
  · rw [if_pos (by omega), if_pos h]
    refine Eq.trans ?_ (Cert.Spec.zrow_coe (V m c main_arg0) (V m c main_arg1) (V m c main_arg2) (V m c main_arg3) hg b
      (⟨2048 * t.val + l.val, h⟩ : Fin 100000))
    rw [bias_read m c t x2 h2 l h]
    refine congrArg (· + _) (Finset.sum_congr rfl fun k _ => ?_)
    rw [hE k, tab_read m c t x1 h1 l k h]
  · rw [if_neg (by omega), if_neg h]

/-! ### One row of the update -/

/-- The shift update of a row r of either half whose query row is row b of the array and whose old shift is the column's
    entry b: the pass's shift after tile t. -/
theorem m_row (c : Dev nD) (t : Fin cfg0.N)
    (hg : Cert.Spec.Good (V m c main_arg0) (V m c main_arg1) (V m c main_arg2) (V m c main_arg3))
    (x1 : Vec Ideal S2048x128 .f32) (x2 : Vec Ideal S2048 .f32)
    (h1 : (cfg0.win 1).cut (grid0.coords t) x1 = iblk m c 1 t) (h2 : (cfg0.win 2).cut (grid0.coords t) x2 = iblk m c 2 t)
    (Eh : Vec Ideal S1024x128 .f32) (Ms : Vec Ideal S1024x1 .f32) (r : Fin 1024) (b : Fin 2048)
    (hE : ∀ k : Fin 128, Eh (ix2 r k) = V m c main_arg0 (ix2 b k))
    (hM : Ms (ix2 r (0 : Fin 1)) = mBefore m c t.val (ix2 b (0 : Fin 1))) :
    mStep (Ms (ix2 r (0 : Fin 1))) (PayVal.sTile (grid0.coords t) Eh x1 x2 r) = (stAfter m c t.val b).1 := by
  rw [sTile_eq m c t hg x1 x2 h1 h2 Eh r b hE, hM, mBefore_apply]
  unfold stAfter
  exact (step_fst _ _).symm

/-- The sum update of such a row: the pass's sum after tile t. -/
theorem l_row (c : Dev nD) (t : Fin cfg0.N)
    (hg : Cert.Spec.Good (V m c main_arg0) (V m c main_arg1) (V m c main_arg2) (V m c main_arg3))
    (x1 : Vec Ideal S2048x128 .f32) (x2 : Vec Ideal S2048 .f32)
    (h1 : (cfg0.win 1).cut (grid0.coords t) x1 = iblk m c 1 t) (h2 : (cfg0.win 2).cut (grid0.coords t) x2 = iblk m c 2 t)
    (Eh : Vec Ideal S1024x128 .f32) (Ms Ls : Vec Ideal S1024x1 .f32) (r : Fin 1024) (b : Fin 2048)
    (hE : ∀ k : Fin 128, Eh (ix2 r k) = V m c main_arg0 (ix2 b k))
    (hM : Ms (ix2 r (0 : Fin 1)) = mBefore m c t.val (ix2 b (0 : Fin 1)))
    (hL : Ls (ix2 r (0 : Fin 1)) = lBefore m c t.val (ix2 b (0 : Fin 1))) :
    lStep (Ms (ix2 r (0 : Fin 1))) (Ls (ix2 r (0 : Fin 1))) (PayVal.sTile (grid0.coords t) Eh x1 x2 r) = (stAfter m c t.val b).2 := by
  rw [sTile_eq m c t hg x1 x2 h1 h2 Eh r b hE, hM, hL, mBefore_apply, lBefore_apply]
  unfold stAfter
  exact (step_snd _ _).symm

/-- Row r + 1024 of the array, for a row r of the second half, is the column entry it came from. -/
theorem hi_row (y : S2048x1.Idx) (h : ¬ (y 0).val < 1024) :
    (⟨(y 0).val - 1024 + 1024, by have := idx2_lt0 y; omega⟩ : Fin 2048) = ⟨(y 0).val, idx2_lt0 y⟩ :=
  Fin.ext (by show (y 0).val - 1024 + 1024 = (y 0).val; omega)

/-- The new shift column at point `t`, from the query block and ANY table and bias buffers whose moved parts are the
    windows' blocks at `t`, is the pass's shift column after `t`. -/
theorem newM_step (c : Dev nD) (t : Fin cfg0.N)
    (hg : Cert.Spec.Good (V m c main_arg0) (V m c main_arg1) (V m c main_arg2) (V m c main_arg3))
    (x1 : Vec Ideal S2048x128 .f32) (x2 : Vec Ideal S2048 .f32)
    (h1 : (cfg0.win 1).cut (grid0.coords t) x1 = iblk m c 1 t) (h2 : (cfg0.win 2).cut (grid0.coords t) x2 = iblk m c 2 t) :
    newM (F := Ideal) (grid0.coords t) (iblk m c 0 t) x1 x2 (mBefore m c t.val) = mAfter m c t.val := by
  funext y
  show newM (F := Ideal) (grid0.coords t) (iblk m c 0 t) x1 x2 (mBefore m c t.val) y
    = (stAfter m c t.val (⟨(y 0).val, idx2_lt0 y⟩ : Fin 2048)).1
  unfold newM
  by_cases h : (y 0).val < 1024
  · rw [dif_pos h, PayVal.pay9_apply, PayVal.pay7_apply]
    exact m_row m c t hg x1 x2 h1 h2 _ _ _ _ (fun k => query_read m c t (⟨(y 0).val, idx2_lt0 y⟩ : Fin 2048) k) rfl
  · rw [dif_neg h, PayVal.pay13_apply]
    refine m_row m c t hg x1 x2 h1 h2 _ _ _ _ (fun k => ?_) ?_
    · show (iblk m c 0 t : Vec Ideal S2048x128 .f32) (ix2 (⟨(y 0).val - 1024 + 1024, by have := idx2_lt0 y; omega⟩ : Fin 2048) k) = _
      rw [hi_row y h]
      exact query_read m c t _ k
    · show mBefore m c t.val (ix2 (⟨(y 0).val - 1024 + 1024, by have := idx2_lt0 y; omega⟩ : Fin 2048) (0 : Fin 1)) = _
      rw [hi_row y h]

/-- The new sum column likewise. -/
theorem newL_step (c : Dev nD) (t : Fin cfg0.N)
    (hg : Cert.Spec.Good (V m c main_arg0) (V m c main_arg1) (V m c main_arg2) (V m c main_arg3))
    (x1 : Vec Ideal S2048x128 .f32) (x2 : Vec Ideal S2048 .f32)
    (h1 : (cfg0.win 1).cut (grid0.coords t) x1 = iblk m c 1 t) (h2 : (cfg0.win 2).cut (grid0.coords t) x2 = iblk m c 2 t) :
    newL (F := Ideal) (grid0.coords t) (iblk m c 0 t) x1 x2 (mBefore m c t.val) (lBefore m c t.val) = lAfter m c t.val := by
  funext y
  show newL (F := Ideal) (grid0.coords t) (iblk m c 0 t) x1 x2 (mBefore m c t.val) (lBefore m c t.val) y
    = (stAfter m c t.val (⟨(y 0).val, idx2_lt0 y⟩ : Fin 2048)).2
  unfold newL
  by_cases h : (y 0).val < 1024
  · rw [dif_pos h, PayVal.pay10_apply, PayVal.pay8_apply]
    exact l_row m c t hg x1 x2 h1 h2 _ _ _ _ _ (fun k => query_read m c t (⟨(y 0).val, idx2_lt0 y⟩ : Fin 2048) k) rfl rfl
  · rw [dif_neg h, PayVal.pay14_apply]
    refine l_row m c t hg x1 x2 h1 h2 _ _ _ _ _ (fun k => ?_) ?_ ?_
    · show (iblk m c 0 t : Vec Ideal S2048x128 .f32) (ix2 (⟨(y 0).val - 1024 + 1024, by have := idx2_lt0 y; omega⟩ : Fin 2048) k) = _
      rw [hi_row y h]
      exact query_read m c t _ k
    · show mBefore m c t.val (ix2 (⟨(y 0).val - 1024 + 1024, by have := idx2_lt0 y; omega⟩ : Fin 2048) (0 : Fin 1)) = _
      rw [hi_row y h]
    · show lBefore m c t.val (ix2 (⟨(y 0).val - 1024 + 1024, by have := idx2_lt0 y; omega⟩ : Fin 2048) (0 : Fin 1)) = _
      rw [hi_row y h]

end Cert.KernelIdeal.Body

end
-- ==== Proof.FrameIdeal.lean ====
/-
  The kernel's frame at the extended reals, with the scratch columns tracked.

  Proof data: the arrays as the region finds them; after the body at point t the query window's buffer at the query
  array, the table and bias windows' at their tiles (zero-filled past the table's end), the two output windows' at the
  two columns after t, reshaped.  The invariant before position n: at n ≡ 0 (mod 25) — before the first point of a
  half, after the last — the scratch columns hold anything; otherwise they hold the pass's columns after point n − 1.
  The body obligation: by the kind of point, its run applies; the stored pieces read back as the update of what the
  point before left, which is the pass's next step.
-/
import proofs.«414775_j1821066134199_3_alg».proof.Proof.StepVal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.LogSumExp

variable (m : (ℓ : Loc nD τ sig) → Buf (Elt Ideal) ℓ) (ρ : Dev nD → PrngReg)

/-- The class invariant with the two scratch columns as owned memrefs at some contents. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA; rw [scopedRest0_eq]; simp only [scM, scL, owns_whole]; try rfl

/-- The invariant before position `n`. -/
def PhiI (c : Dev nD) (n : ℕ) : sProp 𝕄 :=
  if n % 25 = 0 then Pipeline.ΦA spec0 c
  else iprop(iprop(owns (c : Thread nD τ) scM fullShare (mAfter m c (n - 1)) ∗ owns (c : Thread nD τ) scL fullShare (lAfter m c (n - 1))) ∗ (∃ r, prngReg c r))

theorem PhiI_edge (c : Dev nD) (n : ℕ) (h : n % 25 = 0) : PhiI m c n = Pipeline.ΦA spec0 c := if_pos h
theorem PhiI_mid (c : Dev nD) (n : ℕ) (h : ¬n % 25 = 0) :
    PhiI m c n = iprop(iprop(owns (c : Thread nD τ) scM fullShare (mAfter m c (n - 1)) ∗ owns (c : Thread nD τ) scL fullShare (lAfter m c (n - 1))) ∗ (∃ r, prngReg c r)) := if_neg h

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => tabBlk m c t
    | ⟨2, _⟩ => biasBlk m c t
    | ⟨3, _⟩ => k0_pay1 (F := Ideal) (mAfter m c t.val)
    | ⟨4, _⟩ => k0_pay2 (F := Ideal) (lAfter m c t.val)
  Φ t := PhiI m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = tabBlk m c t := by dsimp only [dats]
theorem after2 (c : Dev nD) (t : Fin cfg0.N) : (dats m 0 c).after 2 t = biasBlk m c t := by dsimp only [dats]
theorem after3 (c : Dev nD) (t : Fin cfg0.N) : (dats m 0 c).after 3 t = k0_pay1 (F := Ideal) (mAfter m c t.val) := by dsimp only [dats]
theorem after4 (c : Dev nD) (t : Fin cfg0.N) : (dats m 0 c).after 4 t = k0_pay2 (F := Ideal) (lAfter m c t.val) := by dsimp only [dats]
theorem Phi_castSucc (c : Dev nD) (t : Fin cfg0.N) : (dats m 0 c).Φ t.castSucc = PhiI m c t.val := by
  dsimp only [dats]; simp only [Fin.coe_castSucc]
theorem Phi_succ (c : Dev nD) (t : Fin cfg0.N) : (dats m 0 c).Φ t.succ = PhiI m c (t.val + 1) := by
  dsimp only [dats]; simp only [Fin.val_succ]

/-- The query window's buffer holds the query array at every point, fetched there or not. -/
theorem before0 (c : Dev nD) (t : Fin cfg0.N) (d) : (dats m 0 c).before 0 t d = iblk m c 0 t :=
  before0_0_of m (dats m 0 c) (A_eq m c 0) (after0 m c) t d
/-- The table and bias windows' buffers hold their tiles on the part a fetch moves. -/
theorem cut1 (c : Dev nD) (t : Fin cfg0.N) (d) : (cfg0.win 1).cut (grid0.coords t) ((dats m 0 c).before 1 t d) = iblk m c 1 t :=
  cut_before1 m (dats m 0 c) (A_eq m c 1) (after1 m c) t d
theorem cut2 (c : Dev nD) (t : Fin cfg0.N) (d) : (cfg0.win 2).cut (grid0.coords t) ((dats m 0 c).before 2 t d) = iblk m c 2 t :=
  cut_before2 m (dats m 0 c) (A_eq m c 2) (after2 m c) t d

/-- A buffer the body leaves as it found it is the window's tile on the moved part, itself elsewhere. -/
theorem fill_back1 (c : Dev nD) (t : Fin cfg0.N) (d) :
    (cfg0.win 1).fill (grid0.coords t) ((dats m 0 c).before 1 t d) ((cfg0.win 1).cut (grid0.coords t) ((dats m 0 c).after 1 t))
      = (dats m 0 c).before 1 t d := by
  rw [after1, tabBlk, Window.cut_fill, ← cut1 m c t d]; exact Window.fill_cut _ _ _
theorem fill_back2 (c : Dev nD) (t : Fin cfg0.N) (d) :
    (cfg0.win 2).fill (grid0.coords t) ((dats m 0 c).before 2 t d) ((cfg0.win 2).cut (grid0.coords t) ((dats m 0 c).after 2 t))
      = (dats m 0 c).before 2 t d := by
  rw [after2, biasBlk, Window.cut_fill, ← cut2 m c t d]; exact Window.fill_cut _ _ _

/-- What the loose obligation asks of each input window's buffer after the body. -/
theorem leaves0 (c : Dev nD) (t : Fin cfg0.N) :
    (dats m 0 c).leaves 0 t = owns (c : Thread nD τ) (ms0 t) fullShare (iblk m c 0 t) := by
  unfold Dat.leaves; rw [live0 t, after0]
theorem leaves1 (c : Dev nD) (t : Fin cfg0.N) :
    (dats m 0 c).leaves 1 t = iprop(∃ d, owns (c : Thread nD τ) (ms1 t) fullShare
      ((cfg0.win 1).fill (grid0.coords t) d ((cfg0.win 1).cut (grid0.coords t) ((dats m 0 c).after 1 t)))) := by
  unfold Dat.leaves; rw [live1 t]; rfl
theorem leaves2 (c : Dev nD) (t : Fin cfg0.N) :
    (dats m 0 c).leaves 2 t = iprop(∃ d, owns (c : Thread nD τ) (ms2 t) fullShare
      ((cfg0.win 2).fill (grid0.coords t) d ((cfg0.win 2).cut (grid0.coords t) ((dats m 0 c).after 2 t)))) := by
  unfold Dat.leaves; rw [live2 t]; rfl
theorem leaves3_last (c : Dev nD) (t : Fin cfg0.N) (h : condLast (grid0.coords t)) :
    (dats m 0 c).leaves 3 t = owns (c : Thread nD τ) (ms3 t) fullShare (k0_pay1 (F := Ideal) (mAfter m c t.val)) := by
  unfold Dat.leaves; rw [live3 t h, after3]
theorem leaves4_last (c : Dev nD) (t : Fin cfg0.N) (h : condLast (grid0.coords t)) :
    (dats m 0 c).leaves 4 t = owns (c : Thread nD τ) (ms4 t) fullShare (k0_pay2 (F := Ideal) (lAfter m c t.val)) := by
  unfold Dat.leaves; rw [live4 t h, after4]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t)

variable (hg : ∀ c : Dev nD, Cert.Spec.Good (V m c main_arg0) (V m c main_arg1) (V m c main_arg2) (V m c main_arg3))

set_option maxHeartbeats 4000000 in
include hg in
/-- The body at any point, by its kind. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [leaves0, leaves1, leaves2, Phi_castSucc, Phi_succ]
  have hN : t.val < 50 := lt_of_lt_of_eq t.isLt (show cfg0.N = 50 from N_0)
  by_cases h0 : t.val % 25 = 0
  · -- the first point of a half: the scratch columns arrive at anything and leave at the pass's first step
    have hc0 : condFirst (grid0.coords t) := (condFirst_iff t).mpr h0
    have hc1 : ¬condLast (grid0.coords t) := fun h => by have := (condLast_iff t).mp h; omega
    rw [Dat.leaves_idle _ 3 t (idle3 t hc1) (noFlush3 t hc1), Dat.leaves_idle _ 4 t (idle4 t hc1) (noFlush4 t hc1)]
    rw [PhiI_edge m c _ h0, PhiA_eq, PhiI_mid m c (t.val + 1) (by omega), Nat.add_sub_cancel]
    have eM : mBefore m c t.val = k0_pay3 (F := Ideal) := if_pos h0
    have eL : lBefore m c t.val = k0_pay4 (F := Ideal) := if_pos h0
    iintro ⟨⟨⟨HS0, HS1⟩, Hg⟩, Ho, ⟨%d0, H0⟩, ⟨%d1, H1⟩, ⟨%d2, H2⟩, ⟨%d3, H3⟩, ⟨%d4, H4⟩⟩
    rw [before0 m c t d0]
    iapply ((runFirst (F := Ideal) c (grid0.coords t) (ms0 t) (hs0 t) (ms1 t) (hs1 t) (ms2 t) (hs2 t) (ms3 t) (hs3 t) (ms4 t) (hs4 t) scM (Memref.isWhole_whole _) scL (Memref.isWhole_whole _) hc0 hc1 (iblk m c 0 t) ((dats m 0 c).before 1 t d1) ((dats m 0 c).before 2 t d2)).2.2 ((dats m 0 c).before 3 t d3) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hg]
    · isplitl [HS0 HS1]
      · isplitl [HS0]
        · unfold owns; iexists _; isplitr
          swap; · iexact HS0
          ipureintro
          exact (View.read_writes_of_cover _ _ _ _ _ (cover_first_M c _ _ _ _ _ _ _ _ _ _ _ _ _ _ _ hc0 hc1 _ _ _)).trans ((read_first_M c _ _ _ _ _ _ _ _ _ _ _ _ _ _ _ hc0 hc1 _ _ _).trans (eM ▸ newM_step m c t (hg c) _ _ (cut1 m c t d1) (cut2 m c t d2)))

        · unfold owns; iexists _; isplitr
          swap; · iexact HS1
          ipureintro
          exact (View.read_writes_of_cover _ _ _ _ _ (cover_first_L c _ _ _ _ _ _ _ _ _ _ _ _ _ _ _ hc0 hc1 _ _ _)).trans ((read_first_L c _ _ _ _ _ _ _ _ _ _ _ _ _ _ _ hc0 hc1 _ _ _).trans (eM ▸ eL ▸ newL_step m c t (hg c) _ _ (cut1 m c t d1) (cut2 m c t d2)))

      iexact Hg
    isplitl [Ho]; · iexact Ho
    -- the three inputs' buffers are handed back: the query block as it is, the two tiles on the part a fetch moves
    isplitl [H0]; · iexact H0
    isplitl [H1]
    · iexists ((dats m 0 c).before 1 t d1); rw [fill_back1 m c t d1]; iexact H1
    isplitl [H2]
    · iexists ((dats m 0 c).before 2 t d2); rw [fill_back2 m c t d2]; iexact H2
    isplitl [H3]; · iexists d3; iexact H3
    iexists d4; iexact H4
  · have hc0 : ¬condFirst (grid0.coords t) := fun h => h0 ((condFirst_iff t).mp h)
    have eM : mBefore m c t.val = mAfter m c (t.val - 1) := if_neg h0
    have eL : lBefore m c t.val = lAfter m c (t.val - 1) := if_neg h0
    rw [PhiI_mid m c _ h0]
    by_cases h1 : t.val % 25 = 24
    · -- the last point of a half: the columns are updated, copied to the outputs, and then forgotten
      have hc1 : condLast (grid0.coords t) := (condLast_iff t).mpr h1
      rw [leaves3_last m c t hc1, leaves4_last m c t hc1, PhiI_edge m c (t.val + 1) (by omega), PhiA_eq]
      iintro ⟨⟨⟨HS0, HS1⟩, Hg⟩, Ho, ⟨%d0, H0⟩, ⟨%d1, H1⟩, ⟨%d2, H2⟩, ⟨%d3, H3⟩, ⟨%d4, H4⟩⟩
      rw [before0 m c t d0]
      iapply ((runLast (F := Ideal) c (grid0.coords t) (ms0 t) (hs0 t) (ms1 t) (hs1 t) (ms2 t) (hs2 t) (ms3 t) (hs3 t) (ms4 t) (hs4 t) scM (Memref.isWhole_whole _) scL (Memref.isWhole_whole _) hc0 hc1 (iblk m c 0 t) ((dats m 0 c).before 1 t d1) ((dats m 0 c).before 2 t d2) (mAfter m c (t.val - 1)) (lAfter m c (t.val - 1))).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        iexact Hg
      isplitl [Ho]; · iexact Ho
      -- the three inputs' buffers are handed back: the query block as it is, the two tiles on the part a fetch moves
      isplitl [H0]; · iexact H0
      isplitl [H1]
      · iexists ((dats m 0 c).before 1 t d1); rw [fill_back1 m c t d1]; iexact H1
      isplitl [H2]
      · iexists ((dats m 0 c).before 2 t d2); rw [fill_back2 m c t d2]; iexact H2
      isplitl [H3]
      · unfold owns; iexists _; isplitr
        swap; · iexact H3
        ipureintro
        exact (View.read_writes_of_cover _ _ _ _ _ (cover_last_O3 c _ _ _ _ _ _ _ _ _ _ _ _ _ _ _ hc0 hc1 _ _ _ _ _)).trans ((read_last_O3 c _ _ _ _ _ _ _ _ _ _ _ _ _ _ _ hc0 hc1 _ _ _ _ _).trans (congrArg (k0_pay1 (F := Ideal)) (eM ▸ newM_step m c t (hg c) _ _ (cut1 m c t d1) (cut2 m c t d2))))

      · unfold owns; iexists _; isplitr
        swap; · iexact H4
        ipureintro
        exact (View.read_writes_of_cover _ _ _ _ _ (cover_last_O4 c _ _ _ _ _ _ _ _ _ _ _ _ _ _ _ hc0 hc1 _ _ _ _ _)).trans ((read_last_O4 c _ _ _ _ _ _ _ _ _ _ _ _ _ _ _ hc0 hc1 _ _ _ _ _).trans (congrArg (k0_pay2 (F := Ideal)) (eM ▸ eL ▸ newL_step m c t (hg c) _ _ (cut1 m c t d1) (cut2 m c t d2))))

    · -- a middle point: the columns go from the pass's pair after t − 1 to its pair after t
      have hc1 : ¬condLast (grid0.coords t) := fun h => h1 ((condLast_iff t).mp h)
      rw [Dat.leaves_idle _ 3 t (idle3 t hc1) (noFlush3 t hc1), Dat.leaves_idle _ 4 t (idle4 t hc1) (noFlush4 t hc1)]
      rw [PhiI_mid m c (t.val + 1) (by omega), Nat.add_sub_cancel]
      iintro ⟨⟨⟨HS0, HS1⟩, Hg⟩, Ho, ⟨%d0, H0⟩, ⟨%d1, H1⟩, ⟨%d2, H2⟩, ⟨%d3, H3⟩, ⟨%d4, H4⟩⟩
      rw [before0 m c t d0]
      iapply ((runMid (F := Ideal) c (grid0.coords t) (ms0 t) (hs0 t) (ms1 t) (hs1 t) (ms2 t) (hs2 t) (ms3 t) (hs3 t) (ms4 t) (hs4 t) scM (Memref.isWhole_whole _) scL (Memref.isWhole_whole _) hc0 hc1 (iblk m c 0 t) ((dats m 0 c).before 1 t d1) ((dats m 0 c).before 2 t d2) (mAfter m c (t.val - 1)) (lAfter m c (t.val - 1))).2.2 ((dats m 0 c).before 3 t d3) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_of_cover _ _ _ _ _ (cover_mid_M c _ _ _ _ _ _ _ _ _ _ _ _ _ _ _ hc0 hc1 _ _ _ _ _)).trans ((read_mid_M c _ _ _ _ _ _ _ _ _ _ _ _ _ _ _ hc0 hc1 _ _ _ _ _).trans (eM ▸ newM_step m c t (hg c) _ _ (cut1 m c t d1) (cut2 m c t d2)))

          · unfold owns; iexists _; isplitr
            swap; · iexact HS1
            ipureintro
            exact (View.read_writes_of_cover _ _ _ _ _ (cover_mid_L c _ _ _ _ _ _ _ _ _ _ _ _ _ _ _ hc0 hc1 _ _ _ _ _)).trans ((read_mid_L c _ _ _ _ _ _ _ _ _ _ _ _ _ _ _ hc0 hc1 _ _ _ _ _).trans (eM ▸ eL ▸ newL_step m c t (hg c) _ _ (cut1 m c t d1) (cut2 m c t d2)))

        iexact Hg
      isplitl [Ho]; · iexact Ho
      -- the three inputs' buffers are handed back: the query block as it is, the two tiles on the part a fetch moves
      isplitl [H0]; · iexact H0
      isplitl [H1]
      · iexists ((dats m 0 c).before 1 t d1); rw [fill_back1 m c t d1]; iexact H1
      isplitl [H2]
      · iexists ((dats m 0 c).before 2 t d2); rw [fill_back2 m c t d2]; iexact H2
      isplitl [H3]; · iexists d3; iexact H3
      iexists d4; iexact H4

end Cert.KernelIdeal.Body

end
-- ==== Proof.RunIdeal.lean ====
/-
  The idealized kernel's run: every weakly fair execution terminates with each pipeline array at what the proof data
  computes and every other buffer as the host operations after the region leave it.
-/
import proofs.«414775_j1821066134199_3_alg».proof.Proof.FrameIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.LogSumExp

variable (m : (ℓ : Loc nD τ sig) → Buf (Elt Ideal) ℓ) (ρ : Dev nD → PrngReg)
variable (hg : ∀ c : Dev nD, Cert.Spec.Good (V m c main_arg0) (V m c main_arg1) (V m c main_arg2) (V m c main_arg3))

include hg in
/-- The library's body obligation, at every point. -/
theorem body_obligation (c : Dev nD) : BodyObligationLoose (dats m 0 c) (defs₀ (F := Ideal)) Variants.none () Set.univ := fun t => by
  rw [bigSep_W0, bigSep_W0]
  exact sound_body m hg c t

/-- What the launch hands the region is the invariant before the first point. -/
theorem hin (c : Dev nD) : Pipeline.ΦA spec0 c ⊢ (dats m 0 c).Φ 0 := by
  rw [show (dats m 0 c).Φ 0 = PhiI m c 0 from rfl, PhiI_edge m c 0 rfl]

/-- After the last point the invariant is the class's again. -/
theorem hout (c : Dev nD) : (dats m 0 c).Φ (Fin.last cfg0.N) ⊢ Pipeline.ΦA spec0 c := by
  rw [show (dats m 0 c).Φ (Fin.last cfg0.N) = PhiI m c 50 from rfl, PhiI_edge m c 50 rfl]

set_option backward.isDefEq.respectTransparency.types false in
include hg in
/-- The run. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hg c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Body

end
-- ==== Proof.HostTail.lean ====
/-
  The host operations after the kernel's region, read at the extended reals.

  The region leaves two arrays of shape [2, 2048, 1]: for each half h and row b the pair (m, l) of the pass over that
  half's tiles.  The host merges the two halves (the larger shift, both sums rescaled to it), takes the shift plus the
  logarithm of the merged sum — the row's log-sum-exp —, subtracts the label's logit (a gathered table row dotted with
  the query row, plus the gathered bias), and averages over the rows.

  Read row by row: the merge at row b is  max m₀ m₁ + log (exp (m₀ − max m₀ m₁) · l₀ + exp (m₁ − max m₀ m₁) · l₁),  which
  the two halves' invariants make the row's log-sum-exp; a label below 100000 is its own wrapped index and lies inside
  the table, so the two gathers read the label's table row and bias entry and the logit is  Σ_k x0[b, k] · x1[label, k]
  + x2[label];  their difference is the row's loss.  The last two operations, the sum over the rows and the division
  by 2048, are applied to equal vectors.
-/
import proofs.«414775_j1821066134199_3_alg».proof.KernelIdeal
import proofs.«414775_j1821066134199_3_alg».proof.Proof.Gen.KernelIdeal
import proofs.«414775_j1821066134199_3_alg».proof.Proof.Gen.KernelIdeal.Launch
import proofs.«414775_j1821066134199_3_alg».proof.Proof.Spec
import proofs.«414775_j1821066134199_3_alg».proof.Proof.LibSoftmaxReal
import proofs.«414775_j1821066134199_3_alg».proof.Proof.LibExtrema
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostTail

open Cert.KernelIdeal Cert.KernelIdeal.Gen Idealize.ShloMosaic Idealize.ShloMosaic.TcCoe Idealize.SL.Sem Idealize.ShloMosaic.StableHlo
open Idealize.ShloMosaic.ValueIdx

/-! ## A region result read at a half and a row -/

/-- Half 0 of a region result, viewed [2048, 1]. -/
def half0 (O : FVec Ideal S2x2048x1 .f32) : FVec Ideal S2048x1 .f32 :=
  fun i => shapeCast S2048x1 (extractStridedSlice S1x2048x1 ![0, 0, 0] O slices_S2x2048x1_S1x2048x1_0_0_0)
    shapeCasts_S1x2048x1_S2048x1 i

/-- Half 1 of a region result, viewed [2048, 1]. -/
def half1 (O : FVec Ideal S2x2048x1 .f32) : FVec Ideal S2048x1 .f32 :=
  fun i => shapeCast S2048x1 (extractStridedSlice S1x2048x1 ![1, 0, 0] O slices_S2x2048x1_S1x2048x1_1_0_0)
    shapeCasts_S1x2048x1_S2048x1 i

/-- Half 0 read at row `b`: the array at (0, b, 0). -/
theorem half0_at (O : FVec Ideal S2x2048x1 .f32) (b : Fin 2048) :
    half0 O (ix2 b (0 : Fin 1)) = O (ix3 (0 : Fin 2) b (0 : Fin 1)) := by
  unfold half0
  refine (shapeCast_apply _ _ (ix2 b (0 : Fin 1)) (ix3 (0 : Fin 1) b (0 : Fin 1)) ?_).trans
    (extractStridedSlice_apply _ _ _ (ix3 (0 : Fin 1) b (0 : Fin 1)) (ix3 (0 : Fin 2) b (0 : Fin 1)) ?_)
  · rw [Shape.rowMajor_val_three, Shape.rowMajor_val_two]
    show ((0 : ℕ) * 2048 + b.val) * 1 + 0 = b.val * 1 + 0
    omega
  · intro a
    match a with
    | ⟨0, _⟩ => rfl
    | ⟨1, _⟩ => show b.val = 0 + b.val; omega
    | ⟨2, _⟩ => rfl

/-- Half 1 read at row `b`: the array at (1, b, 0). -/
theorem half1_at (O : FVec Ideal S2x2048x1 .f32) (b : Fin 2048) :
    half1 O (ix2 b (0 : Fin 1)) = O (ix3 (1 : Fin 2) b (0 : Fin 1)) := by
  unfold half1
  refine (shapeCast_apply _ _ (ix2 b (0 : Fin 1)) (ix3 (0 : Fin 1) b (0 : Fin 1)) ?_).trans
    (extractStridedSlice_apply _ _ _ (ix3 (0 : Fin 1) b (0 : Fin 1)) (ix3 (1 : Fin 2) b (0 : Fin 1)) ?_)
  · rw [Shape.rowMajor_val_three, Shape.rowMajor_val_two]
    show ((0 : ℕ) * 2048 + b.val) * 1 + 0 = b.val * 1 + 0
    omega
  · intro a
    match a with
    | ⟨0, _⟩ => rfl
    | ⟨1, _⟩ => show b.val = 0 + b.val; omega
    | ⟨2, _⟩ => rfl

/-- A [2048, 1] column viewed [2048], read at row `b`. -/
theorem col_at (X : FVec Ideal S2048x1 .f32) (b : Fin 2048) :
    shapeCast S2048 X shapeCasts_S2048x1_S2048 (ix1 b) = X (ix2 b (0 : Fin 1)) := by
  refine shapeCast_apply _ _ (ix1 b) (ix2 b (0 : Fin 1)) ?_
  rw [Shape.rowMajor_val_two, Shape.rowMajor_val_one]
  show b.val * 1 + 0 = b.val
  omega

/-! ## The merged log-sum-exp at a row -/

/-- The host's merged log-sum-exp vector as a function of the region's two result arrays (the shifts `O1`, the sums
    `O2`): the larger of the two halves' shifts, both sums rescaled to it and added, the shift plus the logarithm of
    that sum, viewed [2048]. -/
def lseVec (O1 O2 : FVec Ideal S2x2048x1 .f32) : FVec Ideal S2048 .f32 :=
  shapeCast S2048
    (addf (maximumf (half0 O1) (half1 O1))
      (Host.log
        (addf
          (mulf (Host.exp (subf (half0 O1) (maximumf (half0 O1) (half1 O1)))) (half0 O2))
          (mulf (Host.exp (subf (half1 O1) (maximumf (half0 O1) (half1 O1)))) (half1 O2)))))
    shapeCasts_S2048x1_S2048

/-- The merge read at row `b`: with (m₀, l₀) and (m₁, l₁) the halves' pairs at that row,
    max m₀ m₁ + log (exp (m₀ − max m₀ m₁) · l₀ + exp (m₁ − max m₀ m₁) · l₁). -/
theorem lseVec_at (O1 O2 : FVec Ideal S2x2048x1 .f32) (b : Fin 2048) :
    lseVec O1 O2 (ix1 b)
      = max (O1 (ix3 (0 : Fin 2) b (0 : Fin 1))) (O1 (ix3 (1 : Fin 2) b (0 : Fin 1)))
          + Ideal.log
              (Ideal.exp (O1 (ix3 (0 : Fin 2) b (0 : Fin 1)) - max (O1 (ix3 (0 : Fin 2) b (0 : Fin 1))) (O1 (ix3 (1 : Fin 2) b (0 : Fin 1))))
                  * O2 (ix3 (0 : Fin 2) b (0 : Fin 1))
                + Ideal.exp (O1 (ix3 (1 : Fin 2) b (0 : Fin 1)) - max (O1 (ix3 (0 : Fin 2) b (0 : Fin 1))) (O1 (ix3 (1 : Fin 2) b (0 : Fin 1))))
                  * O2 (ix3 (1 : Fin 2) b (0 : Fin 1))) := by
  unfold lseVec
  rw [col_at]
  simp only [addf_apply, maximumf_apply, mulf_apply, subf_apply, Host.log, Host.exp, half0_at, half1_at,
    Ideal.hostUnary_log_def, Ideal.hostUnary_exp_def]

/-! ## The label index -/

/-- The start indices of the two gathers as a function of the labels: the numpy-style wrap of a negative label
    (label + 100000 where the label is negative as a signed word), as a [2048, 1] column. -/
def labelIdx (Y : IVec S2048 32) : IVec S2048x1 32 :=
  broadcastInDim S2048x1 ![0] bcast_S2048_S2048x1_0
    (select (cmpi CmpIPredicate.slt Y (broadcastInDim S2048 ![] bcast_S_S2048 (constantI S_ 32 0#32)))
      (addi Y (broadcastInDim S2048 ![] bcast_S_S2048 (constantI S_ 32 100000#32))) Y)

/-- A label below 100000 is not negative as a signed word, so the wrap leaves it. -/
theorem wrap_at (Y : IVec S2048 32) (b : Fin 2048) (h : (Y (ix1 b)).toNat < 100000) :
    select (cmpi CmpIPredicate.slt Y (broadcastInDim S2048 ![] bcast_S_S2048 (constantI S_ 32 0#32)))
        (addi Y (broadcastInDim S2048 ![] bcast_S_S2048 (constantI S_ 32 100000#32))) Y (ix1 b)
      = Y (ix1 b) := by
  rw [select_apply]
  have hc : cmpi CmpIPredicate.slt Y (broadcastInDim S2048 ![] bcast_S_S2048 (constantI S_ 32 0#32)) (ix1 b) = 0#1 := by
    show IntOp.cmpi CmpIPredicate.slt (Y (ix1 b)) (broadcastInDim S2048 ![] bcast_S_S2048 (constantI S_ 32 0#32) (ix1 b)) = 0#1
    rw [broadcastInDim_apply _ _ _ (ix1 b) ix0 (fun a => a.elim0)]
    show BitVec.ofBool ((Y (ix1 b)).slt 0#32) = 0#1
    have : (Y (ix1 b)).slt 0#32 = false := by
      rw [BitVec.slt_eq_decide, BitVec.toInt_eq_toNat_cond]
      simp only [decide_eq_false_iff_not, not_lt]
      have : 2 * (Y (ix1 b)).toNat < 2 ^ 32 := by omega
      rw [if_pos this]
      simp
    rw [this]; rfl
  rw [hc, select_zero]

/-- Row `b`'s start index is row `b`'s label. -/
theorem labelIdx_at (Y : IVec S2048 32) (b : Fin 2048) (h : (Y (ix1 b)).toNat < 100000) :
    labelIdx Y (ix2 b (0 : Fin 1)) = Y (ix1 b) := by
  unfold labelIdx
  refine (broadcastInDim_apply _ _ _ (ix2 b (0 : Fin 1)) (ix1 b) ?_).trans (wrap_at Y b h)
  intro a
  match a with
  | ⟨0, _⟩ => rfl

/-- A signed read of a word below 100000, clamped into the table, is the word's value. -/
theorem clamp_eq (y : BitVec 32) (h : y.toNat < 100000) : min y.toInt.toNat (100000 - 1) = y.toNat := by
  rw [BitVec.toInt_eq_toNat_cond, if_pos (by omega : 2 * y.toNat < 2 ^ 32), Int.toNat_natCast]
  omega

/-! ## The two gathers at an index -/

/-- The bias gather read at row `b`: the operand at the row's start index, read signed and clamped into the table. -/
theorem gather1_at (X : FVec Ideal S100000 .f32) (I : IVec S2048x1 32) (b : Fin 2048) :
    Host.gather gather_S100000_S2048x1_S2048_n_0_n_n_0_1_1 X I (ix1 b)
      = X (ix1 ⟨min (I (ix2 b (0 : Fin 1))).toInt.toNat (100000 - 1), by omega⟩) := by
  unfold Host.gather
  congr 1
  funext a
  obtain rfl : a = 0 := Subsingleton.elim _ _
  refine Fin.ext ?_
  show gather_S100000_S2048x1_S2048_n_0_n_n_0_1_1.start (ix1 b) I 0
      + gather_S100000_S2048x1_S2048_n_0_n_n_0_1_1.batchCoord (ix1 b) 0
      + gather_S100000_S2048x1_S2048_n_0_n_n_0_1_1.offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S2048x1_S2048_n_0_n_n_0_1_1.startIndexMap from List.mem_singleton.mpr rfl)]
  have hsi : gather_S100000_S2048x1_S2048_n_0_n_n_0_1_1.siIdx (ix1 b)
      ⟨List.idxOf (0 : Fin 1) gather_S100000_S2048x1_S2048_n_0_n_n_0_1_1.startIndexMap,
        List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- The table gather read at row `b`, lane `k`: lane `k` of the table row at the row's start index, read signed and
    clamped into the table. -/
theorem gather2_at (X : FVec Ideal S100000x128 .f32) (I : IVec S2048x1 32) (b : Fin 2048) (k : Fin 128) :
    Host.gather gather_S100000x128_S2048x1_S2048x128_1_0_n_n_0_1_1128 X I (ix2 b k)
      = X (ix2 ⟨min (I (ix2 b (0 : Fin 1))).toInt.toNat (100000 - 1), by omega⟩ k) := by
  unfold Host.gather
  congr 1
  funext a
  refine Fin.ext ?_
  match a with
  | ⟨0, _⟩ =>
    show gather_S100000x128_S2048x1_S2048x128_1_0_n_n_0_1_1128.start (ix2 b k) I 0
        + gather_S100000x128_S2048x1_S2048x128_1_0_n_n_0_1_1128.batchCoord (ix2 b k) 0
        + gather_S100000x128_S2048x1_S2048x128_1_0_n_n_0_1_1128.offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S2048x1_S2048x128_1_0_n_n_0_1_1128.startIndexMap from List.mem_singleton.mpr rfl)]
    have hsi : gather_S100000x128_S2048x1_S2048x128_1_0_n_n_0_1_1128.siIdx (ix2 b k)
        ⟨List.idxOf (0 : Fin 2) gather_S100000x128_S2048x1_S2048x128_1_0_n_n_0_1_1128.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S100000x128_S2048x1_S2048x128_1_0_n_n_0_1_1128.start (ix2 b k) I 1
        + gather_S100000x128_S2048x1_S2048x128_1_0_n_n_0_1_1128.batchCoord (ix2 b k) 1
        + gather_S100000x128_S2048x1_S2048x128_1_0_n_n_0_1_1128.offCoord (ix2 b k) 1 = k.val
    rw [GatherDims.batchCoord_eq_zero _ _ _ List.not_mem_nil]
    have hs : gather_S100000x128_S2048x1_S2048x128_1_0_n_n_0_1_1128.start (ix2 b k) I 1 = 0 := by
      unfold GatherDims.start
      rw [dif_neg (show (1 : Fin 2) ∉ gather_S100000x128_S2048x1_S2048x128_1_0_n_n_0_1_1128.startIndexMap by decide)]
    rw [hs]
    have ho : gather_S100000x128_S2048x1_S2048x128_1_0_n_n_0_1_1128.offCoord (ix2 b k) 1 = k.val := by
      unfold GatherDims.offCoord
      rw [dif_pos (show (1 : Fin 2) ∈ gather_S100000x128_S2048x1_S2048x128_1_0_n_n_0_1_1128.sKept by decide)]
      rfl
    rw [ho]
    omega

/-! ## The row sum -/

/-- The sum over the 128 lanes of a [2048, 128] array, from the zero constant, read at row `b`. -/
theorem rowsum_at (X : FVec Ideal S2048x128 .f32) (b : Fin 2048) :
    Host.reduceAdd X (constant S_ .f32 0x00000000#32) reducesTo_S2048x128_S2048_d1 h_S_ (ix1 b)
      = 0 + ∑ k : Fin 128, X (ix2 b k) := by
  have hr : S2048x128.Reduces [1] S2048 := by decide
  show Ideal.hostReduceAdd reducesTo_S2048x128_S2048_d1 X (Ideal.ofBits .f32 0x00000000#32) (ix1 b) = _
  rw [Ideal.hostReduceAdd_single reducesTo_S2048x128_S2048_d1 hr, Ideal.ofBits_zero_f32]
  refine congrArg (fun s => (0 : EReal) + s) (Finset.sum_congr rfl fun k _ => congrArg X ?_)
  funext a
  match a with
  | ⟨0, _⟩ => rfl
  | ⟨1, _⟩ => rfl

/-! ## The label's logit at a row -/

/-- The host's label-logit vector as a function of the four arguments: the query row dotted with the gathered table
    row, plus the gathered bias. -/
def logitVec (X0 : FVec Ideal S2048x128 .f32) (X1 : FVec Ideal S100000x128 .f32) (X2 : FVec Ideal S100000 .f32)
    (Y : IVec S2048 32) : FVec Ideal S2048 .f32 :=
  addf
    (Host.reduceAdd
      (mulf X0 (Host.gather gather_S100000x128_S2048x1_S2048x128_1_0_n_n_0_1_1128 X1 (labelIdx Y)))
      (constant S_ .f32 0x00000000#32) reducesTo_S2048x128_S2048_d1 h_S_)
    (Host.gather gather_S100000_S2048x1_S2048_n_0_n_n_0_1_1 X2 (labelIdx Y))

/-- At row `b`, whose label `n` is below 100000: Σ_k x0[b, k] · x1[n, k] + x2[n]. -/
theorem logitVec_at (X0 : FVec Ideal S2048x128 .f32) (X1 : FVec Ideal S100000x128 .f32) (X2 : FVec Ideal S100000 .f32)
    (Y : IVec S2048 32) (b : Fin 2048) (h : (Y (ix1 b)).toNat < 100000) :
    logitVec X0 X1 X2 Y (ix1 b)
      = (∑ k : Fin 128, X0 (ix2 b k) * X1 (ix2 (⟨(Y (ix1 b)).toNat, h⟩ : Fin 100000) k))
          + X2 (ix1 (⟨(Y (ix1 b)).toNat, h⟩ : Fin 100000)) := by
  have hrow : ∀ hlt, (⟨min (labelIdx Y (ix2 b (0 : Fin 1))).toInt.toNat (100000 - 1), hlt⟩ : Fin 100000) = ⟨(Y (ix1 b)).toNat, h⟩ := by
    intro hlt
    refine Fin.ext ?_
    show min (labelIdx Y (ix2 b (0 : Fin 1))).toInt.toNat (100000 - 1) = (Y (ix1 b)).toNat
    rw [labelIdx_at Y b h]
    exact clamp_eq _ h
  unfold logitVec
  rw [addf_apply, rowsum_at, gather1_at, hrow, zero_add]
  refine congrArg (fun s => s + X2 (ix1 (⟨(Y (ix1 b)).toNat, h⟩ : Fin 100000))) (Finset.sum_congr rfl fun k _ => ?_)
  rw [mulf_apply, gather2_at, hrow]

/-! ## The host operations' results as those functions -/

/-- From any buffer contents `W` in which the four arguments hold reals and in-range labels and the region's two
    results hold, for every row, the two halves' pairs: after the host operations the result buffer holds the mean
    of the loss vector. -/
theorem tail_value (W : Valuation τ sig (Elt Ideal))
    (hg : Cert.Spec.Good (W (Proc.devRef .tc main_arg0)) (W (Proc.devRef .tc main_arg1)) (W (Proc.devRef .tc main_arg2)) (W (Proc.devRef .tc main_arg3)))
    (hinv : ∀ b : Fin 2048,
      Cert.LogSumExp.Inv (Cert.Spec.zrow (W (Proc.devRef .tc main_arg0)) (W (Proc.devRef .tc main_arg1)) (W (Proc.devRef .tc main_arg2)) b) 0 25
          (W (Proc.devRef .tc main_v0_0) (ix3 (0 : Fin 2) b (0 : Fin 1))) (W (Proc.devRef .tc main_v0_1) (ix3 (0 : Fin 2) b (0 : Fin 1)))
      ∧ Cert.LogSumExp.Inv (Cert.Spec.zrow (W (Proc.devRef .tc main_arg0)) (W (Proc.devRef .tc main_arg1)) (W (Proc.devRef .tc main_arg2)) b) 25 50
          (W (Proc.devRef .tc main_v0_0) (ix3 (1 : Fin 2) b (0 : Fin 1))) (W (Proc.devRef .tc main_v0_1) (ix3 (1 : Fin 2) b (0 : Fin 1)))) :
    StableHlo.after (hostOps1 (F := Ideal)) W (Proc.devRef .tc main_v39)
      = Host.divf (Host.reduceAdd (Cert.Spec.nllVec (W (Proc.devRef .tc main_arg0)) (W (Proc.devRef .tc main_arg1)) (W (Proc.devRef .tc main_arg2)) (W (Proc.devRef .tc main_arg3)))
          (constant S_ .f32 0x00000000#32) Facts₀.reducesTo_S2048_S_d0 Facts₀.h_S_) (constant S_ .f32 0x45000000#32) := by
  have key : subf (lseVec (W (Proc.devRef .tc main_v0_0)) (W (Proc.devRef .tc main_v0_1)))
        (logitVec (W (Proc.devRef .tc main_arg0)) (W (Proc.devRef .tc main_arg1)) (W (Proc.devRef .tc main_arg2)) (W (Proc.devRef .tc main_arg3)))
      = Cert.Spec.nllVec (W (Proc.devRef .tc main_arg0)) (W (Proc.devRef .tc main_arg1)) (W (Proc.devRef .tc main_arg2)) (W (Proc.devRef .tc main_arg3)) := by
    funext i
    obtain ⟨b, rfl⟩ : ∃ b : Fin 2048, i = ix1 b := ⟨i 0, eq_ix1 i⟩
    have hl : ((W (Proc.devRef .tc main_arg3)) (ix1 b)).toNat < 100000 := hg.label (ix1 b)
    rw [subf_apply, lseVec_at, logitVec_at _ _ _ _ b hl,
      Cert.LogSumExp.merge _ _ _ _ _ (hinv b).1 (hinv b).2,
      Cert.Spec.zrow_coe _ _ _ _ hg b ⟨_, hl⟩, Cert.LogSumExp.sub_coe]
    rfl
  show StableHlo.after hostOps1 _ (Proc.devRef .tc main_v39) = _
  after_results_simp
  exact congrArg (fun v => Host.divf (Host.reduceAdd v (constant S_ .f32 0x00000000#32) Facts₀.reducesTo_S2048_S_d0 Facts₀.h_S_)
    (constant S_ .f32 0x45000000#32)) key

end Cert.KernelIdeal.HostTail

end
-- ==== Proof.KernelValue.lean ====
/-
  The idealized kernel's result, as a function of the argument arrays.

  The two output arrays have shape [2, 2048, 1]; block h of each is written back once, at the last point of half h, with
  the column the scratch holds then.  So after the run entry (h, b, 0) of the first array is row b's shift after
  point 25 h + 24 and of the second its sum: the pairs of the two halves' passes, which satisfy the halves' invariants.
  The host operations after the region turn them into the mean of the loss vector.
-/
import proofs.«414775_j1821066134199_3_alg».proof.Proof.RunIdeal
import proofs.«414775_j1821066134199_3_alg».proof.Proof.HostTail

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.LogSumExp

variable (m : (ℓ : Loc nD τ sig) → Buf (Elt Ideal) ℓ) (ρ : Dev nD → PrngReg)
variable (hg : ∀ c : Dev nD, Cert.Spec.Good (V m c main_arg0) (V m c main_arg1) (V m c main_arg2) (V m c main_arg3))

/-! ## The output windows' blocks

Both output windows have block [1, 2048, 1] over an array [2, 2048, 1]; at grid point t the block index is (t / 25, 0, 0),
and the block is written back at the points t ≡ 24 (mod 25): t = 25 h + 24 writes block h. -/

/-- The first output window's block index at each point. -/
theorem idx3 : ∀ t : Fin cfg0.N, win0_3.index t (0 : Fin 3) = t.val / 25 ∧ win0_3.index t (1 : Fin 3) = 0 ∧ win0_3.index t (2 : Fin 3) = 0 :=
  (by decide +kernel : ∀ t : Fin grid0.N, _)

/-- The second output window's block index at each point. -/
theorem idx4 : ∀ t : Fin cfg0.N, win0_4.index t (0 : Fin 3) = t.val / 25 ∧ win0_4.index t (1 : Fin 3) = 0 ∧ win0_4.index t (2 : Fin 3) = 0 :=
  (by decide +kernel : ∀ t : Fin grid0.N, _)

/-- What the shift array ends holding: entry (h, b, ·) is row b's shift after the last point of half h. -/
def G3 (c : Dev nD) : S2x2048x1.Idx → EReal :=
  fun i => (stAfter m c (25 * (i 0).val + 24) (⟨(i 1).val, (i 1).isLt⟩ : Fin 2048)).1

/-- What the sum array ends holding. -/
def G4 (c : Dev nD) : S2x2048x1.Idx → EReal :=
  fun i => (stAfter m c (25 * (i 0).val + 24) (⟨(i 1).val, (i 1).isLt⟩ : Fin 2048)).2

theorem G3_eq (c : Dev nD) (i : S2x2048x1.Idx) (n : ℕ) (b : Fin 2048) (h1 : 25 * (i 0).val + 24 = n) (h2 : (i 1).val = b.val) :
    G3 m c i = (stAfter m c n b).1 := by
  subst h1
  obtain rfl : (⟨(i 1).val, (i 1).isLt⟩ : Fin 2048) = b := Fin.ext h2
  rfl

theorem G4_eq (c : Dev nD) (i : S2x2048x1.Idx) (n : ℕ) (b : Fin 2048) (h1 : 25 * (i 0).val + 24 = n) (h2 : (i 1).val = b.val) :
    G4 m c i = (stAfter m c n b).2 := by
  subst h1
  obtain rfl : (⟨(i 1).val, (i 1).isLt⟩ : Fin 2048) = b := Fin.ext h2
  rfl

/-- What a flushing point writes back to the shift array is its block of `G3`. -/
theorem flushed3_eq (c : Dev nD) (t : Fin cfg0.N) (hf : (cfg0.win 3).flush t = true) :
    (dats m 0 c).flushed 3 t = ((cfg0.win 3).blk t).view.read (Elt Ideal) (G3 m c) := by
  have ht : t.val % 25 = 24 := (flush0_3 t).mp hf
  obtain ⟨e0, e1, e2⟩ := idx3 t
  show (cfg0.win 3).cut (grid0.coords t) ((dats m 0 c).after 3 t) = _
  rw [after3]
  funext j
  obtain ⟨h, r, z, rfl⟩ : ∃ (h : Fin 1) (r : Fin 2048) (z : Fin 1), j = ix3 h r z := ⟨j 0, j 1, j 2, eq_ix3 j⟩
  show k0_pay1 (F := Ideal) (mAfter m c t.val) (ix3 h r z) = G3 m c (((cfg0.win 3).blk t).view.emb (ix3 h r z))
  rw [PayVal.pay1_apply]
  symm
  refine G3_eq m c _ t.val r ?_ ?_
  · show 25 * (win0_3.index t (0 : Fin 3) * 1 + 1 * h.val) + 24 = t.val
    have := h.isLt
    omega
  · show win0_3.index t (1 : Fin 3) * 2048 + 1 * r.val = r.val
    omega

/-- Entry (h, b, 0) lies in the block the last point of half `h` writes back. -/
theorem mem_blk3 (t : Fin cfg0.N) (h : Fin 2) (b : Fin 2048) (ht : t.val = 25 * h.val + 24) :
    ix3 h b (0 : Fin 1) ∈ ((cfg0.win 3).blk t).view.set := by
  obtain ⟨e0, e1, e2⟩ := idx3 t
  show ix3 h b (0 : Fin 1) ∈ ((View.whole main_v0_0).slice (win0_3.rect t)).set
  rw [View.set_slice_whole, Rect.mem_set_unit]
  intro a
  have hh := h.isLt
  have hb := b.isLt
  match a with
  | ⟨0, _⟩ => show win0_3.index t (0 : Fin 3) * 1 ≤ h.val ∧ h.val < win0_3.index t (0 : Fin 3) * 1 + 1; omega
  | ⟨1, _⟩ => show win0_3.index t (1 : Fin 3) * 2048 ≤ b.val ∧ b.val < win0_3.index t (1 : Fin 3) * 2048 + 2048; omega
  | ⟨2, _⟩ => show win0_3.index t (2 : Fin 3) * 1 ≤ 0 ∧ 0 < win0_3.index t (2 : Fin 3) * 1 + 1; omega

/-- Entry (h, b, 0) of the shift array after the run: row b's shift after the last point of half h. -/
theorem arr3_apply (c : Dev nD) (h : Fin 2) (b : Fin 2048) :
    (dats m 0 c).arrAt 3 cfg0.N (ix3 h b (0 : Fin 1)) = (stAfter m c (25 * h.val + 24) b).1 := by
  have hlt : 25 * h.val + 24 < cfg0.N := by have := h.isLt; show 25 * h.val + 24 < 50; omega
  have hf : (cfg0.win 3).flush ⟨25 * h.val + 24, hlt⟩ = true := (flush0_3 _).mpr (by show (25 * h.val + 24) % 25 = 24; omega)
  refine ((dats m 0 c).arrAt_apply_of_mem 3 (G3 m c) (fun t hft => flushed3_eq m c t hft) cfg0.N ⟨25 * h.val + 24, hlt⟩
    (ix3 h b (0 : Fin 1)) hlt hf (mem_blk3 _ h b rfl)).trans ?_
  exact G3_eq m c _ _ b rfl rfl

/-- What a flushing point writes back to the sum array is its block of `G4`. -/
theorem flushed4_eq (c : Dev nD) (t : Fin cfg0.N) (hf : (cfg0.win 4).flush t = true) :
    (dats m 0 c).flushed 4 t = ((cfg0.win 4).blk t).view.read (Elt Ideal) (G4 m c) := by
  have ht : t.val % 25 = 24 := (flush0_4 t).mp hf
  obtain ⟨e0, e1, e2⟩ := idx4 t
  show (cfg0.win 4).cut (grid0.coords t) ((dats m 0 c).after 4 t) = _
  rw [after4]
  funext j
  obtain ⟨h, r, z, rfl⟩ : ∃ (h : Fin 1) (r : Fin 2048) (z : Fin 1), j = ix3 h r z := ⟨j 0, j 1, j 2, eq_ix3 j⟩
  show k0_pay2 (F := Ideal) (lAfter m c t.val) (ix3 h r z) = G4 m c (((cfg0.win 4).blk t).view.emb (ix3 h r z))
  rw [PayVal.pay2_apply]
  symm
  refine G4_eq m c _ t.val r ?_ ?_
  · show 25 * (win0_4.index t (0 : Fin 3) * 1 + 1 * h.val) + 24 = t.val
    have := h.isLt
    omega
  · show win0_4.index t (1 : Fin 3) * 2048 + 1 * r.val = r.val
    omega

/-- Entry (h, b, 0) lies in the block of the sum array that the last point of half `h` writes back. -/
theorem mem_blk4 (t : Fin cfg0.N) (h : Fin 2) (b : Fin 2048) (ht : t.val = 25 * h.val + 24) :
    ix3 h b (0 : Fin 1) ∈ ((cfg0.win 4).blk t).view.set := by
  obtain ⟨e0, e1, e2⟩ := idx4 t
  show ix3 h b (0 : Fin 1) ∈ ((View.whole main_v0_1).slice (win0_4.rect t)).set
  rw [View.set_slice_whole, Rect.mem_set_unit]
  intro a
  have hh := h.isLt
  have hb := b.isLt
  match a with
  | ⟨0, _⟩ => show win0_4.index t (0 : Fin 3) * 1 ≤ h.val ∧ h.val < win0_4.index t (0 : Fin 3) * 1 + 1; omega
  | ⟨1, _⟩ => show win0_4.index t (1 : Fin 3) * 2048 ≤ b.val ∧ b.val < win0_4.index t (1 : Fin 3) * 2048 + 2048; omega
  | ⟨2, _⟩ => show win0_4.index t (2 : Fin 3) * 1 ≤ 0 ∧ 0 < win0_4.index t (2 : Fin 3) * 1 + 1; omega

/-- Entry (h, b, 0) of the sum array after the run. -/
theorem arr4_apply (c : Dev nD) (h : Fin 2) (b : Fin 2048) :
    (dats m 0 c).arrAt 4 cfg0.N (ix3 h b (0 : Fin 1)) = (stAfter m c (25 * h.val + 24) b).2 := by
  have hlt : 25 * h.val + 24 < cfg0.N := by have := h.isLt; show 25 * h.val + 24 < 50; omega
  have hf : (cfg0.win 4).flush ⟨25 * h.val + 24, hlt⟩ = true := (flush0_4 _).mpr (by show (25 * h.val + 24) % 25 = 24; omega)
  refine ((dats m 0 c).arrAt_apply_of_mem 4 (G4 m c) (fun t hft => flushed4_eq m c t hft) cfg0.N ⟨25 * h.val + 24, hlt⟩
    (ix3 h b (0 : Fin 1)) hlt hf (mem_blk4 _ h b rfl)).trans ?_
  exact G4_eq m c _ _ b rfl rfl

/-! ## The host operations over the region's exit contents -/

include hg in
/-- Over any buffer contents that hold the four arguments as the region found them and, in the two result arrays, the
    halves' pairs: the host operations leave the mean of the loss vector. -/
theorem tail_of (c : Dev nD) (W : Valuation τ sig (Elt Ideal))
    (e0 : W (Proc.devRef .tc main_arg0) = V m c main_arg0) (e1 : W (Proc.devRef .tc main_arg1) = V m c main_arg1)
    (e2 : W (Proc.devRef .tc main_arg2) = V m c main_arg2) (e3 : W (Proc.devRef .tc main_arg3) = V m c main_arg3)
    (o1 : ∀ (h : Fin 2) (b : Fin 2048), W (Proc.devRef .tc main_v0_0) (ix3 h b (0 : Fin 1)) = (stAfter m c (25 * h.val + 24) b).1)
    (o2 : ∀ (h : Fin 2) (b : Fin 2048), W (Proc.devRef .tc main_v0_1) (ix3 h b (0 : Fin 1)) = (stAfter m c (25 * h.val + 24) b).2) :
    StableHlo.after (hostOps1 (F := Ideal)) W (Proc.devRef .tc main_v39)
      = Host.divf (Host.reduceAdd (Cert.Spec.nllVec (V m c main_arg0) (V m c main_arg1) (V m c main_arg2) (V m c main_arg3))
          (constant S_ .f32 0x00000000#32) Facts₀.reducesTo_S2048_S_d0 Facts₀.h_S_) (constant S_ .f32 0x45000000#32) := by
  have hgW : Cert.Spec.Good (W (Proc.devRef .tc main_arg0)) (W (Proc.devRef .tc main_arg1)) (W (Proc.devRef .tc main_arg2)) (W (Proc.devRef .tc main_arg3)) := by
    rw [e0, e1, e2, e3]; exact hg c
  have key := Cert.KernelIdeal.HostTail.tail_value W hgW (fun b => by
    rw [e0, e1, e2, o1 0 b, o1 1 b, o2 0 b, o2 1 b]
    exact ⟨stAfter_inv m c 0 (by decide) b, stAfter_inv m c 1 (by decide) b⟩)
  rw [e0, e1, e2, e3] at key
  exact key

include hg in
/-- The result buffer after the run: the mean of the loss vector. -/
theorem kernel_value (c : Dev nD) :
    Pipeline.afterTail₀ cfgs (dats m) 0 (V0 m) [hostOps1] c main_v39
      = Host.divf (Host.reduceAdd (Cert.Spec.nllVec (V m c main_arg0) (V m c main_arg1) (V m c main_arg2) (V m c main_arg3))
          (constant S_ .f32 0x00000000#32) Facts₀.reducesTo_S2048_S_d0 Facts₀.h_S_) (constant S_ .f32 0x45000000#32) := by
  unfold Pipeline.afterTail₀
  refine tail_of m hg c _ ?_ ?_ ?_ ?_ ?_ ?_
  · exact (Pipeline.withArrays_arr spec0 launch0.win.arr_inj c _ _ 0).trans (((dats m 0 c).arrAt_in 0 rfl _).trans (A_eq m c 0))
  · exact (Pipeline.withArrays_arr spec0 launch0.win.arr_inj c _ _ 1).trans (((dats m 0 c).arrAt_in 1 rfl _).trans (A_eq m c 1))
  · exact (Pipeline.withArrays_arr spec0 launch0.win.arr_inj c _ _ 2).trans (((dats m 0 c).arrAt_in 2 rfl _).trans (A_eq m c 2))
  · exact Pipeline.withArrays_of_ne spec0 c (V0 m c) _ main_arg3 (by decide)
  · intro h b
    exact (congrFun (Pipeline.withArrays_arr spec0 launch0.win.arr_inj c _ _ 3) _).trans (arr3_apply m c h b)
  · intro h b
    exact (congrFun (Pipeline.withArrays_arr spec0 launch0.win.arr_inj c _ _ 4) _).trans (arr4_apply m c h b)

end Cert.KernelIdeal.Body

end
-- ==== Proof.RefValue.lean ====
/-
  The value of the reference's result.

  The reference forms the logits  z b n = Σ_k x0[b,k] · x1[n,k] + x2[n],  takes each row's log-softmax with the row's
  maximum as the shift (the maximum taken from −∞, then once more against −∞), reads it at the row's label, negates it,
  sums the 2048 rows from zero and divides by 2048.  Shown here: the vector that is summed is the loss vector, row b
  holding the row's log-sum-exp less the logit at the row's label.  The last two operations are left as they stand.

  A label names a column of the table, so as a 32-bit word its sign bit is clear: the wrap of a negative index by the
  table's length leaves it alone, the test 0 ≤ label ≤ 99999 answers 1 (and so does its conjunction over the axis of
  size one), and the gather, which reads the label signed and clamps it into the table, reads row b at the label's
  column.  Every entry of the arrays is a real number, so each logit is a real number and the row's maximum over its
  100000 columns is a real number M; with that shift the entry at the label's column is
  (z − M) − log (0 + Σ_n exp (z_n − M)),  whose negation is the log-sum-exp less the logit whatever M is.
-/
import proofs.«414775_j1821066134199_3_alg».proof.Proof.RefReadP
import proofs.«414775_j1821066134199_3_alg».proof.Proof.Spec
import proofs.«414775_j1821066134199_3_alg».proof.Proof.LibSoftmaxReal
import proofs.«414775_j1821066134199_3_alg».proof.Proof.LibExtrema
import Idealize.ShloMosaic.Lib.ValueIdx
import Idealize.ShloMosaic.PureOps.Reduce
import Idealize.ShloMosaic.PureOps.Ideal.Laws

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx
open Cert.ReferenceIdeal.ReadP

/-! ## A label inside the table, as a 32-bit word -/

/-- A word below 100000 has its sign bit clear, so read signed it is the same number. -/
theorem toInt_label (y : BitVec 32) (hy : y.toNat < 100000) : y.toInt = (y.toNat : Int) := by
  rw [BitVec.toInt_eq_toNat_cond, if_pos (by omega)]

/-- Read signed and brought back to a natural number it is still the same number. -/
theorem toNat_toInt_label (y : BitVec 32) (hy : y.toNat < 100000) : y.toInt.toNat = y.toNat := by
  rw [toInt_label y hy]; exact Int.toNat_natCast _

/-- It is not negative: the signed test `y < 0` answers 0. -/
theorem slt_zero_label (y : BitVec 32) (hy : y.toNat < 100000) : IntOp.cmpi .slt y 0#32 = 0#1 := by
  have h : y.slt 0#32 = false := by
    unfold BitVec.slt
    rw [toInt_label y hy]
    exact decide_eq_false (by simp)
  show BitVec.ofBool (y.slt 0#32) = 0#1
  rw [h]; rfl

/-- The signed test `y ≥ 0` answers 1. -/
theorem sge_zero_label (y : BitVec 32) (hy : y.toNat < 100000) : IntOp.cmpi .sge y 0#32 = 1#1 := by
  have h : (0#32).sle y = true := by
    unfold BitVec.sle
    rw [toInt_label y hy]
    exact decide_eq_true (by simp)
  show BitVec.ofBool ((0#32).sle y) = 1#1
  rw [h]; rfl

/-- The signed test `y ≤ 99999` answers 1. -/
theorem sle_last_label (y : BitVec 32) (hy : y.toNat < 100000) : IntOp.cmpi .sle y 99999#32 = 1#1 := by
  have h : y.sle 99999#32 = true := by
    unfold BitVec.sle
    rw [toInt_label y hy, show (99999#32 : BitVec 32).toInt = 99999 from by decide]
    exact decide_eq_true (by omega)
  show BitVec.ofBool (y.sle 99999#32) = 1#1
  rw [h]; rfl

/-- A conjunction of ones from the initial one is one. -/
theorem fold_andi_one {K : Type} (S : Finset K) (g : K → BitVec 1) (hg : ∀ k, g k = 1#1) :
    S.fold IntOp.andi 1#1 g = 1#1 := by
  classical
  refine Finset.induction_on S Finset.fold_empty ?_
  intro a s ha ih
  rw [Finset.fold_insert ha, ih, hg a]; rfl

/-! ## The label's column, wrapped and tested -/

/-- The label is not negative, so wrapping it by the table's length leaves it as it is. -/
theorem v5_label (x3 : (⟨S2048, .i32⟩ : BufTy).Contents (Elt Ideal)) (hl : ∀ i, (x3 i).toNat < 100000) (k : S2048x1x1.Idx) :
    val_main_call1_v5 (F := Ideal) x3 k = x3 (idx_main_v5 (idx_main_call1_v5 k)) := by
  rw [val_main_call1_v5_apply, val_main_call1_v4_apply, val_main_call1_v1_apply, val_main_v5_apply, val_main_call1_v0_apply,
    val_main_call1_c_apply, slt_zero_label _ (hl _), select_zero]

/-- It lies between 0 and 99999, so the range test answers 1 at every index. -/
theorem v11_one (x3 : (⟨S2048, .i32⟩ : BufTy).Contents (Elt Ideal)) (hl : ∀ i, (x3 i).toNat < 100000) (k : S2048x1x1.Idx) :
    val_main_call1_v11 (F := Ideal) x3 k = 1#1 := by
  rw [val_main_call1_v11_apply, val_main_call1_v7_apply, val_main_call1_v10_apply, v5_label x3 hl, val_main_call1_v6_apply,
    val_main_call1_c_2_apply, val_main_call1_v9_apply, val_main_call1_v8_apply, val_main_call1_c_1_apply,
    sge_zero_label _ (hl _), sle_last_label _ (hl _)]
  rfl

/-- The conjunction of the test over the axis of size one, from the initial one, is one. -/
theorem v12_one (x3 : (⟨S2048, .i32⟩ : BufTy).Contents (Elt Ideal)) (hl : ∀ i, (x3 i).toNat < 100000) (j : S2048x1.Idx) :
    val_main_call1_v12 (F := Ideal) x3 j = 1#1 := by
  unfold val_main_call1_v12
  rw [Host.reduce_eq_fold_single IntOp.andi _ _ reducesTo_S2048x1x1_S2048x1_d2 (by decide) h_S_ j]
  exact fold_andi_one _ _ (fun k => v11_one x3 hl _)

/-! ## The gather reads the label's column -/

/-- Row `b`'s label, as a column of the table. -/
def col (x3 : (⟨S2048, .i32⟩ : BufTy).Contents (Elt Ideal)) (hl : ∀ i, (x3 i).toNat < 100000) (b : Fin 2048) : Fin 100000 :=
  ⟨(x3 (ix1 b)).toNat, hl _⟩

/-- For result row `b` the gather reads the operand at row `b` (the batching axis) and at the column its start index
    names: the label, read signed and clamped into the table, which changes nothing. -/
theorem gather_idx (x3 : (⟨S2048, .i32⟩ : BufTy).Contents (Elt Ideal)) (hl : ∀ i, (x3 i).toNat < 100000) (b : Fin 2048) :
    gather_S2048x100000_S2048x1x1_S2048x1_n_1_0_0_1_2_11.operandIdx (ix2 b (0 : Fin 1)) (val_main_call1_v5 (F := Ideal) x3)
      = ix2 b (col x3 hl b) := by
  funext a
  apply Fin.ext
  match a with
  | ⟨0, _⟩ =>
    show gather_S2048x100000_S2048x1x1_S2048x1_n_1_0_0_1_2_11.start (ix2 b (0 : Fin 1)) (val_main_call1_v5 (F := Ideal) x3) 0
        + gather_S2048x100000_S2048x1x1_S2048x1_n_1_0_0_1_2_11.batchCoord (ix2 b (0 : Fin 1)) 0
        + gather_S2048x100000_S2048x1x1_S2048x1_n_1_0_0_1_2_11.offCoord (ix2 b (0 : Fin 1)) 0 = b.val
    rw [GatherDims.start_batching _ _ _ _ (by decide), GatherDims.offCoord_eq_zero _ _ _ (by decide), Nat.zero_add, Nat.add_zero]
    rfl
  | ⟨1, _⟩ =>
    show gather_S2048x100000_S2048x1x1_S2048x1_n_1_0_0_1_2_11.start (ix2 b (0 : Fin 1)) (val_main_call1_v5 (F := Ideal) x3) 1
        + gather_S2048x100000_S2048x1x1_S2048x1_n_1_0_0_1_2_11.batchCoord (ix2 b (0 : Fin 1)) 1
        + gather_S2048x100000_S2048x1x1_S2048x1_n_1_0_0_1_2_11.offCoord (ix2 b (0 : Fin 1)) 1 = (x3 (ix1 b)).toNat
    rw [GatherDims.batchCoord_eq_zero _ _ _ (by decide), GatherDims.offCoord_eq_zero _ _ _ (by decide), Nat.add_zero]
    unfold GatherDims.start
    rw [dif_pos (by decide), v5_label x3 hl]
    have hrow : idx_main_v5 (idx_main_call1_v5 (gather_S2048x100000_S2048x1x1_S2048x1_n_1_0_0_1_2_11.siIdx (ix2 b (0 : Fin 1))
        ⟨List.idxOf (1 : Fin 2) gather_S2048x100000_S2048x1x1_S2048x1_n_1_0_0_1_2_11.startIndexMap,
          List.idxOf_lt_length_iff.2 (by decide)⟩)) = ix1 b := by
      funext d
      apply Fin.ext
      match d with
      | ⟨0, _⟩ =>
        show ((b.val * 1 + 0) * 1 + 0) / 1 = b.val
        omega
    rw [hrow, toNat_toInt_label _ (hl _)]
    exact Nat.min_eq_left (by have := hl (ix1 b); show (x3 (ix1 b)).toNat ≤ 100000 - 1; omega)

/-! ## A row of logits, its maximum, and the row's loss -/

/-- Dropping the column axis of the logits leaves the rows. -/
theorem red_row : S2048x100000.Reduces [1] S2048 := by decide

/-- Row `b`'s logit at column `n`, as the program computes it (the contraction over the 128 features plus the bias),
    is the real number `zrow b n`. -/
theorem v3_row (x0 : (⟨S2048x128, .f32⟩ : BufTy).Contents (Elt Ideal)) (x1 : (⟨S100000x128, .f32⟩ : BufTy).Contents (Elt Ideal))
    (x2 : (⟨S100000, .f32⟩ : BufTy).Contents (Elt Ideal)) (x3 : (⟨S2048, .i32⟩ : BufTy).Contents (Elt Ideal))
    (hg : Cert.Spec.Good x0 x1 x2 x3) (b : Fin 2048) (n : Fin 100000) :
    val_main_v3 (F := Ideal) x0 x1 x2 (ix2 b n) = ((Cert.Spec.zrow x0 x1 x2 b n.val : ℝ) : EReal) := by
  have el : ∀ k : Fin 128, lidx_main_v0 (ix2 b n) k = ix2 b k := fun k =>
    funext fun a => Fin.ext (by match a with | ⟨0, _⟩ => rfl | ⟨1, _⟩ => rfl)
  have er : ∀ k : Fin 128, ridx_main_v0 (ix2 b n) k = ix2 n k := fun k =>
    funext fun a => Fin.ext (by match a with | ⟨0, _⟩ => rfl | ⟨1, _⟩ => rfl)
  have e2 : idx_main_v1 (idx_main_v2 (ix2 b n)) = ix1 n :=
    funext fun a => Fin.ext (by match a with | ⟨0, _⟩ => rfl)
  rw [val_main_v3_apply, val_main_v0_apply, val_main_v2_apply, val_main_v1_apply, e2]
  simp only [el, er, Ideal.addf_def]
  exact Cert.Spec.zrow_coe x0 x1 x2 x3 hg b n

/-- The shift the program subtracts from row `b`: the larger of −∞ and the row's maximum taken from −∞. The row has
    100000 real entries, so it is a real number. -/
theorem rowmax_real (x0 : (⟨S2048x128, .f32⟩ : BufTy).Contents (Elt Ideal)) (x1 : (⟨S100000x128, .f32⟩ : BufTy).Contents (Elt Ideal))
    (x2 : (⟨S100000, .f32⟩ : BufTy).Contents (Elt Ideal)) (x3 : (⟨S2048, .i32⟩ : BufTy).Contents (Elt Ideal))
    (hg : Cert.Spec.Good x0 x1 x2 x3) (b : Fin 2048) :
    ∃ M : ℝ, val_main_call0_v2 (F := Ideal) x0 x1 x2 (ix1 b) = (M : EReal) := by
  obtain ⟨M, hM⟩ := Cert.RealLemmas.fold_max_coe (n := 99999) (fun k => Cert.Spec.zrow x0 x1 x2 b k.val)
  refine ⟨M, ?_⟩
  rw [val_main_call0_v2_apply, val_main_call0_v1_apply, val_main_call0_cst_0_apply]
  unfold val_main_call0_v0
  rw [Host.reduce_eq_fold_single (FloatOps.maximumf (F := Ideal) (φ := .f32)) _ _ reducesTo_S2048x100000_S2048_d1 red_row h_S_ (ix1 b)]
  have hrow : (val_main_v3 (F := Ideal) x0 x1 x2 ∘ red_row.lift (ix1 b))
      = fun k : Fin (99999 + 1) => ((Cert.Spec.zrow x0 x1 x2 b k.val : ℝ) : EReal) := by
    funext k
    have e : red_row.lift (ix1 b) k = ix2 b (k : Fin 100000) :=
      funext fun a => Fin.ext (by match a with | ⟨0, _⟩ => rfl | ⟨1, _⟩ => rfl)
    show val_main_v3 (F := Ideal) x0 x1 x2 (red_row.lift (ix1 b) k) = _
    rw [e]
    exact v3_row x0 x1 x2 x3 hg b k
  rw [hrow]
  show max (Ideal.ofBits .f32 0xFF800000#32)
      ((Finset.univ : Finset (Fin (99999 + 1))).fold max (Ideal.ofBits .f32 0xFF800000#32) _) = _
  rw [Cert.LibExtrema.ofBits_neg_inf, hM]
  exact max_eq_right bot_le

/-- Row `b` of the vector the program averages: with `M` the row's shift, the log-softmax at the label's column is
    `(z − M) − log (0 + Σ exp (z − M))`, and its negation is the row's log-sum-exp less the label's logit. -/
theorem v8_row (x0 : (⟨S2048x128, .f32⟩ : BufTy).Contents (Elt Ideal)) (x1 : (⟨S100000x128, .f32⟩ : BufTy).Contents (Elt Ideal))
    (x2 : (⟨S100000, .f32⟩ : BufTy).Contents (Elt Ideal)) (x3 : (⟨S2048, .i32⟩ : BufTy).Contents (Elt Ideal))
    (hg : Cert.Spec.Good x0 x1 x2 x3) (b : Fin 2048) :
    val_main_v8 (F := Ideal) x0 x1 x2 x3 (ix1 b)
      = ((Cert.LogSumExp.lse (Cert.Spec.zrow x0 x1 x2 b) - Cert.Spec.zrow x0 x1 x2 b (Cert.Spec.lab x3 b) : ℝ) : EReal) := by
  obtain ⟨M, hM⟩ := rowmax_real x0 x1 x2 x3 hg b
  have e7 : idx_main_v7 (ix1 b) = ix2 b (0 : Fin 1) :=
    funext fun a => Fin.ext (by match a with | ⟨0, _⟩ => exact Nat.div_one _ | ⟨1, _⟩ => rfl)
  -- the shifted logit at any column of the row
  have h5 : ∀ n : Fin 100000, val_main_call0_v5 (F := Ideal) x0 x1 x2 (ix2 b n)
      = ((Cert.Spec.zrow x0 x1 x2 b n.val : ℝ) : EReal) - (M : EReal) := by
    intro n
    have e : idx_main_call0_v3 (idx_main_call0_v4 (ix2 b n)) = ix1 b :=
      funext fun a => Fin.ext (by match a with | ⟨0, _⟩ => rfl)
    rw [val_main_call0_v5_apply, val_main_call0_v4_apply, val_main_call0_v3_apply, e, hM, v3_row x0 x1 x2 x3 hg b n]
    exact Ideal.subf_def _ _
  -- the row's sum of shifted exponentials, from the initial zero
  have h7 : val_main_call0_v7 (F := Ideal) x0 x1 x2 (ix1 b)
      = 0 + ∑ n : Fin 100000, Ideal.exp (((Cert.Spec.zrow x0 x1 x2 b n.val : ℝ) : EReal) - (M : EReal)) := by
    rw [val_main_call0_v7_apply, val_main_call0_cst_1_apply]
    show Ideal.ofBits .f32 0x00000000#32 + _ = _
    rw [Ideal.ofBits_zero_f32]
    refine congrArg (0 + ·) (Finset.sum_congr rfl fun n _ => ?_)
    have e : idx_main_call0_v7 (ix1 b) n = ix2 b n :=
      funext fun a => Fin.ext (by match a with | ⟨0, _⟩ => rfl | ⟨1, _⟩ => rfl)
    rw [e, val_main_call0_v6_apply, h5 n]
    exact Ideal.hostUnary_exp_def _
  -- its logarithm, broadcast along the row
  have h10 : ∀ n : Fin 100000, val_main_call0_v10 (F := Ideal) x0 x1 x2 (ix2 b n)
      = Ideal.log (0 + ∑ n : Fin 100000, Ideal.exp (((Cert.Spec.zrow x0 x1 x2 b n.val : ℝ) : EReal) - (M : EReal))) := by
    intro n
    have e : idx_main_call0_v8 (idx_main_call0_v10 (ix2 b n)) = ix1 b :=
      funext fun a => Fin.ext (by match a with | ⟨0, _⟩ => rfl)
    rw [val_main_call0_v10_apply, val_main_call0_v9_apply, val_main_call0_v8_apply, e, h7]
    exact Ideal.hostUnary_log_def _
  rw [val_main_v8_apply, val_main_v7_apply, e7, val_main_v6_apply, v12_one x3 hg.label, select_one]
  show FloatOps.hostNegf (F := Ideal) (φ := .f32) (val_main_v4 (F := Ideal) x0 x1 x2
    (gather_S2048x100000_S2048x1x1_S2048x1_n_1_0_0_1_2_11.operandIdx (ix2 b (0 : Fin 1)) (val_main_call1_v5 (F := Ideal) x3))) = _
  rw [gather_idx x3 hg.label b, val_main_v4_apply, h5, h10, Ideal.hostNegf_def, Ideal.negf_def, Ideal.subf_def]
  exact Cert.LogSumExp.neg_logSoftmax (Cert.Spec.zrow x0 x1 x2 b) (col x3 hg.label b) M

/-- The vector the program averages is the loss vector. -/
theorem v8_eq (x0 : (⟨S2048x128, .f32⟩ : BufTy).Contents (Elt Ideal)) (x1 : (⟨S100000x128, .f32⟩ : BufTy).Contents (Elt Ideal))
    (x2 : (⟨S100000, .f32⟩ : BufTy).Contents (Elt Ideal)) (x3 : (⟨S2048, .i32⟩ : BufTy).Contents (Elt Ideal))
    (hg : Cert.Spec.Good x0 x1 x2 x3) :
    val_main_v8 (F := Ideal) x0 x1 x2 x3 = Cert.Spec.nllVec x0 x1 x2 x3 := by
  funext i
  have hi : i = ix1 (i 0) := eq_ix1 i
  rw [hi]
  exact v8_row x0 x1 x2 x3 hg (i 0)

/-- The reference's result: the mean, as the program takes it (the sum over the 2048 rows from zero, divided by 2048),
    of the loss vector. -/
theorem result (m : (ℓ : Loc nD τ sig) → Buf (Elt Ideal) ℓ) (c : Dev nD)
    (hg : Cert.Spec.Good (m ((c.tc : Thread nD τ).loc main_arg0)) (m ((c.tc : Thread nD τ).loc main_arg1))
      (m ((c.tc : Thread nD τ).loc main_arg2)) (m ((c.tc : Thread nD τ).loc main_arg3))) :
    Cert.ReferenceIdeal.ValueP.res_out0 (F := Ideal) m c
      = Host.divf (Host.reduceAdd (Cert.Spec.nllVec (m ((c.tc : Thread nD τ).loc main_arg0)) (m ((c.tc : Thread nD τ).loc main_arg1))
          (m ((c.tc : Thread nD τ).loc main_arg2)) (m ((c.tc : Thread nD τ).loc main_arg3)))
        (constant S_ .f32 0x00000000#32) reducesTo_S2048_S_d0 h_S_) (constant S_ .f32 0x45000000#32) := by
  refine (val_main_v10_eq (F := Ideal) m c).trans ?_
  unfold val_main_v10 val_main_v9 val_main_cst val_main_cst_0
  rw [v8_eq _ _ _ _ hg]

end Cert.RefValue

end
-- ==== Proof.PreFacts.lean ====
/-
  What the precondition says of the four argument arrays: every float entry is a real number (its magnitude is
  below +∞) and every label lies in 0 ‥ 99999 (it is ≥ 0 and < 100000 as a signed 32-bit integer, so its unsigned value
  is below 100000).
-/
import proofs.«414775_j1821066134199_3_alg».proof.Pre_finite_inputs
import proofs.«414775_j1821066134199_3_alg».proof.Proof.Gen.Pre_finite_inputs
import proofs.«414775_j1821066134199_3_alg».proof.Proof.Spec
import proofs.«414775_j1821066134199_3_alg».proof.Proof.LibExtrema
import Idealize.ShloMosaic.Lib.ReduceAll

noncomputable section

namespace Cert.PreFacts

open Idealize.ShloMosaic Idealize.ShloMosaic.ValueIdx
open Cert.LibExtrema

/-- A 32-bit word that is at least 0 and below 100000, both read signed, is below 100000 read unsigned: being
    nonnegative its top bit is clear, so its signed and unsigned readings are the same number. -/
theorem toNat_lt_of_signed_range (w : BitVec 32) (h0 : (0#32 : BitVec 32).toInt ≤ w.toInt)
    (h1 : w.toInt < (100000#32 : BitVec 32).toInt) : w.toNat < 100000 := by
  have e0 : (0#32 : BitVec 32).toInt = 0 := by decide
  have e1 : (100000#32 : BitVec 32).toInt = 100000 := by decide
  rw [e0] at h0
  rw [e1] at h1
  rw [BitVec.toInt_eq_toNat_cond] at h0 h1
  have hw : w.toNat < 2 ^ 32 := w.isLt
  split at h0 <;> omega

/-- The printed precondition, all ones, gives the four facts. -/
theorem good_of_pre [Cert.Pre_finite_inputs.Facts]
    (x0 : FVec Ideal Cert.Pre_finite_inputs.S2048x128 .f32) (x1 : FVec Ideal Cert.Pre_finite_inputs.S100000x128 .f32)
    (x2 : FVec Ideal Cert.Pre_finite_inputs.S100000 .f32) (x3 : IVec Cert.Pre_finite_inputs.S2048 32)
    (h : Cert.Pre_finite_inputs.fn (F := Ideal) x0 x1 x2 x3 = fun _ => 1#1) :
    Cert.Spec.Good x0 x1 x2 x3 := by
  -- the one word of the result, as a conjunction of six words
  have hw := congrFun h ValueIdx.ix0
  simp only [Cert.Pre_finite_inputs.fn, Cert.Pre_finite_inputs.fn_part1, andi] at hw
  obtain ⟨hw, hlt⟩ := IntOp.andi_eq_one.1 hw
  obtain ⟨hw, hge⟩ := IntOp.andi_eq_one.1 hw
  obtain ⟨hw, hr2⟩ := IntOp.andi_eq_one.1 hw
  obtain ⟨hr0, hr1⟩ := IntOp.andi_eq_one.1 hw
  refine ⟨fun i => ?_, fun i => ?_, fun i => ?_, fun i => ?_⟩
  · exact real_of_abs_lt_inf (x0 i) (Host.reduce_andi_all _ _ _ _ _ hr0 i)
  · exact real_of_abs_lt_inf (x1 i) (Host.reduce_andi_all _ _ _ _ _ hr1 i)
  · exact real_of_abs_lt_inf (x2 i) (Host.reduce_andi_all _ _ _ _ _ hr2 i)
  · have a := Host.reduce_andi_all _ _ _ _ _ hge i
    have b := Host.reduce_andi_all _ _ _ _ _ hlt i
    exact toNat_lt_of_signed_range (x3 i) (IntOp.cmpi_sge.1 a) (IntOp.cmpi_slt.1 b)

end Cert.PreFacts

end
-- ==== Proof.lean ====
/-
  A mean cross-entropy loss over a 100000-way linear classifier, computed two ways.

  The reference forms all 2048 × 100000 logits z = x0 · x1ᵀ + x2, takes the log-softmax of each row and averages the
  negated entries at the rows' labels.  The kernel never forms the logits: it streams the table in 50 tiles of 2048
  rows, split in two halves of 25 tiles, and keeps per query row and per half a running shift m and a running sum
  l = Σ exp (z − m) over the columns seen so far (the columns a tile has past the table's end are masked to −∞ and add
  nothing); the host merges the two halves, log-sum-exp = m + log l, and subtracts the label's logit, gathered directly.
  Over the extended reals the two agree because  μ + log Σ exp (z − μ)  is the same number for every real shift μ, so
  neither the tiling nor the running shift's value matters — provided every entry is a real number and every label
  names a column, which is what the precondition says.

  The pieces: the body's three runs, one per kind of grid point, and the frames built on them, the word-level program's
  with the outputs forgotten and the idealized program's with the scratch columns tracked as the pass's pair; the
  body's arithmetic read index by index and the stored pieces read back as one function; the pass's invariant and the
  merge (LibLogSumExp); the host operations after the region; and the reference's run read stage by stage.
-/
import proofs.«414775_j1821066134199_3_alg».proof.Defs
import proofs.«414775_j1821066134199_3_alg».proof.Proof.Gen.Kernel
import proofs.«414775_j1821066134199_3_alg».proof.Proof.Gen.KernelIdeal
import proofs.«414775_j1821066134199_3_alg».proof.Proof.Gen.ReferenceIdeal
import proofs.«414775_j1821066134199_3_alg».proof.Proof.Gen.Pre_finite_inputs
import proofs.«414775_j1821066134199_3_alg».proof.Proof.WordFrame
import proofs.«414775_j1821066134199_3_alg».proof.Proof.KernelValue
import proofs.«414775_j1821066134199_3_alg».proof.Proof.RefValue
import proofs.«414775_j1821066134199_3_alg».proof.Proof.PreFacts
import Idealize.ShloMosaic.Adequacy
import Idealize.ShloMosaic.Init

noncomputable section

namespace Cert.Proof

open Idealize.ShloMosaic Idealize.ShloMosaic.TcCoe Idealize.SL.Sem

/-- The precondition, on every core, gives the four facts about the idealized kernel's argument arrays. -/
theorem good_kernel [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    Cert.Spec.Good (Cert.KernelIdeal.Gen.V m c Cert.KernelIdeal.main_arg0) (Cert.KernelIdeal.Gen.V m c Cert.KernelIdeal.main_arg1)
      (Cert.KernelIdeal.Gen.V m c Cert.KernelIdeal.main_arg2) (Cert.KernelIdeal.Gen.V m c Cert.KernelIdeal.main_arg3) :=
  Cert.PreFacts.good_of_pre _ _ _ _ (h c)

/-- The word-level program's frame. -/
theorem frame_word : Cert.frame_Kernel (hKernel := Cert.Kernel.Gen.facts) (hPre_finite_inputs := Cert.Pre_finite_inputs.Gen.facts) :=
  fun m ρ _ => Cert.Kernel.Body.frame (F := Bits) m ρ

/-- The idealized kernel's frame: its run read at the argument arrays. -/
theorem frame_ideal : Cert.frame_KernelIdeal (hKernelIdeal := Cert.KernelIdeal.Gen.facts) (hPre_finite_inputs := Cert.Pre_finite_inputs.Gen.facts) :=
  fun m ρ hpre =>
    Cert.KernelIdeal.Gen.frame_of m ρ (Cert.KernelIdeal.Body.dats m) (Cert.KernelIdeal.Body.A_eq m)
      (Cert.KernelIdeal.Body.run_main m ρ (fun c => good_kernel m hpre c))

/-- The reference's frame: its run with the result dropped. -/
theorem frame_ref : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.ValueP.run (F := Ideal) m ρ)

/-- The one constant the idealization names, at both of its sites: the mask's fill value is −∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- Both programs end with the mean of the same loss vector. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hg := fun c => good_kernel m hpre c
  refine ⟨fun c => Pipeline.afterTail₀ Cert.KernelIdeal.cfgs (Cert.KernelIdeal.Body.dats m) 0 (Cert.KernelIdeal.Gen.V0 m)
      [Cert.KernelIdeal.Gen.hostOps1] c Cert.KernelIdeal.main_v39, ?_, ?_⟩
  · -- the kernel's run: the result buffer after the host tail, the arguments as launched
    refine (θ_run Cert.KernelIdeal.defs _ _).mono (fun r h c => ⟨?_, ?_, ?_, ?_, ?_⟩) (Cert.KernelIdeal.Body.run_main m ρ hg)
    · exact (h c).2 Cert.KernelIdeal.main_v39 (Pipeline.mem_restRefs_of Cert.KernelIdeal.main_v39 (by decide) (by decide))
    · exact ((h c).1 0).trans (((Cert.KernelIdeal.Body.dats m 0 c).arrAt_in 0 rfl _).trans
        ((Cert.KernelIdeal.Body.A_eq m c 0).trans (Cert.KernelIdeal.Gen.V_main_arg0 m c)))
    · exact ((h c).1 1).trans (((Cert.KernelIdeal.Body.dats m 0 c).arrAt_in 1 rfl _).trans
        ((Cert.KernelIdeal.Body.A_eq m c 1).trans (Cert.KernelIdeal.Gen.V_main_arg1 m c)))
    · exact ((h c).1 2).trans (((Cert.KernelIdeal.Body.dats m 0 c).arrAt_in 2 rfl _).trans
        ((Cert.KernelIdeal.Body.A_eq m c 2).trans (Cert.KernelIdeal.Gen.V_main_arg2 m c)))
    · exact ((h c).2 Cert.KernelIdeal.main_arg3 (Pipeline.mem_restRefs_of Cert.KernelIdeal.main_arg3 (by decide) (by decide))).trans
        (Cert.KernelIdeal.Gen.W_main_arg3 m (Cert.KernelIdeal.Body.dats m) c)
  · -- the reference's run: its result is the same mean of the same loss vector, its arguments being the kernel's
    refine (θ_run Cert.ReferenceIdeal.defs _ _).mono (fun r h c => ⟨(h c).1.trans ?_, (h c).2⟩)
      (Cert.ReferenceIdeal.ValueP.run (F := Ideal) m' ρ')
    have hg' : Cert.Spec.Good (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
      rw [(hagree c).1, (hagree c).2.1, (hagree c).2.2.1, (hagree c).2.2.2]; exact hg c
    have e := Cert.RefValue.result m' c hg'
    rw [(hagree c).1, (hagree c).2.1, (hagree c).2.2.1, (hagree c).2.2.2] at e
    exact e.trans (Cert.KernelIdeal.Body.kernel_value m hg c).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
